-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.sign_bit.Statement Cert.KernelIdeal.S128x1 .f32
  ∧ IdealRules.sign_bit.Statement Cert.KernelIdeal.S128x1 .f32
  ∧ IdealRules.sign_bit.Statement Cert.KernelIdeal.S128x1 .f32
  ∧ IdealRules.sign_bit.Statement Cert.KernelIdeal.S128x1 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x8 : Shape := ⟨3, ![4, 2048, 8]⟩
abbrev S4x2048x4x1024 : Shape := ⟨4, ![4, 2048, 4, 1024]⟩
abbrev S4000506x64 : Shape := ⟨2, ![4000506, 64]⟩
abbrev S8 : Shape := ⟨1, ![8]⟩
abbrev S1024x512 : Shape := ⟨2, ![1024, 512]⟩
abbrev S4x1024x512 : Shape := ⟨3, ![4, 1024, 512]⟩
abbrev S4x1024 : Shape := ⟨2, ![4, 1024]⟩
abbrev S4x1024x4 : Shape := ⟨3, ![4, 1024, 4]⟩
abbrev S_ : Shape := ⟨0, ![]⟩

class Facts : Prop where
  bcast_S_S4x2048x4x1024 : S_.BroadcastsInDim S4x2048x4x1024 (![] : Fin 0 → Fin S4x2048x4x1024.rank)
  reducesTo_S4x2048x4x1024_S_d0_1_2_3 : S4x2048x4x1024.ReducesTo [0, 1, 2, 3] S_
  h_S_ : 0 < S_.numel
  bcast_S_S4000506x64 : S_.BroadcastsInDim S4000506x64 (![] : Fin 0 → Fin S4000506x64.rank)
  reducesTo_S4000506x64_S_d0_1 : S4000506x64.ReducesTo [0, 1] S_
  bcast_S_S1024x512 : S_.BroadcastsInDim S1024x512 (![] : Fin 0 → Fin S1024x512.rank)
  reducesTo_S1024x512_S_d0_1 : S1024x512.ReducesTo [0, 1] S_
  bcast_S_S4x1024x512 : S_.BroadcastsInDim S4x1024x512 (![] : Fin 0 → Fin S4x1024x512.rank)
  reducesTo_S4x1024x512_S_d0_1_2 : S4x1024x512.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S4x1024x4 : S_.BroadcastsInDim S4x1024x4 (![] : Fin 0 → Fin S4x1024x4.rank)
  reducesTo_S4x1024x4_S_d0_1_2 : S4x1024x4.ReducesTo [0, 1, 2] S_

variable [Facts]

def fn_part2 {F : FTy → Type} [FloatOps F] (main_arg9 : FVec F S4x1024x4 .f32) (main_v33 : IVec S_ 1) : IVec S_ 1 :=
  let main_v34 : FVec F S4x1024x4 .f32 := Host.absf main_arg9
  let main_cst_12 : FVec F S_ .f32 := constant S_ .f32 0x7F800000#32
  let main_v35 : FVec F S4x1024x4 .f32 := broadcastInDim S4x1024x4 ![] bcast_S_S4x1024x4 main_cst_12
  let main_v36 : IVec S4x1024x4 1 := cmpf .olt main_v34 main_v35
  let main_c_13 : IVec S_ 1 := constantI S_ 1 1#1
  let main_v37 : IVec S_ 1 := (fun x v => Host.reduce IntOp.andi x v reducesTo_S4x1024x4_S_d0_1_2 h_S_) main_v36 main_c_13
  let main_v38 : IVec S_ 1 := andi main_v33 main_v37
  main_v38

def fn_part1 {F : FTy → Type} [FloatOps F] (main_arg6 : FVec F S4x1024 .f32) (main_arg7 : FVec F S4x1024 .f32) (main_arg8 : FVec F S4x1024 .f32) (main_arg9 : FVec F S4x1024x4 .f32) (main_v13 : IVec S_ 1) (main_v16 : IVec S4x1024x512 1) : IVec S_ 1 :=
  let main_c_5 : IVec S_ 1 := constantI S_ 1 1#1
  let main_v17 : IVec S_ 1 := (fun x v => Host.reduce IntOp.andi x v reducesTo_S4x1024x512_S_d0_1_2 h_S_) main_v16 main_c_5
  let main_v18 : IVec S_ 1 := andi main_v13 main_v17
  let main_v19 : FVec F S4x1024 .f32 := Host.absf main_arg6
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024 .f32 := Host.absf main_arg7
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S4x1024 .f32 := Host.absf main_arg8
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  fn_part2 (F := F) main_arg9 main_v33

def fn {F : FTy → Type} [FloatOps F] (main_arg0 : IVec S4x2048x8 32) (main_arg1 : FVec F S4x2048x4x1024 .f32) (main_arg2 : FVec F S4000506x64 .f32) (main_arg3 : IVec S8 32) (main_arg4 : FVec F S1024x512 .f32) (main_arg5 : FVec F S4x1024x512 .f32) (main_arg6 : FVec F S4x1024 .f32) (main_arg7 : FVec F S4x1024 .f32) (main_arg8 : FVec F S4x1024 .f32) (main_arg9 : FVec F S4x1024x4 .f32) : IVec S_ 1 :=
  let main_v0 : FVec F S4x2048x4x1024 .f32 := Host.absf main_arg1
  let main_cst : FVec F S_ .f32 := constant S_ .f32 0x7F800000#32
  let main_v1 : FVec F S4x2048x4x1024 .f32 := broadcastInDim S4x2048x4x1024 ![] bcast_S_S4x2048x4x1024 main_cst
  let main_v2 : IVec S4x2048x4x1024 1 := cmpf .olt main_v0 main_v1
  let main_c : IVec S_ 1 := constantI S_ 1 1#1
  let main_v3 : IVec S_ 1 := (fun x v => Host.reduce IntOp.andi x v reducesTo_S4x2048x4x1024_S_d0_1_2_3 h_S_) main_v2 main_c
  let main_v4 : FVec F S4000506x64 .f32 := Host.absf main_arg2
  let main_cst_0 : FVec F S_ .f32 := constant S_ .f32 0x7F800000#32
  let main_v5 : FVec F S4000506x64 .f32 := broadcastInDim S4000506x64 ![] bcast_S_S4000506x64 main_cst_0
  let main_v6 : IVec S4000506x64 1 := cmpf .olt main_v4 main_v5
  let main_c_1 : IVec S_ 1 := constantI S_ 1 1#1
  let main_v7 : IVec S_ 1 := (fun x v => Host.reduce IntOp.andi x v reducesTo_S4000506x64_S_d0_1 h_S_) main_v6 main_c_1
  let main_v8 : IVec S_ 1 := andi main_v3 main_v7
  let main_v9 : FVec F S1024x512 .f32 := Host.absf main_arg4
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S4x1024x512 .f32 := Host.absf main_arg5
  let main_cst_4 : FVec F S_ .f32 := constant S_ .f32 0x7F800000#32
  let main_v15 : FVec F S4x1024x512 .f32 := broadcastInDim S4x1024x512 ![] bcast_S_S4x1024x512 main_cst_4
  let main_v16 : IVec S4x1024x512 1 := cmpf .olt main_v14 main_v15
  fn_part1 (F := F) main_arg6 main_arg7 main_arg8 main_arg9 main_v13 main_v16
-- ==== Kernel.lean ====
abbrev S4x2048x8 : Shape := ⟨3, ![4, 2048, 8]⟩
abbrev S4x2048x4x1024 : Shape := ⟨4, ![4, 2048, 4, 1024]⟩
abbrev S4000506x64 : Shape := ⟨2, ![4000506, 64]⟩
abbrev S8 : Shape := ⟨1, ![8]⟩
abbrev S1024x512 : Shape := ⟨2, ![1024, 512]⟩
abbrev S4x1024x512 : Shape := ⟨3, ![4, 1024, 512]⟩
abbrev S4x1024 : Shape := ⟨2, ![4, 1024]⟩
abbrev S4x1024x4 : Shape := ⟨3, ![4, 1024, 4]⟩
abbrev S1x1x8 : Shape := ⟨3, ![1, 1, 8]⟩
abbrev S_ : Shape := ⟨0, ![]⟩
abbrev S4x2048x8x1 : Shape := ⟨4, ![4, 2048, 8, 1]⟩
abbrev S4x2048x8x64 : Shape := ⟨4, ![4, 2048, 8, 64]⟩
abbrev S4x2048x512 : Shape := ⟨3, ![4, 2048, 512]⟩
abbrev S512x1024 : Shape := ⟨2, ![512, 1024]⟩
abbrev S4x512x1024 : Shape := ⟨3, ![4, 512, 1024]⟩
abbrev S4x4x1024 : Shape := ⟨3, ![4, 4, 1024]⟩
abbrev S1x128x512 : Shape := ⟨3, ![1, 128, 512]⟩
abbrev S1x128x4x1024 : Shape := ⟨4, ![1, 128, 4, 1024]⟩
abbrev S4x144x1024 : Shape := ⟨3, ![4, 144, 1024]⟩
abbrev S128x512 : Shape := ⟨2, ![128, 512]⟩
abbrev S128x1024 : Shape := ⟨2, ![128, 1024]⟩
abbrev S1x512x1024 : Shape := ⟨3, ![1, 512, 1024]⟩
abbrev S1x1024 : Shape := ⟨2, ![1, 1024]⟩
abbrev S1024 : Shape := ⟨1, ![1024]⟩
abbrev S128 : Shape := ⟨1, ![128]⟩
abbrev S128x1 : Shape := ⟨2, ![128, 1]⟩
abbrev S1x128x1x1024 : Shape := ⟨4, ![1, 128, 1, 1024]⟩
abbrev S1x128x1024 : Shape := ⟨3, ![1, 128, 1024]⟩
abbrev S1x1x1024 : Shape := ⟨3, ![1, 1, 1024]⟩
abbrev S1x9x1024 : Shape := ⟨3, ![1, 9, 1024]⟩
abbrev S9x1024 : Shape := ⟨2, ![9, 1024]⟩

abbrev nBuf : Space → Nat
  | .hbm => 30
  | .vmem => 13
  | .smem => 0
  | _ => 0

abbrev bufTy : (tb : Table) → Fin (tcTables nBuf tb) → BufTy
  | .hbm, ⟨0, _⟩ => ⟨S4x2048x8, .i32⟩
  | .hbm, ⟨1, _⟩ => ⟨S4x2048x4x1024, .f32⟩
  | .hbm, ⟨2, _⟩ => ⟨S4000506x64, .f32⟩
  | .hbm, ⟨3, _⟩ => ⟨S8, .i32⟩
  | .hbm, ⟨4, _⟩ => ⟨S1024x512, .f32⟩
  | .hbm, ⟨5, _⟩ => ⟨S4x1024x512, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024x4, .f32⟩
  | .hbm, ⟨10, _⟩ => ⟨S1x1x8, .i32⟩
  | .hbm, ⟨11, _⟩ => ⟨S4x2048x8, .i32⟩
  | .hbm, ⟨12, _⟩ => ⟨S4x2048x8, .i32⟩
  | .hbm, ⟨13, _⟩ => ⟨S_, .i32⟩
  | .hbm, ⟨14, _⟩ => ⟨S4x2048x8, .i32⟩
  | .hbm, ⟨15, _⟩ => ⟨S4x2048x8, .i1⟩
  | .hbm, ⟨16, _⟩ => ⟨S_, .i32⟩
  | .hbm, ⟨17, _⟩ => ⟨S4x2048x8, .i32⟩
  | .hbm, ⟨18, _⟩ => ⟨S4x2048x8, .i32⟩
  | .hbm, ⟨19, _⟩ => ⟨S4x2048x8, .i32⟩
  | .hbm, ⟨20, _⟩ => ⟨S4x2048x8x1, .i32⟩
  | .hbm, ⟨21, _⟩ => ⟨S4x2048x8x64, .f32⟩
  | .hbm, ⟨22, _⟩ => ⟨S4x2048x512, .f32⟩
  | .hbm, ⟨23, _⟩ => ⟨S4x2048x512, .bf16⟩
  | .hbm, ⟨24, _⟩ => ⟨S512x1024, .f32⟩
  | .hbm, ⟨25, _⟩ => ⟨S512x1024, .bf16⟩
  | .hbm, ⟨26, _⟩ => ⟨S4x512x1024, .f32⟩
  | .hbm, ⟨27, _⟩ => ⟨S4x512x1024, .bf16⟩
  | .hbm, ⟨28, _⟩ => ⟨S4x4x1024, .f32⟩
  | .hbm, ⟨29, _⟩ => ⟨S4x2048x4x1024, .f32⟩
  | .local _ .vmem, ⟨0, _⟩ => ⟨S1x128x512, .bf16⟩
  | .local _ .vmem, ⟨1, _⟩ => ⟨S1x128x512, .bf16⟩
  | .local _ .vmem, ⟨2, _⟩ => ⟨S1x128x4x1024, .f32⟩
  | .local _ .vmem, ⟨3, _⟩ => ⟨S1x128x4x1024, .f32⟩
  | .local _ .vmem, ⟨4, _⟩ => ⟨S512x1024, .bf16⟩
  | .local _ .vmem, ⟨5, _⟩ => ⟨S4x512x1024, .bf16⟩
  | .local _ .vmem, ⟨6, _⟩ => ⟨S4x1024, .f32⟩
  | .local _ .vmem, ⟨7, _⟩ => ⟨S4x1024, .f32⟩
  | .local _ .vmem, ⟨8, _⟩ => ⟨S4x1024, .f32⟩
  | .local _ .vmem, ⟨9, _⟩ => ⟨S4x4x1024, .f32⟩
  | .local _ .vmem, ⟨10, _⟩ => ⟨S1x128x4x1024, .f32⟩
  | .local _ .vmem, ⟨11, _⟩ => ⟨S1x128x4x1024, .f32⟩
  | .local _ .vmem, ⟨12, _⟩ => ⟨S4x144x1024, .f32⟩
  | _, _ => ⟨S4x2048x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [BitOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x4x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bcast_S8_S1x1x8_2 : S8.BroadcastsInDim S1x1x8 (![2] : Fin 1 → Fin S1x1x8.rank)
  bcast_S1x1x8_S4x2048x8_0_1_2 : S1x1x8.BroadcastsInDim S4x2048x8 (![0, 1, 2] : Fin 3 → Fin S4x2048x8.rank)
  bcast_S_S4x2048x8 : S_.BroadcastsInDim S4x2048x8 (![] : Fin 0 → Fin S4x2048x8.rank)
  bcast_S4x2048x8_S4x2048x8x1_0_1_2 : S4x2048x8.BroadcastsInDim S4x2048x8x1 (![0, 1, 2] : Fin 3 → Fin S4x2048x8x1.rank)
  shapeCasts_S4x2048x8x64_S4x2048x512 : S4x2048x8x64.ShapeCasts S4x2048x512
  bitsLt_bf16_f32 : FTy.bits .bf16 < FTy.bits .f32
  transposes_S1024x512_S512x1024_1_0 : S1024x512.Transposes [1, 0] S512x1024
  transposes_S4x1024x512_S4x512x1024_0_2_1 : S4x1024x512.Transposes [0, 2, 1] S4x512x1024
  transposes_S4x1024x4_S4x4x1024_0_2_1 : S4x1024x4.Transposes [0, 2, 1] S4x4x1024
  inb_S4x144x1024_S4x144x1024_0_0_0 : ∀ a, (![0, 0, 0] : Fin 3 → Nat) a + S4x144x1024.size a ≤ S4x144x1024.size a
  h_S4x144x1024 : 0 < S4x144x1024.numel
  shapeCasts_S4x144x1024_S4x144x1024 : S4x144x1024.ShapeCasts S4x144x1024
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S4x512x1024_S1x512x1024_0_0_0 : ∀ a, (![0, 0, 0] : Fin 3 → Nat) a + S1x512x1024.size a ≤ S4x512x1024.size a
  h_S1x512x1024 : 0 < S1x512x1024.numel
  shapeCasts_S1x512x1024_S512x1024 : S1x512x1024.ShapeCasts S512x1024
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  reduces_S128x1024_S128 : S128x1024.Reduces [1] S128
  shapeCasts_S128_S128x1 : S128.ShapeCasts S128x1
  broadcasts_S128x1_S128x1024 : S128x1.Broadcasts S128x1024
  shapeCasts_S1024_S1x1024 : S1024.ShapeCasts S1x1024
  broadcasts_S1x1024_S128x1024 : S1x1024.Broadcasts S128x1024
  inb_S1x128x4x1024_S1x128x1x1024_0_0_0_0 : ∀ a, (![0, 0, 0, 0] : Fin 4 → Nat) a + S1x128x1x1024.size a ≤ S1x128x4x1024.size a
  h_S1x128x1x1024 : 0 < S1x128x1x1024.numel
  shapeCasts_S1x128x1x1024_S128x1024 : S1x128x1x1024.ShapeCasts S128x1024
  inb_S4x144x1024_S1x128x1024_0_16_0 : ∀ a, (![0, 16, 0] : Fin 3 → Nat) a + S1x128x1024.size a ≤ S4x144x1024.size a
  h_S1x128x1024 : 0 < S1x128x1024.numel
  shapeCasts_S1x128x1024_S128x1024 : S1x128x1024.ShapeCasts S128x1024
  shapeCasts_S128x1024_S1x128x1024 : S128x1024.ShapeCasts S1x128x1024
  inb_S4x144x1024_S1x128x1024_0_7_0 : ∀ a, (![0, 7, 0] : Fin 3 → Nat) a + S1x128x1024.size a ≤ S4x144x1024.size a
  inb_S4x4x1024_S1x1x1024_0_0_0 : ∀ a, (![0, 0, 0] : Fin 3 → Nat) a + S1x1x1024.size a ≤ S4x4x1024.size a
  h_S1x1x1024 : 0 < S1x1x1024.numel
  shapeCasts_S1x1x1024_S1024 : S1x1x1024.ShapeCasts S1024
  inb_S4x144x1024_S1x128x1024_0_10_0 : ∀ a, (![0, 10, 0] : Fin 3 → Nat) a + S1x128x1024.size a ≤ S4x144x1024.size a
  inb_S4x4x1024_S1x1x1024_0_1_0 : ∀ a, (![0, 1, 0] : Fin 3 → Nat) a + S1x1x1024.size a ≤ S4x4x1024.size a
  inb_S4x144x1024_S1x128x1024_0_13_0 : ∀ a, (![0, 13, 0] : Fin 3 → Nat) a + S1x128x1024.size a ≤ S4x144x1024.size a
  inb_S4x4x1024_S1x1x1024_0_2_0 : ∀ a, (![0, 2, 0] : Fin 3 → Nat) a + S1x1x1024.size a ≤ S4x4x1024.size a
  inb_S4x4x1024_S1x1x1024_0_3_0 : ∀ a, (![0, 3, 0] : Fin 3 → Nat) a + S1x1x1024.size a ≤ S4x4x1024.size a
  shapeCasts_S128x1024_S1x128x1x1024 : S128x1024.ShapeCasts S1x128x1x1024
  inb_S4x144x1024_S1x9x1024_0_135_0 : ∀ a, (![0, 135, 0] : Fin 3 → Nat) a + S1x9x1024.size a ≤ S4x144x1024.size a
  h_S1x9x1024 : 0 < S1x9x1024.numel
  shapeCasts_S1x9x1024_S9x1024 : S1x9x1024.ShapeCasts S9x1024
  inb_S4x144x1024_S1x9x1024_0_7_0 : ∀ a, (![0, 7, 0] : Fin 3 → Nat) a + S1x9x1024.size a ≤ S4x144x1024.size a
  shapeCasts_S9x1024_S1x9x1024 : S9x1024.ShapeCasts S1x9x1024
  inb_S4x512x1024_S1x512x1024_1_0_0 : ∀ a, (![1, 0, 0] : Fin 3 → Nat) a + S1x512x1024.size a ≤ S4x512x1024.size a
  inb_S4x1024_S1x1024_1_0 : ∀ a, (![1, 0] : Fin 2 → Nat) a + S1x1024.size a ≤ S4x1024.size a
  inb_S1x128x4x1024_S1x128x1x1024_0_0_1_0 : ∀ a, (![0, 0, 1, 0] : Fin 4 → Nat) a + S1x128x1x1024.size a ≤ S1x128x4x1024.size a
  inb_S4x144x1024_S1x128x1024_1_16_0 : ∀ a, (![1, 16, 0] : Fin 3 → Nat) a + S1x128x1024.size a ≤ S4x144x1024.size a
  inb_S4x144x1024_S1x128x1024_1_7_0 : ∀ a, (![1, 7, 0] : Fin 3 → Nat) a + S1x128x1024.size a ≤ S4x144x1024.size a
  inb_S4x4x1024_S1x1x1024_1_0_0 : ∀ a, (![1, 0, 0] : Fin 3 → Nat) a + S1x1x1024.size a ≤ S4x4x1024.size a
  inb_S4x144x1024_S1x128x1024_1_10_0 : ∀ a, (![1, 10, 0] : Fin 3 → Nat) a + S1x128x1024.size a ≤ S4x144x1024.size a
  inb_S4x4x1024_S1x1x1024_1_1_0 : ∀ a, (![1, 1, 0] : Fin 3 → Nat) a + S1x1x1024.size a ≤ S4x4x1024.size a
  inb_S4x144x1024_S1x128x1024_1_13_0 : ∀ a, (![1, 13, 0] : Fin 3 → Nat) a + S1x128x1024.size a ≤ S4x144x1024.size a
  inb_S4x4x1024_S1x1x1024_1_2_0 : ∀ a, (![1, 2, 0] : Fin 3 → Nat) a + S1x1x1024.size a ≤ S4x4x1024.size a
  inb_S4x4x1024_S1x1x1024_1_3_0 : ∀ a, (![1, 3, 0] : Fin 3 → Nat) a + S1x1x1024.size a ≤ S4x4x1024.size a
  inb_S4x144x1024_S1x9x1024_1_135_0 : ∀ a, (![1, 135, 0] : Fin 3 → Nat) a + S1x9x1024.size a ≤ S4x144x1024.size a
  inb_S4x144x1024_S1x9x1024_1_7_0 : ∀ a, (![1, 7, 0] : Fin 3 → Nat) a + S1x9x1024.size a ≤ S4x144x1024.size a
  inb_S4x512x1024_S1x512x1024_2_0_0 : ∀ a, (![2, 0, 0] : Fin 3 → Nat) a + S1x512x1024.size a ≤ S4x512x1024.size a
  inb_S4x1024_S1x1024_2_0 : ∀ a, (![2, 0] : Fin 2 → Nat) a + S1x1024.size a ≤ S4x1024.size a
  inb_S1x128x4x1024_S1x128x1x1024_0_0_2_0 : ∀ a, (![0, 0, 2, 0] : Fin 4 → Nat) a + S1x128x1x1024.size a ≤ S1x128x4x1024.size a
  inb_S4x144x1024_S1x128x1024_2_16_0 : ∀ a, (![2, 16, 0] : Fin 3 → Nat) a + S1x128x1024.size a ≤ S4x144x1024.size a
  inb_S4x144x1024_S1x128x1024_2_7_0 : ∀ a, (![2, 7, 0] : Fin 3 → Nat) a + S1x128x1024.size a ≤ S4x144x1024.size a
  inb_S4x4x1024_S1x1x1024_2_0_0 : ∀ a, (![2, 0, 0] : Fin 3 → Nat) a + S1x1x1024.size a ≤ S4x4x1024.size a
  inb_S4x144x1024_S1x128x1024_2_10_0 : ∀ a, (![2, 10, 0] : Fin 3 → Nat) a + S1x128x1024.size a ≤ S4x144x1024.size a
  inb_S4x4x1024_S1x1x1024_2_1_0 : ∀ a, (![2, 1, 0] : Fin 3 → Nat) a + S1x1x1024.size a ≤ S4x4x1024.size a
  inb_S4x144x1024_S1x128x1024_2_13_0 : ∀ a, (![2, 13, 0] : Fin 3 → Nat) a + S1x128x1024.size a ≤ S4x144x1024.size a
  inb_S4x4x1024_S1x1x1024_2_2_0 : ∀ a, (![2, 2, 0] : Fin 3 → Nat) a + S1x1x1024.size a ≤ S4x4x1024.size a
  inb_S4x4x1024_S1x1x1024_2_3_0 : ∀ a, (![2, 3, 0] : Fin 3 → Nat) a + S1x1x1024.size a ≤ S4x4x1024.size a
  inb_S4x144x1024_S1x9x1024_2_135_0 : ∀ a, (![2, 135, 0] : Fin 3 → Nat) a + S1x9x1024.size a ≤ S4x144x1024.size a
  inb_S4x144x1024_S1x9x1024_2_7_0 : ∀ a, (![2, 7, 0] : Fin 3 → Nat) a + S1x9x1024.size a ≤ S4x144x1024.size a
  inb_S4x512x1024_S1x512x1024_3_0_0 : ∀ a, (![3, 0, 0] : Fin 3 → Nat) a + S1x512x1024.size a ≤ S4x512x1024.size a
  inb_S4x1024_S1x1024_3_0 : ∀ a, (![3, 0] : Fin 2 → Nat) a + S1x1024.size a ≤ S4x1024.size a
  inb_S1x128x4x1024_S1x128x1x1024_0_0_3_0 : ∀ a, (![0, 0, 3, 0] : Fin 4 → Nat) a + S1x128x1x1024.size a ≤ S1x128x4x1024.size a
  inb_S4x144x1024_S1x128x1024_3_16_0 : ∀ a, (![3, 16, 0] : Fin 3 → Nat) a + S1x128x1024.size a ≤ S4x144x1024.size a
  inb_S4x144x1024_S1x128x1024_3_7_0 : ∀ a, (![3, 7, 0] : Fin 3 → Nat) a + S1x128x1024.size a ≤ S4x144x1024.size a
  inb_S4x4x1024_S1x1x1024_3_0_0 : ∀ a, (![3, 0, 0] : Fin 3 → Nat) a + S1x1x1024.size a ≤ S4x4x1024.size a
  inb_S4x144x1024_S1x128x1024_3_10_0 : ∀ a, (![3, 10, 0] : Fin 3 → Nat) a + S1x128x1024.size a ≤ S4x144x1024.size a
  inb_S4x4x1024_S1x1x1024_3_1_0 : ∀ a, (![3, 1, 0] : Fin 3 → Nat) a + S1x1x1024.size a ≤ S4x4x1024.size a
  inb_S4x144x1024_S1x128x1024_3_13_0 : ∀ a, (![3, 13, 0] : Fin 3 → Nat) a + S1x128x1024.size a ≤ S4x144x1024.size a
  inb_S4x4x1024_S1x1x1024_3_2_0 : ∀ a, (![3, 2, 0] : Fin 3 → Nat) a + S1x1x1024.size a ≤ S4x4x1024.size a
  inb_S4x4x1024_S1x1x1024_3_3_0 : ∀ a, (![3, 3, 0] : Fin 3 → Nat) a + S1x1x1024.size a ≤ S4x4x1024.size a
  inb_S4x144x1024_S1x9x1024_3_135_0 : ∀ a, (![3, 135, 0] : Fin 3 → Nat) a + S1x9x1024.size a ≤ S4x144x1024.size a
  inb_S4x144x1024_S1x9x1024_3_7_0 : ∀ a, (![3, 7, 0] : Fin 3 → Nat) a + S1x9x1024.size a ≤ S4x144x1024.size a
  gather_S4000506x64_S4x2048x8x1_S4x2048x8x64_3_0_n_n_0_3_164_wf : GatherDims.WF S4000506x64 S4x2048x8x1 S4x2048x8x64 [3] [0] [] [0] [] 3 ![1, 64]
  dot_S128x512_S512x1024_S128x1024_1_0_0_1_n_n_wf : DotDims.WF S128x512 S512x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S4x2048x512.size a
  hwx0_0 : ∀ i : grid0.Coords, EltTy.bits .bf16 = 32 ∨ (Rect.block (s := S4x2048x512) S1x128x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x4x1024.size a ≤ S4x2048x4x1024.size a
  hwx0_1 : ∀ i : grid0.Coords, EltTy.bits .f32 = 32 ∨ (Rect.block (s := S4x2048x4x1024) S1x128x4x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x512x1024.size a ≤ S4x512x1024.size a
  hwx0_3 : ∀ i : grid0.Coords, EltTy.bits .bf16 = 32 ∨ (Rect.block (s := S4x512x1024) S4x512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1024.size a ≤ S4x1024.size a
  hwx0_4 : ∀ i : grid0.Coords, EltTy.bits .f32 = 32 ∨ (Rect.block (s := S4x1024) S4x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1024.size a ≤ S4x1024.size a
  hwx0_5 : ∀ i : grid0.Coords, EltTy.bits .f32 = 32 ∨ (Rect.block (s := S4x1024) S4x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1024.size a ≤ S4x1024.size a
  hwx0_6 : ∀ i : grid0.Coords, EltTy.bits .f32 = 32 ∨ (Rect.block (s := S4x1024) S4x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x4x1024.size a ≤ S4x4x1024.size a
  hwx0_7 : ∀ i : grid0.Coords, EltTy.bits .f32 = 32 ∨ (Rect.block (s := S4x4x1024) S4x4x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x4x1024.size a ≤ S4x2048x4x1024.size a
  hwx0_8 : ∀ i : grid0.Coords, EltTy.bits .f32 = 32 ∨ (Rect.block (s := S4x2048x4x1024) S1x128x4x1024.size (cc0_transform_8 i) (hinb0_8 i)).WholeWords (EltTy.packing .f32)

variable [Facts₀]

def gather_S4000506x64_S4x2048x8x1_S4x2048x8x64_3_0_n_n_0_3_164 : GatherDims S4000506x64 S4x2048x8x1 S4x2048x8x64 where
  offsetDims := [3]
  collapsedSliceDims := [0]
  operandBatchingDims := []
  startIndicesBatchingDims := []
  startIndexMap := [0]
  indexVectorDim := 3
  sliceSizes := ![1, 64]
  wf := gather_S4000506x64_S4x2048x8x1_S4x2048x8x64_3_0_n_n_0_3_164_wf
def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf

abbrev win0_0 : Pipeline.Window sig grid0 :=
  Pipeline.Window.ofSpec (Memref.whole main_v11) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x4x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S4x512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S4x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S4x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S4x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S4x4x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x128x4x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x2048x8 : Shape := ⟨3, ![4, 2048, 8]⟩
abbrev S4x2048x4x1024 : Shape := ⟨4, ![4, 2048, 4, 1024]⟩
abbrev S4000506x64 : Shape := ⟨2, ![4000506, 64]⟩
abbrev S8 : Shape := ⟨1, ![8]⟩
abbrev S1024x512 : Shape := ⟨2, ![1024, 512]⟩
abbrev S4x1024x512 : Shape := ⟨3, ![4, 1024, 512]⟩
abbrev S4x1024 : Shape := ⟨2, ![4, 1024]⟩
abbrev S4x1024x4 : Shape := ⟨3, ![4, 1024, 4]⟩
abbrev S1x1x8 : Shape := ⟨3, ![1, 1, 8]⟩
abbrev S_ : Shape := ⟨0, ![]⟩
abbrev S4x2048x8x1 : Shape := ⟨4, ![4, 2048, 8, 1]⟩
abbrev S4x2048x8x64 : Shape := ⟨4, ![4, 2048, 8, 64]⟩
abbrev S4x2048x512 : Shape := ⟨3, ![4, 2048, 512]⟩
abbrev S4x2048x1024 : Shape := ⟨3, ![4, 2048, 1024]⟩
abbrev S4x2048x4 : Shape := ⟨3, ![4, 2048, 4]⟩
abbrev S4x2048x4x1 : Shape := ⟨4, ![4, 2048, 4, 1]⟩
abbrev S1x1x4x1024 : Shape := ⟨4, ![1, 1, 4, 1024]⟩
abbrev S4x2048x1x1024 : Shape := ⟨4, ![4, 2048, 1, 1024]⟩
abbrev S4x2057x4x1024 : Shape := ⟨4, ![4, 2057, 4, 1024]⟩
abbrev S4x1024x1 : Shape := ⟨3, ![4, 1024, 1]⟩

abbrev nBuf : Space → Nat
  | .hbm => 143
  | .vmem => 0
  | .smem => 0
  | _ => 0

abbrev hbmTy0_0 (i : Nat) : BufTy := match i % 128 with
  | 0 => ⟨S4x2048x8, .i32⟩
  | 1 => ⟨S4x2048x4x1024, .f32⟩
  | 2 => ⟨S4000506x64, .f32⟩
  | 3 => ⟨S8, .i32⟩
  | 4 => ⟨S1024x512, .f32⟩
  | 5 => ⟨S4x1024x512, .f32⟩
  | 6 => ⟨S4x1024, .f32⟩
  | 7 => ⟨S4x1024, .f32⟩
  | 8 => ⟨S4x1024, .f32⟩
  | 9 => ⟨S4x1024x4, .f32⟩
  | 10 => ⟨S1x1x8, .i32⟩
  | 11 => ⟨S4x2048x8, .i32⟩
  | 12 => ⟨S4x2048x8, .i32⟩
  | 13 => ⟨S_, .i32⟩
  | 14 => ⟨S4x2048x8, .i32⟩
  | 15 => ⟨S4x2048x8, .i1⟩
  | 16 => ⟨S_, .i32⟩
  | 17 => ⟨S4x2048x8, .i32⟩
  | 18 => ⟨S4x2048x8, .i32⟩
  | 19 => ⟨S4x2048x8, .i32⟩
  | 20 => ⟨S4x2048x8x1, .i32⟩
  | 21 => ⟨S4x2048x8x64, .f32⟩
  | 22 => ⟨S4x2048x512, .f32⟩
  | 23 => ⟨S4x2048x1024, .f32⟩
  | 24 => ⟨S4x2048x4x1024, .f32⟩
  | 25 => ⟨S4x2048x4x1024, .f32⟩
  | 26 => ⟨S_, .f32⟩
  | 27 => ⟨S4x2048x4, .f32⟩
  | 28 => ⟨S4x2048x4x1, .f32⟩
  | 29 => ⟨S_, .f32⟩
  | 30 => ⟨S4x2048x4x1, .f32⟩
  | 31 => ⟨S4x2048x4x1, .f32⟩
  | 32 => ⟨S_, .f32⟩
  | 33 => ⟨S4x2048x4x1, .f32⟩
  | 34 => ⟨S4x2048x4x1, .f32⟩
  | 35 => ⟨S4x2048x4x1, .f32⟩
  | 36 => ⟨S4x2048x4x1024, .f32⟩
  | 37 => ⟨S4x2048x4x1024, .f32⟩
  | 38 => ⟨S1x1x4x1024, .f32⟩
  | 39 => ⟨S4x2048x4x1024, .f32⟩
  | 40 => ⟨S4x2048x4x1024, .f32⟩
  | 41 => ⟨S4x2048x4x1024, .f32⟩
  | 42 => ⟨S_, .f32⟩
  | 43 => ⟨S4x2048x4, .f32⟩
  | 44 => ⟨S4x2048x4x1, .f32⟩
  | 45 => ⟨S_, .f32⟩
  | 46 => ⟨S4x2048x4x1, .f32⟩
  | 47 => ⟨S4x2048x4x1, .f32⟩
  | 48 => ⟨S_, .f32⟩
  | 49 => ⟨S4x2048x4x1, .f32⟩
  | 50 => ⟨S4x2048x4x1, .f32⟩
  | 51 => ⟨S4x2048x4x1, .f32⟩
  | 52 => ⟨S4x2048x4x1024, .f32⟩
  | 53 => ⟨S4x2048x4x1024, .f32⟩
  | 54 => ⟨S1x1x4x1024, .f32⟩
  | 55 => ⟨S4x2048x4x1024, .f32⟩
  | 56 => ⟨S4x2048x4x1024, .f32⟩
  | 57 => ⟨S4x2048x4x1024, .f32⟩
  | 58 => ⟨S_, .f32⟩
  | 59 => ⟨S4x2048x4, .f32⟩
  | 60 => ⟨S4x2048x4x1, .f32⟩
  | 61 => ⟨S_, .f32⟩
  | 62 => ⟨S4x2048x4x1, .f32⟩
  | 63 => ⟨S4x2048x4x1, .f32⟩
  | 64 => ⟨S4x2048x4x1, .f32⟩
  | 65 => ⟨S_, .f32⟩
  | 66 => ⟨S4x2048x4x1, .f32⟩
  | 67 => ⟨S4x2048x4x1, .f32⟩
  | 68 => ⟨S4x2048x4x1, .f32⟩
  | 69 => ⟨S4x2048x4x1, .f32⟩
  | 70 => ⟨S4x2048x4x1, .f32⟩
  | 71 => ⟨S4x2048x4x1, .f32⟩
  | 72 => ⟨S4x2048x4x1, .f32⟩
  | 73 => ⟨S_, .f32⟩
  | 74 => ⟨S4x2048x4x1, .f32⟩
  | 75 => ⟨S4x2048x4x1, .f32⟩
  | 76 => ⟨S_, .f32⟩
  | 77 => ⟨S4x2048x4x1, .f32⟩
  | 78 => ⟨S4x2048x4x1, .f32⟩
  | 79 => ⟨S4x2048x1x1024, .f32⟩
  | 80 => ⟨S4x2048x4x1024, .f32⟩
  | 81 => ⟨S4x2048x4x1024, .f32⟩
  | 82 => ⟨S4x2048x4x1024, .f32⟩
  | 83 => ⟨S4x2048x4x1024, .f32⟩
  | 84 => ⟨S_, .f32⟩
  | 85 => ⟨S4x2048x4, .f32⟩
  | 86 => ⟨S4x2048x4x1, .f32⟩
  | 87 => ⟨S_, .f32⟩
  | 88 => ⟨S4x2048x4x1, .f32⟩
  | 89 => ⟨S4x2048x4x1, .f32⟩
  | 90 => ⟨S_, .f32⟩
  | 91 => ⟨S4x2048x4x1, .f32⟩
  | 92 => ⟨S4x2048x4x1, .f32⟩
  | 93 => ⟨S4x2048x4x1, .f32⟩
  | 94 => ⟨S4x2048x4x1024, .f32⟩
  | 95 => ⟨S4x2048x4x1024, .f32⟩
  | 96 => ⟨S1x1x4x1024, .f32⟩
  | 97 => ⟨S4x2048x4x1024, .f32⟩
  | 98 => ⟨S4x2048x4x1024, .f32⟩
  | 99 => ⟨S_, .i32⟩
  | 100 => ⟨S_, .f32⟩
  | 101 => ⟨S4x2057x4x1024, .f32⟩
  | 102 => ⟨S_, .f32⟩
  | 103 => ⟨S4x2048x4x1024, .f32⟩
  | 104 => ⟨S4x1024x1, .f32⟩
  | 105 => ⟨S4x1024, .f32⟩
  | 106 => ⟨S4x2048x4x1024, .f32⟩
  | 107 => ⟨S1x1x4x1024, .f32⟩
  | 108 => ⟨S4x2048x4x1024, .f32⟩
  | 109 => ⟨S4x2048x4x1024, .f32⟩
  | 110 => ⟨S4x2048x4x1024, .f32⟩
  | 111 => ⟨S4x1024x1, .f32⟩
  | 112 => ⟨S4x1024, .f32⟩
  | 113 => ⟨S4x2048x4x1024, .f32⟩
  | 114 => ⟨S1x1x4x1024, .f32⟩
  | 115 => ⟨S4x2048x4x1024, .f32⟩
  | 116 => ⟨S4x2048x4x1024, .f32⟩
  | 117 => ⟨S4x2048x4x1024, .f32⟩
  | 118 => ⟨S4x1024x1, .f32⟩
  | 119 => ⟨S4x1024, .f32⟩
  | 120 => ⟨S4x2048x4x1024, .f32⟩
  | 121 => ⟨S1x1x4x1024, .f32⟩
  | 122 => ⟨S4x2048x4x1024, .f32⟩
  | 123 => ⟨S4x2048x4x1024, .f32⟩
  | 124 => ⟨S4x2048x4x1024, .f32⟩
  | 125 => ⟨S4x1024x1, .f32⟩
  | 126 => ⟨S4x1024, .f32⟩
  | 127 => ⟨S4x2048x4x1024, .f32⟩
  | _ => ⟨S4x2048x8, .i32⟩

abbrev hbmTy0_1 (i : Nat) : BufTy := match i % 128 with
  | 0 => ⟨S1x1x4x1024, .f32⟩
  | 1 => ⟨S4x2048x4x1024, .f32⟩
  | 2 => ⟨S4x2048x4x1024, .f32⟩
  | 3 => ⟨S4x2048x4x1024, .f32⟩
  | 4 => ⟨S4x2048x4x1024, .f32⟩
  | 5 => ⟨S4x2048x4x1024, .f32⟩
  | 6 => ⟨S_, .f32⟩
  | 7 => ⟨S4x2048x4x1024, .f32⟩
  | 8 => ⟨S4x2048x4x1024, .f32⟩
  | 9 => ⟨S_, .f32⟩
  | 10 => ⟨S4x2048x4x1024, .f32⟩
  | 11 => ⟨S4x2048x4x1024, .f32⟩
  | 12 => ⟨S4x2048x4x1024, .f32⟩
  | 13 => ⟨S4x2048x4x1024, .f32⟩
  | 14 => ⟨S4x2048x4x1024, .f32⟩
  | _ => ⟨S4x2048x8, .i32⟩

abbrev hbmTy (i : Nat) : BufTy := match i / 128 with
  | 0 => hbmTy0_0 i
  | 1 => hbmTy0_1 i
  | _ => ⟨S4x2048x8, .i32⟩

abbrev bufTy : (tb : Table) → Fin (tcTables nBuf tb) → BufTy
  | .hbm, ⟨i, _⟩ => hbmTy i
  | _, _ => ⟨S4x2048x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_14 : Ref sig .tc := ⟨.hbm, 99, rfl⟩
abbrev main_call0_v0 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_call1_v0 : Ref sig .tc := ⟨.hbm, 132, rfl⟩
abbrev main_call1_v1 : Ref sig .tc := ⟨.hbm, 133, rfl⟩
abbrev main_call1_cst : Ref sig .tc := ⟨.hbm, 134, rfl⟩
abbrev main_call1_v2 : Ref sig .tc := ⟨.hbm, 135, rfl⟩
abbrev main_call1_v3 : Ref sig .tc := ⟨.hbm, 136, rfl⟩
abbrev main_call1_cst_0 : Ref sig .tc := ⟨.hbm, 137, rfl⟩
abbrev main_call1_v4 : Ref sig .tc := ⟨.hbm, 138, rfl⟩
abbrev main_call1_v5 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩

abbrev nD : Nat := 1
abbrev τ : Topo := Topo.v7x

variable {F : FTy → Type} [FloatOps F]

class Facts₀ : Prop where
  bcast_S8_S1x1x8_2 : S8.BroadcastsInDim S1x1x8 (![2] : Fin 1 → Fin S1x1x8.rank)
  bcast_S1x1x8_S4x2048x8_0_1_2 : S1x1x8.BroadcastsInDim S4x2048x8 (![0, 1, 2] : Fin 3 → Fin S4x2048x8.rank)
  bcast_S_S4x2048x8 : S_.BroadcastsInDim S4x2048x8 (![] : Fin 0 → Fin S4x2048x8.rank)
  bcast_S4x2048x8_S4x2048x8x1_0_1_2 : S4x2048x8.BroadcastsInDim S4x2048x8x1 (![0, 1, 2] : Fin 3 → Fin S4x2048x8x1.rank)
  shapeCasts_S4x2048x8x64_S4x2048x512 : S4x2048x8x64.ShapeCasts S4x2048x512
  reducesTo_S4x2048x4x1024_S4x2048x4_d3 : S4x2048x4x1024.ReducesTo [3] S4x2048x4
  h_S_ : 0 < S_.numel
  bcast_S4x2048x4_S4x2048x4x1_0_1_2 : S4x2048x4.BroadcastsInDim S4x2048x4x1 (![0, 1, 2] : Fin 3 → Fin S4x2048x4x1.rank)
  bcast_S_S4x2048x4x1 : S_.BroadcastsInDim S4x2048x4x1 (![] : Fin 0 → Fin S4x2048x4x1.rank)
  bcast_S4x2048x4x1_S4x2048x4x1024_0_1_2_3 : S4x2048x4x1.BroadcastsInDim S4x2048x4x1024 (![0, 1, 2, 3] : Fin 4 → Fin S4x2048x4x1024.rank)
  bcast_S4x1024_S1x1x4x1024_2_3 : S4x1024.BroadcastsInDim S1x1x4x1024 (![2, 3] : Fin 2 → Fin S1x1x4x1024.rank)
  bcast_S1x1x4x1024_S4x2048x4x1024_0_1_2_3 : S1x1x4x1024.BroadcastsInDim S4x2048x4x1024 (![0, 1, 2, 3] : Fin 4 → Fin S4x2048x4x1024.rank)
  bcast_S4x2048x1024_S4x2048x1x1024_0_1_3 : S4x2048x1024.BroadcastsInDim S4x2048x1x1024 (![0, 1, 3] : Fin 3 → Fin S4x2048x1x1024.rank)
  bcast_S4x2048x1x1024_S4x2048x4x1024_0_1_2_3 : S4x2048x1x1024.BroadcastsInDim S4x2048x4x1024 (![0, 1, 2, 3] : Fin 4 → Fin S4x2048x4x1024.rank)
  pads_S4x2048x4x1024_S4x2057x4x1024_000_900_000_000 : S4x2048x4x1024.Pads (![0, 9, 0, 0] : Fin 4 → Nat) ![0, 0, 0, 0] ![0, 0, 0, 0] S4x2057x4x1024
  bcast_S_S4x2048x4x1024 : S_.BroadcastsInDim S4x2048x4x1024 (![] : Fin 0 → Fin S4x2048x4x1024.rank)
  slices_S4x1024x4_S4x1024x1_0_0_0 : S4x1024x4.Slices ![0, 0, 0] S4x1024x1
  shapeCasts_S4x1024x1_S4x1024 : S4x1024x1.ShapeCasts S4x1024
  slices_S4x2057x4x1024_S4x2048x4x1024_0_0_0_0 : S4x2057x4x1024.Slices ![0, 0, 0, 0] S4x2048x4x1024
  slices_S4x1024x4_S4x1024x1_0_0_1 : S4x1024x4.Slices ![0, 0, 1] S4x1024x1
  slices_S4x2057x4x1024_S4x2048x4x1024_0_3_0_0 : S4x2057x4x1024.Slices ![0, 3, 0, 0] S4x2048x4x1024
  slices_S4x1024x4_S4x1024x1_0_0_2 : S4x1024x4.Slices ![0, 0, 2] S4x1024x1
  slices_S4x2057x4x1024_S4x2048x4x1024_0_6_0_0 : S4x2057x4x1024.Slices ![0, 6, 0, 0] S4x2048x4x1024
  slices_S4x1024x4_S4x1024x1_0_0_3 : S4x1024x4.Slices ![0, 0, 3] S4x1024x1
  slices_S4x2057x4x1024_S4x2048x4x1024_0_9_0_0 : S4x2057x4x1024.Slices ![0, 9, 0, 0] S4x2048x4x1024
  gather_S4000506x64_S4x2048x8x1_S4x2048x8x64_3_0_n_n_0_3_164_wf : GatherDims.WF S4000506x64 S4x2048x8x1 S4x2048x8x64 [3] [0] [] [0] [] 3 ![1, 64]
  dot_S4x2048x512_S1024x512_S4x2048x1024_2_1_01_0_n_n_wf : DotDims.WF S4x2048x512 S1024x512 S4x2048x1024 [2] [1] [0, 1] [0] [] []
  dot_S4x2048x512_S4x1024x512_S4x2048x4x1024_2_2_01_01_n_n_wf : DotDims.WF S4x2048x512 S4x1024x512 S4x2048x4x1024 [2] [2] [0, 1] [0, 1] [] []

variable [Facts₀]

def gather_S4000506x64_S4x2048x8x1_S4x2048x8x64_3_0_n_n_0_3_164 : GatherDims S4000506x64 S4x2048x8x1 S4x2048x8x64 where
  offsetDims := [3]
  collapsedSliceDims := [0]
  operandBatchingDims := []
  startIndicesBatchingDims := []
  startIndexMap := [0]
  indexVectorDim := 3
  sliceSizes := ![1, 64]
  wf := gather_S4000506x64_S4x2048x8x1_S4x2048x8x64_3_0_n_n_0_3_164_wf
def dot_S4x2048x512_S1024x512_S4x2048x1024_2_1_01_0_n_n : DotDims S4x2048x512 S1024x512 S4x2048x1024 where
  lhsContracting := [2]
  rhsContracting := [1]
  lhsNonContracting := [0, 1]
  rhsNonContracting := [0]
  lhsBatch := []
  rhsBatch := []
  wf := dot_S4x2048x512_S1024x512_S4x2048x1024_2_1_01_0_n_n_wf
def dot_S4x2048x512_S4x1024x512_S4x2048x4x1024_2_2_01_01_n_n : DotDims S4x2048x512 S4x1024x512 S4x2048x4x1024 where
  lhsContracting := [2]
  rhsContracting := [2]
  lhsNonContracting := [0, 1]
  rhsNonContracting := [0, 1]
  lhsBatch := []
  rhsBatch := []
  wf := dot_S4x2048x512_S4x1024x512_S4x2048x4x1024_2_2_01_01_n_n_wf

class Facts : Prop extends Facts₀ where

variable [Facts]
-- ==== Proof.Spec.lean ====
/-
  The whole-array function both programs compute, index by index, on the extended reals.

  From the embedding rows `E[b,t,·]` (512 entries, the same gather in both programs) and the hidden state
  `hid[b,t,m,·]` (1024 entries per head m):
    value[b,t,h]   = ∑ₑ E[b,t,e] · w_v[h,e]
    keys[b,t,m,h]  = ∑ₑ E[b,t,e] · w_k[m,h,e]
    nk = keys · rr(keys) · norm_k_w,   nq = hid · rr(hid) · norm_h_w,   rr(x) = 1/√(mean x² + ε)
    g0[b,t,m]      = (∑ₕ nk · nq) / 32
    gate           = logistic(√(max(|g0|, 1e-6)) · sign g0)
    gated[b,t,m,h] = gate[b,t,m] · value[b,t,h]
    xn             = gated · rr(gated) · sc_norm_w
    conv[b,t,m,h]  = ∑_{j<4} conv_w[m,h,j] · xn[b, t + 3j − 9, m, h]   (zero before the sequence's start)
    out            = conv · logistic(conv) + gated + hid.
-/
import Idealize.ShloMosaic.PureOps.Ideal
import Idealize.ShloMosaic.Lib.ValueIdx

noncomputable section

namespace Cert.Spec

open Idealize.ShloMosaic Idealize.ShloMosaic.ValueIdx
open scoped BigOperators

abbrev SEmb : Shape := ⟨3, ![4, 2048, 512]⟩
abbrev SHid : Shape := ⟨4, ![4, 2048, 4, 1024]⟩
abbrev SWv : Shape := ⟨2, ![1024, 512]⟩
abbrev SWk : Shape := ⟨3, ![4, 1024, 512]⟩
abbrev SNw : Shape := ⟨2, ![4, 1024]⟩
abbrev SCw : Shape := ⟨3, ![4, 1024, 4]⟩

/-- 1024, the length of a row. -/
def c1024 : EReal := Ideal.ofBits .f32 0x44800000#32
/-- 32, the square root of the row length. -/
def c32 : EReal := Ideal.ofBits .f32 0x42000000#32
/-- The gate norms' epsilon, 2⁻²³. -/
def epsG : EReal := Ideal.ofBits .f32 0x34000000#32
/-- The short convolution's norm epsilon, the float nearest 1e-5. -/
def epsS : EReal := Ideal.ofBits .f32 0x3727C5AC#32
/-- The floor under the gate's magnitude, the float nearest 1e-6. -/
def cFloor : EReal := Ideal.ofBits .f32 0x358637BD#32

/-- The reciprocal root mean square of a row of 1024 entries, with epsilon `eps`. -/
def rr (eps : EReal) (x : Fin 1024 → EReal) : EReal :=
  Ideal.rsqrt (Ideal.div (∑ h : Fin 1024, x h * x h) c1024 + eps)

/-- A row scaled to unit root mean square, then by the weight row `w`. -/
def rowNorm (eps : EReal) (x w : Fin 1024 → EReal) (h : Fin 1024) : EReal := x h * rr eps x * w h

/-- The gate from the scaled inner product `g`: logistic of √(max(|g|, floor)) · sign g. -/
def gateOf (g : EReal) : EReal :=
  Ideal.logistic (Ideal.sqrt (max (max g (-g)) cFloor) * Ideal.sign g)

/-- The inner product of the normalised key row `kx` and query row `qx`, over 32. -/
def rowG0 (kx qx nkw nhw : Fin 1024 → EReal) : EReal :=
  Ideal.div (∑ h : Fin 1024, rowNorm epsG kx nkw h * rowNorm epsG qx nhw h) c32

/-- The value row `vx` under the gate of key row `kx` and query row `qx`. -/
def rowGated (kx qx nkw nhw vx : Fin 1024 → EReal) (h : Fin 1024) : EReal :=
  gateOf (rowG0 kx qx nkw nhw) * vx h

/-- The gated row, normalised for the short convolution. -/
def rowXn (kx qx nkw nhw vx scw : Fin 1024 → EReal) (h : Fin 1024) : EReal :=
  rowNorm epsS (rowGated kx qx nkw nhw vx) scw h

/-- The four taps summed, first to last. -/
def conv4 (c0 t0 c1 t1 c2 t2 c3 t3 : EReal) : EReal := c0 * t0 + c1 * t1 + c2 * t2 + c3 * t3

/-- SiLU of the convolution, plus the gated value, plus the residual. -/
def rowOut (cv g hd : EReal) : EReal := cv * Ideal.logistic cv + g + hd

section
variable (E : SEmb.Idx → EReal) (hid : SHid.Idx → EReal) (wv : SWv.Idx → EReal) (wk : SWk.Idx → EReal)
  (nh nk sc : SNw.Idx → EReal) (cw : SCw.Idx → EReal)

def value (b : Fin 4) (t : Fin 2048) (h : Fin 1024) : EReal :=
  ∑ e : Fin 512, E (ix3 b t e) * wv (ix2 h e)

def keys (b : Fin 4) (t : Fin 2048) (m : Fin 4) (h : Fin 1024) : EReal :=
  ∑ e : Fin 512, E (ix3 b t e) * wk (ix3 m h e)

def gated (b : Fin 4) (t : Fin 2048) (m : Fin 4) (h : Fin 1024) : EReal :=
  rowGated (keys E wk b t m) (fun h' => hid (ix4 b t m h')) (fun h' => nk (ix2 m h')) (fun h' => nh (ix2 m h'))
    (value E wv b t) h

/-- The gated value, normalised for the short convolution. -/
def xn (b : Fin 4) (t : Fin 2048) (m : Fin 4) (h : Fin 1024) : EReal :=
  rowXn (keys E wk b t m) (fun h' => hid (ix4 b t m h')) (fun h' => nk (ix2 m h')) (fun h' => nh (ix2 m h'))
    (value E wv b t) (fun h' => sc (ix2 m h')) h

/-- `xn` behind nine rows of zeros: row `u` of the padded sequence. -/
def xp (b : Fin 4) (u : ℕ) (m : Fin 4) (h : Fin 1024) : EReal :=
  if hu : 9 ≤ u ∧ u < 2057 then xn E hid wv wk nh nk sc b ⟨u - 9, by omega⟩ m h else 0

/-- The causal dilated convolution: four taps, three rows apart. -/
def conv (b : Fin 4) (t : Fin 2048) (m : Fin 4) (h : Fin 1024) : EReal :=
  conv4 (cw (ix3 m h 0)) (xp E hid wv wk nh nk sc b (t.val + 0) m h)
    (cw (ix3 m h 1)) (xp E hid wv wk nh nk sc b (t.val + 3) m h)
    (cw (ix3 m h 2)) (xp E hid wv wk nh nk sc b (t.val + 6) m h)
    (cw (ix3 m h 3)) (xp E hid wv wk nh nk sc b (t.val + 9) m h)

def out (b : Fin 4) (t : Fin 2048) (m : Fin 4) (h : Fin 1024) : EReal :=
  rowOut (conv E hid wv wk nh nk sc cw b t m h) (gated E hid wv wk nh nk b t m h) (hid (ix4 b t m h))

/-- The result array. -/
def G : SHid.Idx → EReal := fun i => out E hid wv wk nh nk sc cw (i 0) (i 1) (i 2) (i 3)

theorem G_ix4 (b : Fin 4) (t : Fin 2048) (m : Fin 4) (h : Fin 1024) :
    G E hid wv wk nh nk sc cw (ix4 b t m h) = out E hid wv wk nh nk sc cw b t m h := rfl

end

end Cert.Spec

end
-- ==== Proof.HeadVec.lean ====
/-
  One head of the kernel's body as vector functions of the values it loads, and what they hold at an index
  on the extended reals: the rows of the specification.
-/
import proofs.«400853_j56710748176506_3_alg».proof.Proof.Gen.KernelIdeal.Skeleton
import proofs.«400853_j56710748176506_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HeadVec

open Cert.KernelIdeal Cert.KernelIdeal.Gen Idealize.ShloMosaic Idealize.ShloMosaic.ValueIdx
open scoped BigOperators

section Defs
variable {F : FTy → Type} [FloatOps F]

/-- The gated value tile of one head: gate (one per row) times the value tile. -/
def gatedV (emb : Vec F S1x128x512 .bf16) (wv : Vec F S512x1024 .bf16) (wk : Vec F S1x512x1024 .bf16)
    (nkr : Vec F S1x1024 .f32) (hd : Vec F S1x128x1x1024 .f32) (nhr : Vec F S1x1024 .f32) : FVec F S128x1024 .f32 :=
  k0_pay10 (k0_pay5 emb wv) (k0_pay6 emb wk nkr) (k0_pay7 hd) (k0_pay8 nhr) (k0_pay9 hd)

/-- The normalised gated tile of one head, as stored into the scratch. -/
def xnV (emb : Vec F S1x128x512 .bf16) (wv : Vec F S512x1024 .bf16) (wk : Vec F S1x512x1024 .bf16)
    (nkr : Vec F S1x1024 .f32) (hd : Vec F S1x128x1x1024 .f32) (nhr scr : Vec F S1x1024 .f32) : FVec F S1x128x1024 .f32 :=
  k0_pay12 (k0_pay11 (k0_pay5 emb wv) (k0_pay6 emb wk nkr) (k0_pay7 hd) (k0_pay8 nhr) (k0_pay9 hd) scr)

/-- The output tile of one head from the four taps `t0 … t3` and their weight rows `c0 … c3`. -/
def outV (emb : Vec F S1x128x512 .bf16) (wv : Vec F S512x1024 .bf16) (wk : Vec F S1x512x1024 .bf16)
    (nkr : Vec F S1x1024 .f32) (hd : Vec F S1x128x1x1024 .f32) (nhr : Vec F S1x1024 .f32)
    (t0 : Vec F S1x128x1024 .f32) (c0 : Vec F S1x1x1024 .f32) (t1 : Vec F S1x128x1024 .f32) (c1 : Vec F S1x1x1024 .f32)
    (t2 : Vec F S1x128x1024 .f32) (c2 : Vec F S1x1x1024 .f32) (t3 : Vec F S1x128x1024 .f32) (c3 : Vec F S1x1x1024 .f32) :
    FVec F S1x128x1x1024 .f32 :=
  k0_pay16 (gatedV emb wv wk nkr hd nhr) (k0_pay13 t0 c0 t1 c1 t2 c2) (k0_pay14 t3) (k0_pay15 c3) hd

/-- The nine carried rows, as stored back. -/
def carryV (v : Vec F S1x9x1024 .f32) : FVec F S1x9x1024 .f32 := k0_pay17 v

end Defs

/-! ## At the extended reals, index by index -/

/-- The key row of tile row `p`: the embedding row against the (transposed) key weights. -/
def kRow (emb : Vec Ideal S1x128x512 .bf16) (wk : Vec Ideal S1x512x1024 .bf16) (p : Fin 128) (h : Fin 1024) : EReal :=
  ∑ e : Fin 512, (emb (ix3 0 p e) : EReal) * (wk (ix3 0 e h) : EReal)

/-- The value row of tile row `p`. -/
def vRow (emb : Vec Ideal S1x128x512 .bf16) (wv : Vec Ideal S512x1024 .bf16) (p : Fin 128) (h : Fin 1024) : EReal :=
  ∑ e : Fin 512, (emb (ix3 0 p e) : EReal) * (wv (ix2 e h) : EReal)

/-! ## Layout operations at an index: unit axes inside a shape, and a column laid over a tile -/

section Layout
variable {α : Type}

/-- An `[a]` array cast to `[a, 1]` reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, a, 1, b]` array cast to `[a, b]` reads, at `(i, j)`, the operand at `(0, i, 0, j)`. -/
private theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    rw [Nat.zero_mul, Nat.zero_add, Nat.mul_one, Nat.add_zero])

/-- An `[a, b]` array cast to `[1, a, 1, b]` reads, at `(u, i, w, j)`, the operand at `(i, j)`. -/
private theorem shapeCast_ab_1a1b_apply {a b : ℕ} (x : (⟨2, ![a, b]⟩ : Shape).Idx → α)
    (h : (⟨2, ![a, b]⟩ : Shape).ShapeCasts ⟨4, ![1, a, 1, b]⟩) (u : Fin 1) (i : Fin a) (w : Fin 1) (j : Fin b) :
    shapeCast ⟨4, ![1, a, 1, b]⟩ x h (ix4 u i w j) = x (ix2 i j) :=
  shapeCast_apply x h _ _ (by
    have hu : u.val = 0 := by omega
    have hw : w.val = 0 := by omega
    rw [Shape.rowMajor_val_four, Shape.rowMajor_val_two]
    show i.val * b + j.val = ((u.val * a + i.val) * 1 + w.val) * b + j.val
    rw [hu, hw, Nat.zero_mul, Nat.zero_add, Nat.mul_one, Nat.add_zero])

/-- A `[1, 1, a]` array cast to `[a]` reads, at `i`, the operand at `(0, 0, i)`. -/
private theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- An `[a, 1]` column broadcast to `[a, b]` reads, at `(p, c)`, the column at `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The lane sum and the matrix product at an index -/

/-- The sum along the lanes of a `[128, 1024]` tile, at row `p`. -/
private theorem laneSum_apply (src : FVec Ideal S128x1024 .f32) (h : S128x1024.Reduces [1] S128)
    (hφ : FTy.f32 = FTy.f32 ∨ FTy.f32 = FTy.bf16) (hacc : (0x00000000#32 : BitVec 32) = 0x00000000#32) (p : Fin 128) :
    multiReduction .add [1] S128 src 0x00000000#32 h hφ hacc (ix1 p) = ∑ k : Fin 1024, src (ix2 p k) := by
  refine (Ideal.multiReduction_add_single src 0x00000000#32 h hφ hacc (ix1 p)).trans ?_
  refine Finset.sum_congr rfl fun k _ => congrArg src ?_
  funext c
  refine Fin.ext ?_
  match c with
  | ⟨0, _⟩ => rfl
  | ⟨1, _⟩ => rfl

private theorem lhs_dot_0 (i : S128x1024.Idx) (q : dot_S128x512_S512x1024_S128x1024_1_0_0_1_n_n.contr.Idx) :
    (dot_S128x512_S512x1024_S128x1024_1_0_0_1_n_n.lhsIdx i q 0).val = (i 0).val := by
  unfold DotDims.lhsIdx
  rw [dif_neg (show ¬(0 : Fin S128x512.rank) ∈ dot_S128x512_S512x1024_S128x1024_1_0_0_1_n_n.lhsBatch by decide), dif_pos (show (0 : Fin S128x512.rank) ∈ dot_S128x512_S512x1024_S128x1024_1_0_0_1_n_n.lhsNonContracting by decide)]
  rfl
private theorem lhs_dot_1 (i : S128x1024.Idx) (q : dot_S128x512_S512x1024_S128x1024_1_0_0_1_n_n.contr.Idx) :
    (dot_S128x512_S512x1024_S128x1024_1_0_0_1_n_n.lhsIdx i q 1).val = (q ⟨0, by decide⟩).val :=
  dot_S128x512_S512x1024_S128x1024_1_0_0_1_n_n.lhsIdx_val_of_single rfl i q
private theorem rhs_dot_0 (i : S128x1024.Idx) (q : dot_S128x512_S512x1024_S128x1024_1_0_0_1_n_n.contr.Idx) :
    (dot_S128x512_S512x1024_S128x1024_1_0_0_1_n_n.rhsIdx i q 0).val = (q ⟨0, by decide⟩).val :=
  dot_S128x512_S512x1024_S128x1024_1_0_0_1_n_n.rhsIdx_val_of_single rfl i q
private theorem rhs_dot_1 (i : S128x1024.Idx) (q : dot_S128x512_S512x1024_S128x1024_1_0_0_1_n_n.contr.Idx) :
    (dot_S128x512_S512x1024_S128x1024_1_0_0_1_n_n.rhsIdx i q 1).val = (i 1).val := by
  unfold DotDims.rhsIdx
  rw [dif_neg (show ¬(1 : Fin S512x1024.rank) ∈ dot_S128x512_S512x1024_S128x1024_1_0_0_1_n_n.rhsBatch by decide), dif_pos (show (1 : Fin S512x1024.rank) ∈ dot_S128x512_S512x1024_S128x1024_1_0_0_1_n_n.rhsNonContracting by decide)]
  rfl

/-- The matrix product into a zero accumulator, at `(p, q)`: the sum over the contracted axis. -/
private theorem matmul_zero_apply (lhs : FVec Ideal S128x512 .bf16) (rhs : FVec Ideal S512x1024 .bf16) (p : Fin 128) (q : Fin 1024) :
    matmul dot_S128x512_S512x1024_S128x1024_1_0_0_1_n_n none lhs rhs (constant (F := Ideal) S128x1024 .f32 0x00000000#32) (ix2 p q)
      = ∑ e : Fin 512, (lhs (ix2 p e) : EReal) * (rhs (ix2 e q) : EReal) := by
  simp only [matmul]
  rw [Ideal.matmul_constant_zero_apply, ← Equiv.sum_comp (contrEquiv1 dot_S128x512_S512x1024_S128x1024_1_0_0_1_n_n 512 rfl rfl).symm]
  refine Finset.sum_congr rfl fun k _ => ?_
  have hk := contrEquiv1_symm_val dot_S128x512_S512x1024_S128x1024_1_0_0_1_n_n 512 rfl rfl k
  have el : dot_S128x512_S512x1024_S128x1024_1_0_0_1_n_n.lhsIdx (ix2 p q) ((contrEquiv1 dot_S128x512_S512x1024_S128x1024_1_0_0_1_n_n 512 rfl rfl).symm k) = ix2 p k := funext fun a => Fin.ext (by
    match a with
    | ⟨0, _⟩ => exact lhs_dot_0 _ _
    | ⟨1, _⟩ => exact (lhs_dot_1 _ _).trans hk)
  have er : dot_S128x512_S512x1024_S128x1024_1_0_0_1_n_n.rhsIdx (ix2 p q) ((contrEquiv1 dot_S128x512_S512x1024_S128x1024_1_0_0_1_n_n 512 rfl rfl).symm k) = ix2 k q := funext fun a => Fin.ext (by
    match a with
    | ⟨0, _⟩ => exact (rhs_dot_0 _ _).trans hk
    | ⟨1, _⟩ => exact rhs_dot_1 _ _)
  rw [el, er]

/-! ## The one-operand operations at an index -/

section Unary
variable {s : Shape} {φ : FTy}
private theorem rsqrt_apply (a : FVec Ideal s φ) (i : s.Idx) : rsqrt a i = Ideal.rsqrt (a i) := rfl
private theorem sqrt_apply (a : FVec Ideal s φ) (i : s.Idx) : sqrt a i = Ideal.sqrt (a i) := rfl
private theorem logistic_apply (a : FVec Ideal s φ) (i : s.Idx) : logistic a i = Ideal.logistic (a i) := rfl
private theorem absf_apply (a : FVec Ideal s φ) (i : s.Idx) : absf a i = max (a i) (-(a i)) := rfl
end Unary

/-! ## Columns and rows of a tile -/

/-- The lane sums of a tile, as a column. -/
private theorem sumCol_apply (src : FVec Ideal S128x1024 .f32) (h : S128x1024.Reduces [1] S128)
    (hφ : FTy.f32 = FTy.f32 ∨ FTy.f32 = FTy.bf16) (hacc : (0x00000000#32 : BitVec 32) = 0x00000000#32)
    (hsc : S128.ShapeCasts S128x1) (p : Fin 128) (u : Fin 1) :
    shapeCast S128x1 (multiReduction .add [1] S128 src 0x00000000#32 h hφ hacc) hsc (ix2 p u) = ∑ k : Fin 1024, src (ix2 p k) :=
  (shapeCast_a_a1_apply _ hsc p u).trans (laneSum_apply src h hφ hacc p)

/-- A row of 1024 entries laid over the 128 rows of a tile. -/
private theorem rowBcast_apply (w : FVec Ideal S1024 .f32) (hsc : S1024.ShapeCasts S1x1024) (hb : S1x1024.Broadcasts S128x1024)
    (p : Fin 128) (q : Fin 1024) :
    broadcastTo S128x1024 (shapeCast S1x1024 w hsc) hb (ix2 p q) = w (ix1 q) :=
  (broadcastTo_1b_ab_apply _ hb p q).trans (shapeCast_a_1a_apply w hsc 0 q)

/-! ## The payloads at an index -/

private theorem pay4_apply (emb : Vec Ideal S1x128x512 .bf16) (p : Fin 128) (e : Fin 512) :
    k0_pay4 emb (ix2 p e) = emb (ix3 0 p e) := by
  unfold k0_pay4
  exact shapeCast_1ab_ab_apply emb _ p e

private theorem pay5_apply (emb : Vec Ideal S1x128x512 .bf16) (wv : Vec Ideal S512x1024 .bf16) (p : Fin 128) (q : Fin 1024) :
    (k0_pay5 emb wv (ix2 p q) : EReal) = vRow emb wv p q := by
  unfold k0_pay5 vRow
  refine (matmul_zero_apply _ _ p q).trans ?_
  refine Finset.sum_congr rfl fun e _ => ?_
  rw [pay4_apply, shapeCast_self]

/-- The key product of one head at `(p, h)`. -/
private theorem keyMat_apply (emb : Vec Ideal S1x128x512 .bf16) (wk : Vec Ideal S1x512x1024 .bf16) (hsc : S1x512x1024.ShapeCasts S512x1024)
    (p : Fin 128) (h : Fin 1024) :
    matmul (φ₁ := .bf16) (φ₂ := .bf16) dot_S128x512_S512x1024_S128x1024_1_0_0_1_n_n none (k0_pay4 emb) (shapeCast S512x1024 wk hsc)
        (constant (F := Ideal) S128x1024 .f32 0x00000000#32) (ix2 p h) = kRow emb wk p h := by
  unfold kRow
  refine (matmul_zero_apply _ _ p h).trans ?_
  refine Finset.sum_congr rfl fun e _ => ?_
  rw [pay4_apply, shapeCast_1ab_ab_apply]

private theorem pay6_apply (emb : Vec Ideal S1x128x512 .bf16) (wk : Vec Ideal S1x512x1024 .bf16) (nkr : Vec Ideal S1x1024 .f32)
    (p : Fin 128) (h : Fin 1024) :
    (k0_pay6 emb wk nkr (ix2 p h) : EReal)
      = Cert.Spec.rowNorm Cert.Spec.epsG (kRow emb wk p) (fun h => (nkr (ix2 0 h) : EReal)) h := by
  simp only [k0_pay6, mulf_apply, rowBcast_apply, broadcastTo_a1_ab_apply, rsqrt_apply, addf_apply, divf_apply, broadcast_apply,
    keyMat_apply, shapeCast_1a_a_apply, Ideal.ofBits_def]
  rw [sumCol_apply]
  simp only [mulf_apply, keyMat_apply]
  rfl

private theorem pay7_apply (hd : Vec Ideal S1x128x1x1024 .f32) (p : Fin 128) (h : Fin 1024) :
    k0_pay7 hd (ix2 p h) = hd (ix4 0 p 0 h) := by
  unfold k0_pay7
  exact shapeCast_1a1b_ab_apply hd _ p h

private theorem pay8_apply (nhr : Vec Ideal S1x1024 .f32) (h : Fin 1024) :
    k0_pay8 nhr (ix1 h) = nhr (ix2 0 h) := by
  unfold k0_pay8
  exact shapeCast_1a_a_apply nhr _ h

private theorem pay9_apply (hd : Vec Ideal S1x128x1x1024 .f32) (p : Fin 128) (u : Fin 1) :
    (k0_pay9 hd (ix2 p u) : EReal) = ∑ h : Fin 1024, (hd (ix4 0 p 0 h) : EReal) * (hd (ix4 0 p 0 h) : EReal) := by
  simp only [k0_pay9]
  rw [sumCol_apply]
  simp only [mulf_apply, pay7_apply]

/-! ## Scalars: the sign as the payload spells it, and the factor 1/32 -/

/-- The select form of the sign, at one element, is the sign. -/
private theorem sign_form (g : EReal) :
    Scalar.select (FloatOps.cmpf (F := Ideal) (φ := .f32) .ogt (max g (-g)) (Ideal.ofBits .f32 0x00000000#32))
        (Scalar.select (FloatOps.cmpf (F := Ideal) (φ := .f32) .olt g (Ideal.ofBits .f32 0x00000000#32)) (Ideal.ofBits .f32 0xBF800000#32)
          (Ideal.ofBits .f32 0x3F800000#32)) g
      = Ideal.sign g :=
  Ideal.jnp_sign_eq_sign_f32 g

/-- Multiplying by the float `1/32` is dividing by the float `32`. -/
private theorem mul_inv32 (x : EReal) : x * Ideal.ofBits .f32 0x3D000000#32 = Ideal.div x Cert.Spec.c32 := by
  have h1 : Ideal.ofBits .f32 0x3D000000#32 = ((1 / 32 : ℝ) : EReal) := by
    simp [Ideal.ofBits, Ideal.ieee, -EReal.coe_mul]; norm_num
  have h2 : Cert.Spec.c32 = ((32 : ℝ) : EReal) := by
    unfold Cert.Spec.c32
    simp [Ideal.ofBits, Ideal.ieee, -EReal.coe_mul]; norm_num
  rw [h1, h2, Ideal.div_coe (by norm_num : (32 : ℝ) ≠ 0)]

/-- The gated value tile over its inputs: the gate of the scaled inner product, times the value. -/
private theorem pay10_apply (v7 v25 v27 : FVec Ideal S128x1024 .f32) (v29 : FVec Ideal S1024 .f32) (v32 : FVec Ideal S128x1 .f32)
    (p : Fin 128) (q : Fin 1024) :
    (k0_pay10 v7 v25 v27 v29 v32 (ix2 p q) : EReal)
      = Cert.Spec.gateOf (Ideal.div (∑ k : Fin 1024, v25 (ix2 p k)
            * (v27 (ix2 p k) * Ideal.rsqrt (Ideal.div (v32 (ix2 p 0)) Cert.Spec.c1024 + Cert.Spec.epsG) * v29 (ix1 k))) Cert.Spec.c32)
          * v7 (ix2 p q) := by
  simp only [k0_pay10, mulf_apply, broadcastTo_a1_ab_apply, logistic_apply, sqrt_apply, maximumf_apply, absf_apply, broadcast_apply,
    select_apply, cmpf_apply, constant_apply, Ideal.ofBits_def]
  rw [sumCol_apply]
  simp only [mulf_apply, broadcastTo_a1_ab_apply, rowBcast_apply, rsqrt_apply, addf_apply, divf_apply, broadcast_apply]
  rw [sign_form, mul_inv32]
  rfl

/-- The normalised gated tile over its inputs. -/
private theorem pay11_apply (v7 v25 v27 : FVec Ideal S128x1024 .f32) (v29 : FVec Ideal S1024 .f32) (v32 : FVec Ideal S128x1 .f32)
    (scr : Vec Ideal S1x1024 .f32) (p : Fin 128) (q : Fin 1024) :
    (k0_pay11 v7 v25 v27 v29 v32 scr (ix2 p q) : EReal)
      = Cert.Spec.rowNorm Cert.Spec.epsS (fun h => (k0_pay10 v7 v25 v27 v29 v32 (ix2 p h) : EReal)) (fun h => (scr (ix2 0 h) : EReal)) q := by
  simp only [k0_pay11, mulf_apply, rowBcast_apply, broadcastTo_a1_ab_apply, rsqrt_apply, addf_apply, divf_apply, broadcast_apply,
    shapeCast_1a_a_apply, Ideal.ofBits_def]
  rw [sumCol_apply]
  simp only [mulf_apply]
  rfl

/-- The first three taps of the short convolution. -/
private theorem pay13_apply (t0 : Vec Ideal S1x128x1024 .f32) (c0 : Vec Ideal S1x1x1024 .f32) (t1 : Vec Ideal S1x128x1024 .f32)
    (c1 : Vec Ideal S1x1x1024 .f32) (t2 : Vec Ideal S1x128x1024 .f32) (c2 : Vec Ideal S1x1x1024 .f32) (p : Fin 128) (q : Fin 1024) :
    (k0_pay13 t0 c0 t1 c1 t2 c2 (ix2 p q) : EReal)
      = c0 (ix3 0 0 q) * t0 (ix3 0 p q) + c1 (ix3 0 0 q) * t1 (ix3 0 p q) + c2 (ix3 0 0 q) * t2 (ix3 0 p q) := by
  simp only [k0_pay13, addf_apply, mulf_apply, broadcast_apply, rowBcast_apply, shapeCast_11a_a_apply, shapeCast_1ab_ab_apply,
    Ideal.ofBits_def, Ideal.ofBits_zero_f32, zero_add]

private theorem pay14_apply (t3 : Vec Ideal S1x128x1024 .f32) (p : Fin 128) (q : Fin 1024) :
    k0_pay14 t3 (ix2 p q) = t3 (ix3 0 p q) := by
  unfold k0_pay14
  exact shapeCast_1ab_ab_apply t3 _ p q

private theorem pay15_apply (c3 : Vec Ideal S1x1x1024 .f32) (u : Fin 1) (q : Fin 1024) :
    k0_pay15 c3 (ix2 u q) = c3 (ix3 0 0 q) := by
  unfold k0_pay15
  exact (shapeCast_a_1a_apply _ _ u q).trans (shapeCast_11a_a_apply c3 _ q)

/-- The output tile over its inputs: SiLU of the four-tap sum, plus the gated value, plus the residual. -/
private theorem pay16_apply (v65 v108 v110 : FVec Ideal S128x1024 .f32) (v113 : FVec Ideal S1x1024 .f32)
    (hd : Vec Ideal S1x128x1x1024 .f32) (p : Fin 128) (q : Fin 1024) :
    (k0_pay16 v65 v108 v110 v113 hd (ix4 0 p 0 q) : EReal)
      = Cert.Spec.rowOut (v108 (ix2 p q) + v113 (ix2 0 q) * v110 (ix2 p q)) (v65 (ix2 p q)) (hd (ix4 0 p 0 q)) := by
  simp only [k0_pay16, shapeCast_ab_1a1b_apply, addf_apply, mulf_apply, logistic_apply, broadcastTo_1b_ab_apply, shapeCast_1a1b_ab_apply]
  rfl

theorem gatedV_apply (emb : Vec Ideal S1x128x512 .bf16) (wv : Vec Ideal S512x1024 .bf16) (wk : Vec Ideal S1x512x1024 .bf16)
    (nkr : Vec Ideal S1x1024 .f32) (hd : Vec Ideal S1x128x1x1024 .f32) (nhr : Vec Ideal S1x1024 .f32) (p : Fin 128) (q : Fin 1024) :
    (gatedV emb wv wk nkr hd nhr (ix2 p q) : EReal)
      = Cert.Spec.rowGated (kRow emb wk p) (fun h => (hd (ix4 0 p 0 h) : EReal)) (fun h => (nkr (ix2 0 h) : EReal))
          (fun h => (nhr (ix2 0 h) : EReal)) (vRow emb wv p) q := by
  unfold gatedV
  rw [pay10_apply]
  simp only [pay5_apply, pay6_apply, pay7_apply, pay8_apply, pay9_apply]
  rfl

theorem xnV_apply (emb : Vec Ideal S1x128x512 .bf16) (wv : Vec Ideal S512x1024 .bf16) (wk : Vec Ideal S1x512x1024 .bf16)
    (nkr : Vec Ideal S1x1024 .f32) (hd : Vec Ideal S1x128x1x1024 .f32) (nhr scr : Vec Ideal S1x1024 .f32) (p : Fin 128) (q : Fin 1024) :
    (xnV emb wv wk nkr hd nhr scr (ix3 0 p q) : EReal)
      = Cert.Spec.rowXn (kRow emb wk p) (fun h => (hd (ix4 0 p 0 h) : EReal)) (fun h => (nkr (ix2 0 h) : EReal))
          (fun h => (nhr (ix2 0 h) : EReal)) (vRow emb wv p) (fun h => (scr (ix2 0 h) : EReal)) q := by
  unfold xnV k0_pay12
  refine (shapeCast_ab_1ab_apply _ _ 0 p q).trans ?_
  rw [pay11_apply]
  have hg : (fun h => (k0_pay10 (k0_pay5 emb wv) (k0_pay6 emb wk nkr) (k0_pay7 hd) (k0_pay8 nhr) (k0_pay9 hd) (ix2 p h) : EReal))
      = Cert.Spec.rowGated (kRow emb wk p) (fun h => (hd (ix4 0 p 0 h) : EReal)) (fun h => (nkr (ix2 0 h) : EReal))
          (fun h => (nhr (ix2 0 h) : EReal)) (vRow emb wv p) :=
    funext fun h => gatedV_apply emb wv wk nkr hd nhr p h
  rw [hg]
  rfl

theorem outV_apply (emb : Vec Ideal S1x128x512 .bf16) (wv : Vec Ideal S512x1024 .bf16) (wk : Vec Ideal S1x512x1024 .bf16)
    (nkr : Vec Ideal S1x1024 .f32) (hd : Vec Ideal S1x128x1x1024 .f32) (nhr : Vec Ideal S1x1024 .f32)
    (t0 : Vec Ideal S1x128x1024 .f32) (c0 : Vec Ideal S1x1x1024 .f32) (t1 : Vec Ideal S1x128x1024 .f32) (c1 : Vec Ideal S1x1x1024 .f32)
    (t2 : Vec Ideal S1x128x1024 .f32) (c2 : Vec Ideal S1x1x1024 .f32) (t3 : Vec Ideal S1x128x1024 .f32) (c3 : Vec Ideal S1x1x1024 .f32)
    (p : Fin 128) (q : Fin 1024) :
    (outV emb wv wk nkr hd nhr t0 c0 t1 c1 t2 c2 t3 c3 (ix4 0 p 0 q) : EReal)
      = Cert.Spec.rowOut
          (Cert.Spec.conv4 (c0 (ix3 0 0 q)) (t0 (ix3 0 p q)) (c1 (ix3 0 0 q)) (t1 (ix3 0 p q))
            (c2 (ix3 0 0 q)) (t2 (ix3 0 p q)) (c3 (ix3 0 0 q)) (t3 (ix3 0 p q)))
          (Cert.Spec.rowGated (kRow emb wk p) (fun h => (hd (ix4 0 p 0 h) : EReal)) (fun h => (nkr (ix2 0 h) : EReal))
            (fun h => (nhr (ix2 0 h) : EReal)) (vRow emb wv p) q)
          (hd (ix4 0 p 0 q)) := by
  unfold outV
  rw [pay16_apply, gatedV_apply, pay13_apply, pay14_apply, pay15_apply]
  rfl

theorem carryV_apply (v : Vec Ideal S1x9x1024 .f32) (r : Fin 9) (q : Fin 1024) :
    (carryV v (ix3 0 r q) : EReal) = v (ix3 0 r q) := by
  unfold carryV k0_pay17
  exact congrFun (shapeCast_shapeCast v _ _) _

end Cert.KernelIdeal.HeadVec

end
-- ==== Proof.Pieces.lean ====
/-
  What one run of the body leaves: the four heads' stores into the output block and into the carried scratch,
  as lists of pieces over the vector functions of one head.
-/
import proofs.«400853_j56710748176506_3_alg».proof.Proof.Gen.KernelIdeal.Frame
import proofs.«400853_j56710748176506_3_alg».proof.Proof.HeadVec
import Idealize.ShloMosaic.Lib.WritesUnit

set_option maxRecDepth 16384

noncomputable section

namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.HeadVec Idealize.ShloMosaic.ValueIdx

variable {F : FTy → Type} [FloatOps F]

/-! ## The rectangles of head `mm` -/

theorem inbWk (mm : Fin 4) : ∀ a, (![mm.val, 0, 0] : Fin 3 → ℕ) a + S1x512x1024.size a ≤ S4x512x1024.size a := by
  fin_cases mm <;> exact (by decide)
theorem inbRow (mm : Fin 4) : ∀ a, (![mm.val, 0] : Fin 2 → ℕ) a + S1x1024.size a ≤ S4x1024.size a := by
  fin_cases mm <;> exact (by decide)
theorem inbHid (mm : Fin 4) : ∀ a, (![0, 0, mm.val, 0] : Fin 4 → ℕ) a + S1x128x1x1024.size a ≤ S1x128x4x1024.size a := by
  fin_cases mm <;> exact (by decide)
theorem inbCw (mm j : Fin 4) : ∀ a, (![mm.val, j.val, 0] : Fin 3 → ℕ) a + S1x1x1024.size a ≤ S4x4x1024.size a := by
  fin_cases mm <;> fin_cases j <;> exact (by decide)
/-- A tile of 128 scratch rows of head `mm` from row `o ≤ 16`. -/
theorem inbTile (mm : Fin 4) (o : ℕ) (ho : o ≤ 16) :
    ∀ a, (![mm.val, o, 0] : Fin 3 → ℕ) a + S1x128x1024.size a ≤ S4x144x1024.size a := by
  intro a
  have := mm.isLt
  fin_cases a
  · show mm.val + 1 ≤ 4; omega
  · show o + 128 ≤ 144; omega
  · show 0 + 1024 ≤ 1024; omega
/-- Nine scratch rows of head `mm` from row `o ≤ 135`. -/
theorem inbNine (mm : Fin 4) (o : ℕ) (ho : o ≤ 135) :
    ∀ a, (![mm.val, o, 0] : Fin 3 → ℕ) a + S1x9x1024.size a ≤ S4x144x1024.size a := by
  intro a
  have := mm.isLt
  fin_cases a
  · show mm.val + 1 ≤ 4; omega
  · show o + 9 ≤ 144; omega
  · show 0 + 1024 ≤ 1024; omega

/-- The staging memrefs a run of the body is handed, whole, and what the inputs' hold. -/
structure Env (F : FTy → Type) [FloatOps F] where
  arg2 : Memref sig .tc .vmem S1x128x512 .bf16
  harg2 : arg2.IsWhole
  arg3 : Memref sig .tc .vmem S1x128x4x1024 .f32
  harg3 : arg3.IsWhole
  arg4 : Memref sig .tc .vmem S512x1024 .bf16
  harg4 : arg4.IsWhole
  arg5 : Memref sig .tc .vmem S4x512x1024 .bf16
  harg5 : arg5.IsWhole
  arg6 : Memref sig .tc .vmem S4x1024 .f32
  harg6 : arg6.IsWhole
  arg7 : Memref sig .tc .vmem S4x1024 .f32
  harg7 : arg7.IsWhole
  arg8 : Memref sig .tc .vmem S4x1024 .f32
  harg8 : arg8.IsWhole
  arg9 : Memref sig .tc .vmem S4x4x1024 .f32
  harg9 : arg9.IsWhole
  arg10 : Memref sig .tc .vmem S1x128x4x1024 .f32
  harg10 : arg10.IsWhole
  arg11 : Memref sig .tc .vmem S4x144x1024 .f32
  harg11 : arg11.IsWhole
  x0 : Vec F S1x128x512 .bf16
  x1 : Vec F S1x128x4x1024 .f32
  x2 : Vec F S512x1024 .bf16
  x3 : Vec F S4x512x1024 .bf16
  x4 : Vec F S4x1024 .f32
  x5 : Vec F S4x1024 .f32
  x6 : Vec F S4x1024 .f32
  x7 : Vec F S4x4x1024 .f32

abbrev SPiece (F : FTy → Type) [FloatOps F] := View.Piece (Elt F) S4x144x1024 .f32

section Run
variable (ε : Env F)

/-! ## The loads of the inputs -/

abbrev ldE : Vec F S1x128x512 .bf16 :=
  View.readAt (Elt F) ε.arg2.view (Rect.unit (s := S1x128x512) ![0, 0, 0] S1x128x512.size inb_S1x128x512_S1x128x512_0_0_0).toLoadRect (ε.harg2.unread ε.x0)
abbrev ldWv : Vec F S512x1024 .bf16 :=
  View.readAt (Elt F) ε.arg4.view (Rect.unit (s := S512x1024) ![0, 0] S512x1024.size inb_S512x1024_S512x1024_0_0).toLoadRect (ε.harg4.unread ε.x2)
abbrev ldWk (mm : Fin 4) : Vec F S1x512x1024 .bf16 :=
  View.readAt (Elt F) ε.arg5.view (Rect.unit (s := S4x512x1024) ![mm.val, 0, 0] S1x512x1024.size (inbWk mm)).toLoadRect (ε.harg5.unread ε.x3)
abbrev ldNk (mm : Fin 4) : Vec F S1x1024 .f32 :=
  View.readAt (Elt F) ε.arg7.view (Rect.unit (s := S4x1024) ![mm.val, 0] S1x1024.size (inbRow mm)).toLoadRect (ε.harg7.unread ε.x5)
abbrev ldHid (mm : Fin 4) : Vec F S1x128x1x1024 .f32 :=
  View.readAt (Elt F) ε.arg3.view (Rect.unit (s := S1x128x4x1024) ![0, 0, mm.val, 0] S1x128x1x1024.size (inbHid mm)).toLoadRect (ε.harg3.unread ε.x1)
abbrev ldNh (mm : Fin 4) : Vec F S1x1024 .f32 :=
  View.readAt (Elt F) ε.arg6.view (Rect.unit (s := S4x1024) ![mm.val, 0] S1x1024.size (inbRow mm)).toLoadRect (ε.harg6.unread ε.x4)
abbrev ldSc (mm : Fin 4) : Vec F S1x1024 .f32 :=
  View.readAt (Elt F) ε.arg8.view (Rect.unit (s := S4x1024) ![mm.val, 0] S1x1024.size (inbRow mm)).toLoadRect (ε.harg8.unread ε.x6)
abbrev ldCw (mm j : Fin 4) : Vec F S1x1x1024 .f32 :=
  View.readAt (Elt F) ε.arg9.view (Rect.unit (s := S4x4x1024) ![mm.val, j.val, 0] S1x1x1024.size (inbCw mm j)).toLoadRect (ε.harg9.unread ε.x7)

/-- Head `mm`'s normalised gated tile. -/
abbrev X (mm : Fin 4) : FVec F S1x128x1024 .f32 :=
  xnV (ldE ε) (ldWv ε) (ldWk ε mm) (ldNk ε mm) (ldHid ε mm) (ldNh ε mm) (ldSc ε mm)

/-! ## The scratch pieces -/

/-- Where head `mm` stores its tile: rows 16 … 143. -/
abbrev Rx (mm : Fin 4) : Rect S4x144x1024 := Rect.unit (s := S4x144x1024) ![mm.val, 16, 0] S1x128x1024.size (inbTile mm 16 le_rfl)
/-- Where head `mm` keeps its last nine rows for the next point: rows 7 … 15. -/
abbrev Rc (mm : Fin 4) : Rect S4x144x1024 := Rect.unit (s := S4x144x1024) ![mm.val, 7, 0] S1x9x1024.size (inbNine mm 7 (by omega))

/-- The tile's piece consed onto the earlier stores `L`. -/
abbrev withX (mm : Fin 4) (L : List (SPiece F)) : List (SPiece F) := ⟨Rx mm, X ε mm⟩ :: L

/-- The nine rows head `mm` carries: rows 135 … 143 read back after its tile's store. -/
abbrev Cy (mm : Fin 4) (L : List (SPiece F)) : FVec F S1x9x1024 .f32 :=
  carryV (ε.arg11.view.readCov (withX ε mm L)
    (Rect.unit (s := S4x144x1024) ![mm.val, 135, 0] S1x9x1024.size (inbNine mm 135 le_rfl)).toLoadRect)

/-- The stores after head `mm`: its carried rows, its tile, the earlier stores. -/
abbrev after (mm : Fin 4) (L : List (SPiece F)) : List (SPiece F) := ⟨Rc mm, Cy ε mm L⟩ :: withX ε mm L

/-- A tap of head `mm`: 128 rows from row `o`, read after the tile's store over the earlier stores `L` over `f`. -/
abbrev tap (f : ε.arg11.view.ty.Contents (Elt F)) (mm : Fin 4) (o : ℕ) (ho : o ≤ 16) (L : List (SPiece F)) : Vec F S1x128x1024 .f32 :=
  View.readAt (Elt F) ε.arg11.view (Rect.unit (s := S4x144x1024) ![mm.val, o, 0] S1x128x1024.size (inbTile mm o ho)).toLoadRect
    (ε.arg11.view.writes (Elt F) f (withX ε mm L))

/-- Head `mm`'s output tile: the first three taps read over `f`; the last lies inside the tile just stored. -/
abbrev Out (f : ε.arg11.view.ty.Contents (Elt F)) (mm : Fin 4) (L : List (SPiece F)) : FVec F S1x128x1x1024 .f32 :=
  outV (ldE ε) (ldWv ε) (ldWk ε mm) (ldNk ε mm) (ldHid ε mm) (ldNh ε mm)
    (tap ε f mm 7 (by omega) L) (ldCw ε mm 0) (tap ε f mm 10 (by omega) L) (ldCw ε mm 1)
    (tap ε f mm 13 (by omega) L) (ldCw ε mm 2) (tap ε ε.arg11.view.junk mm 16 le_rfl L) (ldCw ε mm 3)

/-- Where head `mm`'s output tile goes in the output block. -/
abbrev RO (mm : Fin 4) : Rect S1x128x4x1024 := Rect.unit (s := S1x128x4x1024) ![0, 0, mm.val, 0] S1x128x1x1024.size (inbHid mm)

/-- The scratch stores after all four heads, over the stores `L0` made before the first. -/
abbrev scr1 (L0 : List (SPiece F)) := after ε 0 L0
abbrev scr2 (L0 : List (SPiece F)) := after ε 1 (scr1 ε L0)
abbrev scr3 (L0 : List (SPiece F)) := after ε 2 (scr2 ε L0)
abbrev scr4 (L0 : List (SPiece F)) := after ε 3 (scr3 ε L0)

/-- The output stores of the four heads, last first. -/
abbrev outs (f : ε.arg11.view.ty.Contents (Elt F)) (L0 : List (SPiece F)) : List (View.Piece (Elt F) S1x128x4x1024 .f32) :=
  [⟨RO 3, Out ε f 3 (scr3 ε L0)⟩, ⟨RO 2, Out ε f 2 (scr2 ε L0)⟩, ⟨RO 1, Out ε f 1 (scr1 ε L0)⟩, ⟨RO 0, Out ε f 0 L0⟩]

/-- The store of zeros over the whole scratch, which a batch's first point makes before anything else. -/
abbrev zeroPiece : SPiece F :=
  ⟨Rect.unit (s := S4x144x1024) ![0, 0, 0] S4x144x1024.size inb_S4x144x1024_S4x144x1024_0_0_0, k0_pay3⟩

/-! ## The runs' pieces are these -/

/-- A later point of a batch: the scratch pieces, over what the point before left. -/
theorem runB_scr (c : Dev nD) (i : grid0.Coords) (hc0 : ¬cond0_0 i) (xs0 : Vec F S4x144x1024 .f32) :
    (kernelRun0_B c i ε.arg2 ε.harg2 ε.arg3 ε.harg3 ε.arg4 ε.harg4 ε.arg5 ε.harg5 ε.arg6 ε.harg6 ε.arg7 ε.harg7 ε.arg8 ε.harg8 ε.arg9 ε.harg9 ε.arg10 ε.harg10 ε.arg11 ε.harg11 hc0 ε.x0 ε.x1 ε.x2 ε.x3 ε.x4 ε.x5 ε.x6 ε.x7 xs0).2.1 = scr4 ε [] := rfl

/-- A later point of a batch: the output pieces; the first three taps read over what the point before left. -/
theorem runB_out (c : Dev nD) (i : grid0.Coords) (hc0 : ¬cond0_0 i) (xs0 : Vec F S4x144x1024 .f32) :
    (kernelRun0_B c i ε.arg2 ε.harg2 ε.arg3 ε.harg3 ε.arg4 ε.harg4 ε.arg5 ε.harg5 ε.arg6 ε.harg6 ε.arg7 ε.harg7 ε.arg8 ε.harg8 ε.arg9 ε.harg9 ε.arg10 ε.harg10 ε.arg11 ε.harg11 hc0 ε.x0 ε.x1 ε.x2 ε.x3 ε.x4 ε.x5 ε.x6 ε.x7 xs0).1 = outs ε (ε.harg11.unread xs0) [] := rfl

/-- A batch's first point: the scratch pieces, over the store of zeros. -/
theorem runA_scr (c : Dev nD) (i : grid0.Coords) (hc0 : cond0_0 i) :
    (kernelRun0_A c i ε.arg2 ε.harg2 ε.arg3 ε.harg3 ε.arg4 ε.harg4 ε.arg5 ε.harg5 ε.arg6 ε.harg6 ε.arg7 ε.harg7 ε.arg8 ε.harg8 ε.arg9 ε.harg9 ε.arg10 ε.harg10 ε.arg11 ε.harg11 hc0 ε.x0 ε.x1 ε.x2 ε.x3 ε.x4 ε.x5 ε.x6 ε.x7).2.1 = scr4 ε [zeroPiece] := rfl

/-- A batch's first point: the output pieces; every tap reads the stores made so far. -/
theorem runA_out (c : Dev nD) (i : grid0.Coords) (hc0 : cond0_0 i) :
    (kernelRun0_A c i ε.arg2 ε.harg2 ε.arg3 ε.harg3 ε.arg4 ε.harg4 ε.arg5 ε.harg5 ε.arg6 ε.harg6 ε.arg7 ε.harg7 ε.arg8 ε.harg8 ε.arg9 ε.harg9 ε.arg10 ε.harg10 ε.arg11 ε.harg11 hc0 ε.x0 ε.x1 ε.x2 ε.x3 ε.x4 ε.x5 ε.x6 ε.x7).1 = outs ε ε.arg11.view.junk [zeroPiece] := rfl

end Run

end Cert.KernelIdeal.Pieces

end
-- ==== Proof.BlockSem.lean ====
/-
  One run of the body read entry by entry on the extended reals: what it leaves in the output block and in
  the carried scratch, from the rows of its input blocks and the scratch rows the point before left.
-/
import proofs.«400853_j56710748176506_3_alg».proof.Proof.Pieces
import Idealize.ShloMosaic.PureOps.Ideal.Laws

set_option maxRecDepth 16384

noncomputable section

namespace Cert.KernelIdeal.BlockSem

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.HeadVec Cert.KernelIdeal.Pieces Idealize.ShloMosaic.ValueIdx
open scoped BigOperators

/-- A load from a whole memref holding `x` reads `x` at the rectangle's indices. -/
theorem rd_unread {F : FTy → Type} [FloatOps F] {S : Shape} {e : EltTy} (M : Memref sig .tc .vmem S e) (hM : M.IsWhole)
    (x : Vec F S e) (R : Rect S) (j : R.shape.Idx) :
    View.readAt (Elt F) M.view R.toLoadRect (hM.unread x) j = x (R.idx j) := by
  rw [View.readAt_eq_ld, hM.read_unread]

variable (ε : Env Ideal)

/-! ## The loads, entry by entry -/

theorem ldE_apply (p : Fin 128) (e : Fin 512) : (ldE ε (ix3 0 p e) : EReal) = ε.x0 (ix3 0 p e) := by
  refine (rd_unread ε.arg2 ε.harg2 ε.x0 _ _).trans (congrArg ε.x0 ?_)
  funext a
  match a with
  | ⟨0, _⟩ => exact Fin.ext (by simp [LoadRect.idx])
  | ⟨1, _⟩ => exact Fin.ext (by simp [LoadRect.idx])
  | ⟨2, _⟩ => exact Fin.ext (by simp [LoadRect.idx])

theorem ldWv_apply (e : Fin 512) (h : Fin 1024) : (ldWv ε (ix2 e h) : EReal) = ε.x2 (ix2 e h) := by
  refine (rd_unread ε.arg4 ε.harg4 ε.x2 _ _).trans (congrArg ε.x2 ?_)
  funext a
  match a with
  | ⟨0, _⟩ => exact Fin.ext (by simp [LoadRect.idx])
  | ⟨1, _⟩ => exact Fin.ext (by simp [LoadRect.idx])

theorem ldWk_apply (mm : Fin 4) (e : Fin 512) (h : Fin 1024) : (ldWk ε mm (ix3 0 e h) : EReal) = ε.x3 (ix3 mm e h) := by
  refine (rd_unread ε.arg5 ε.harg5 ε.x3 _ _).trans (congrArg ε.x3 ?_)
  funext a
  match a with
  | ⟨0, _⟩ => exact Fin.ext (by simp [LoadRect.idx])
  | ⟨1, _⟩ => exact Fin.ext (by simp [LoadRect.idx])
  | ⟨2, _⟩ => exact Fin.ext (by simp [LoadRect.idx])

theorem ldNk_apply (mm : Fin 4) (h : Fin 1024) : (ldNk ε mm (ix2 0 h) : EReal) = ε.x5 (ix2 mm h) := by
  refine (rd_unread ε.arg7 ε.harg7 ε.x5 _ _).trans (congrArg ε.x5 ?_)
  funext a
  match a with
  | ⟨0, _⟩ => exact Fin.ext (by simp [LoadRect.idx])
  | ⟨1, _⟩ => exact Fin.ext (by simp [LoadRect.idx])

theorem ldNh_apply (mm : Fin 4) (h : Fin 1024) : (ldNh ε mm (ix2 0 h) : EReal) = ε.x4 (ix2 mm h) := by
  refine (rd_unread ε.arg6 ε.harg6 ε.x4 _ _).trans (congrArg ε.x4 ?_)
  funext a
  match a with
  | ⟨0, _⟩ => exact Fin.ext (by simp [LoadRect.idx])
  | ⟨1, _⟩ => exact Fin.ext (by simp [LoadRect.idx])

theorem ldSc_apply (mm : Fin 4) (h : Fin 1024) : (ldSc ε mm (ix2 0 h) : EReal) = ε.x6 (ix2 mm h) := by
  refine (rd_unread ε.arg8 ε.harg8 ε.x6 _ _).trans (congrArg ε.x6 ?_)
  funext a
  match a with
  | ⟨0, _⟩ => exact Fin.ext (by simp [LoadRect.idx])
  | ⟨1, _⟩ => exact Fin.ext (by simp [LoadRect.idx])

theorem ldHid_apply (mm : Fin 4) (p : Fin 128) (h : Fin 1024) : (ldHid ε mm (ix4 0 p 0 h) : EReal) = ε.x1 (ix4 0 p mm h) := by
  refine (rd_unread ε.arg3 ε.harg3 ε.x1 _ _).trans (congrArg ε.x1 ?_)
  funext a
  match a with
  | ⟨0, _⟩ => exact Fin.ext (by simp [LoadRect.idx])
  | ⟨1, _⟩ => exact Fin.ext (by simp [LoadRect.idx])
  | ⟨2, _⟩ => exact Fin.ext (by simp [LoadRect.idx])
  | ⟨3, _⟩ => exact Fin.ext (by simp [LoadRect.idx])

theorem ldCw_apply (mm j : Fin 4) (h : Fin 1024) : (ldCw ε mm j (ix3 0 0 h) : EReal) = ε.x7 (ix3 mm j h) := by
  refine (rd_unread ε.arg9 ε.harg9 ε.x7 _ _).trans (congrArg ε.x7 ?_)
  funext a
  match a with
  | ⟨0, _⟩ => exact Fin.ext (by simp [LoadRect.idx])
  | ⟨1, _⟩ => exact Fin.ext (by simp [LoadRect.idx])
  | ⟨2, _⟩ => exact Fin.ext (by simp [LoadRect.idx])

/-! ## The rows of a block -/

/-- The key row of tile row `p` for head `mm`. -/
def kx (mm : Fin 4) (p : Fin 128) (h : Fin 1024) : EReal :=
  ∑ e : Fin 512, (ε.x0 (ix3 0 p e) : EReal) * (ε.x3 (ix3 mm e h) : EReal)
/-- The value row of tile row `p`. -/
def vx (p : Fin 128) (h : Fin 1024) : EReal :=
  ∑ e : Fin 512, (ε.x0 (ix3 0 p e) : EReal) * (ε.x2 (ix2 e h) : EReal)
/-- The gated value of head `mm` at tile row `p`. -/
def GT (mm : Fin 4) (p : Fin 128) (q : Fin 1024) : EReal :=
  Cert.Spec.rowGated (kx ε mm p) (fun h => (ε.x1 (ix4 0 p mm h) : EReal)) (fun h => (ε.x5 (ix2 mm h) : EReal))
    (fun h => (ε.x4 (ix2 mm h) : EReal)) (vx ε p) q
/-- Its normalised form, what the scratch keeps. -/
def XN (mm : Fin 4) (p : Fin 128) (q : Fin 1024) : EReal :=
  Cert.Spec.rowXn (kx ε mm p) (fun h => (ε.x1 (ix4 0 p mm h) : EReal)) (fun h => (ε.x5 (ix2 mm h) : EReal))
    (fun h => (ε.x4 (ix2 mm h) : EReal)) (vx ε p) (fun h => (ε.x6 (ix2 mm h) : EReal)) q
/-- The same at a row number, zero past the tile. -/
def XNn (mm : Fin 4) (n : ℕ) (q : Fin 1024) : EReal := if h : n < 128 then XN ε mm ⟨n, h⟩ q else 0

theorem kRow_eq (mm : Fin 4) (p : Fin 128) : kRow (ldE ε) (ldWk ε mm) p = kx ε mm p := by
  funext h
  unfold kRow kx
  exact Finset.sum_congr rfl fun e _ => by rw [ldE_apply, ldWk_apply]

theorem vRow_eq (p : Fin 128) : vRow (ldE ε) (ldWv ε) p = vx ε p := by
  funext h
  unfold vRow vx
  exact Finset.sum_congr rfl fun e _ => by rw [ldE_apply, ldWv_apply]

theorem X_apply (mm : Fin 4) (p : Fin 128) (q : Fin 1024) : (X ε mm (ix3 0 p q) : EReal) = XN ε mm p q := by
  refine (xnV_apply _ _ _ _ _ _ _ p q).trans ?_
  unfold XN
  rw [kRow_eq, vRow_eq]
  simp only [ldHid_apply, ldNk_apply, ldNh_apply, ldSc_apply]

/-! ## Reading the scratch stores, newest first -/

/-- Row `n` of head `mm` after its tile's store: the tile from row 16 on, below it what `g` holds. -/
def tapVal (g : S4x144x1024.Idx → EReal) (mm : Fin 4) (n : ℕ) (q : Fin 1024) : EReal :=
  if 16 ≤ n then XNn ε mm (n - 16) q else if h : n < 144 then g (ix3 mm ⟨n, h⟩ q) else 0

/-- Row `r` of head `mm` after the head is done: rows 7 … 15 hold the tile's last nine rows. -/
def newScr (g : S4x144x1024.Idx → EReal) (mm : Fin 4) (r : Fin 144) (q : Fin 1024) : EReal :=
  if 7 ≤ r.val ∧ r.val < 16 then XNn ε mm (r.val + 112) q else tapVal ε g mm r.val q

theorem tapVal_congr (g g' : S4x144x1024.Idx → EReal) (mm : Fin 4) (n : ℕ) (q : Fin 1024)
    (h : ∀ r : Fin 144, g (ix3 mm r q) = g' (ix3 mm r q)) : tapVal ε g mm n q = tapVal ε g' mm n q := by
  unfold tapVal
  by_cases h16 : 16 ≤ n
  · rw [if_pos h16, if_pos h16]
  · rw [if_neg h16, if_neg h16]
    by_cases hn : n < 144
    · rw [dif_pos hn, dif_pos hn]; exact h _
    · rw [dif_neg hn, dif_neg hn]

theorem newScr_congr (g g' : S4x144x1024.Idx → EReal) (mm : Fin 4) (r : Fin 144) (q : Fin 1024)
    (h : ∀ r : Fin 144, g (ix3 mm r q) = g' (ix3 mm r q)) : newScr ε g mm r q = newScr ε g' mm r q := by
  unfold newScr
  rw [tapVal_congr ε g g' mm r.val q h]

section Scratch
variable (v' : View sig .tc .vmem S4x144x1024 .f32) (f : v'.ty.Contents (Elt Ideal))

/-- What the scratch holds, as a function of the index, after the stores `L` over `f`. -/
abbrev rd (L : List (SPiece Ideal)) : S4x144x1024.Idx → EReal :=
  fun y => v'.read (Elt Ideal) (v'.writes (Elt Ideal) f L) y

/-- Head `mm`'s rows after its tile's store. -/
theorem read_withX (mm : Fin 4) (L : List (SPiece Ideal)) (r : Fin 144) (q : Fin 1024) :
    rd v' f (withX ε mm L) (ix3 mm r q) = tapVal ε (rd v' f L) mm r.val q := by
  unfold tapVal
  by_cases h16 : 16 ≤ r.val
  · rw [if_pos h16]
    have hlt : r.val - 16 < 128 := by have := r.isLt; omega
    unfold XNn
    rw [dif_pos hlt]
    refine (View.read_writes_cons_unit_of_mem v' f (inbTile mm 16 le_rfl) (X ε mm) L (ix3 mm r q)
      (ix3 0 ⟨r.val - 16, hlt⟩ q) rfl (fun a => match a with
        | ⟨0, _⟩ => by show mm.val = mm.val + 0; omega
        | ⟨1, _⟩ => by show r.val = 16 + (r.val - 16); omega
        | ⟨2, _⟩ => by show q.val = 0 + q.val; omega)).trans (X_apply ε mm _ q)
  · rw [if_neg h16, dif_pos r.isLt]
    exact View.read_writes_cons_unit_of_not_mem v' f (inbTile mm 16 le_rfl) (X ε mm) L (ix3 mm r q) rfl
      (1 : Fin 3) (Or.inl (by show r.val < 16; omega))

end Scratch

section Scratch2
variable (v' : View sig .tc .vmem S4x144x1024 .f32) (f : v'.ty.Contents (Elt Ideal))

/-- The stores of head `k` leave the rows of another head as they were. -/
theorem read_after_other (k mm : Fin 4) (hk : mm.val ≠ k.val) (L : List (SPiece Ideal)) (r : Fin 144) (q : Fin 1024) :
    rd v' f (after ε k L) (ix3 mm r q) = rd v' f L (ix3 mm r q) := by
  have h0 : mm.val < k.val ∨ k.val + 1 ≤ mm.val := by omega
  refine (View.read_writes_cons_unit_of_not_mem v' f (inbNine k 7 (by omega)) (Cy ε k L) (withX ε k L) (ix3 mm r q) rfl
    (0 : Fin 3) (by show mm.val < k.val ∨ k.val + 1 ≤ mm.val; exact h0)).trans ?_
  exact View.read_writes_cons_unit_of_not_mem v' f (inbTile k 16 le_rfl) (X ε k) L (ix3 mm r q) rfl
    (0 : Fin 3) (by show mm.val < k.val ∨ k.val + 1 ≤ mm.val; exact h0)

/-- The nine rows head `mm` carries are rows 119 … 127 of its tile. -/
theorem Cy_apply (mm : Fin 4) (L : List (SPiece Ideal)) (r : Fin 9) (q : Fin 1024) :
    (Cy ε mm L (ix3 0 r q) : EReal) = XN ε mm ⟨r.val + 119, by have := r.isLt; omega⟩ q := by
  refine (carryV_apply _ r q).trans ?_
  have hlt : (r.val + 135 : ℕ) < 144 := by have := r.isLt; omega
  have hidx : (Rect.unit (s := S4x144x1024) ![mm.val, 135, 0] S1x9x1024.size (inbNine mm 135 le_rfl)).idx (ix3 0 r q)
      = ix3 mm ⟨r.val + 135, hlt⟩ q := by
    funext a
    match a with
    | ⟨0, _⟩ => exact Fin.ext (by simp [LoadRect.idx])
    | ⟨1, _⟩ => exact Fin.ext (by show 135 + 1 * r.val = r.val + 135; omega)
    | ⟨2, _⟩ => exact Fin.ext (by simp [LoadRect.idx])
  show ε.arg11.view.read (Elt Ideal) (ε.arg11.view.writes (Elt Ideal) ε.arg11.view.junk (withX ε mm L))
    ((Rect.unit (s := S4x144x1024) ![mm.val, 135, 0] S1x9x1024.size (inbNine mm 135 le_rfl)).idx (ix3 0 r q)) = _
  rw [hidx]
  refine (read_withX ε ε.arg11.view ε.arg11.view.junk mm L ⟨r.val + 135, hlt⟩ q).trans ?_
  unfold tapVal XNn
  have h16 : 16 ≤ r.val + 135 := by omega
  have h128 : r.val + 135 - 16 < 128 := by have := r.isLt; omega
  rw [if_pos h16, dif_pos h128]
  exact congrArg (fun n => XN ε mm n q) (Fin.ext (by show r.val + 135 - 16 = r.val + 119; omega))

/-- Head `mm`'s rows once the head is done. -/
theorem read_after_same (mm : Fin 4) (L : List (SPiece Ideal)) (r : Fin 144) (q : Fin 1024) :
    rd v' f (after ε mm L) (ix3 mm r q) = newScr ε (rd v' f L) mm r q := by
  unfold newScr
  by_cases h : 7 ≤ r.val ∧ r.val < 16
  · rw [if_pos h]
    have hlt : r.val - 7 < 9 := by omega
    have h128 : r.val + 112 < 128 := by omega
    unfold XNn
    rw [dif_pos h128]
    refine (View.read_writes_cons_unit_of_mem v' f (inbNine mm 7 (by omega)) (Cy ε mm L) (withX ε mm L) (ix3 mm r q)
      (ix3 0 ⟨r.val - 7, hlt⟩ q) rfl (fun a => match a with
        | ⟨0, _⟩ => by show mm.val = mm.val + 0; omega
        | ⟨1, _⟩ => by show r.val = 7 + (r.val - 7); omega
        | ⟨2, _⟩ => by show q.val = 0 + q.val; omega)).trans ?_
    refine (Cy_apply ε mm L ⟨r.val - 7, hlt⟩ q).trans ?_
    exact congrArg (fun n => XN ε mm n q) (Fin.ext (by show r.val - 7 + 119 = r.val + 112; omega))
  · rw [if_neg h]
    refine (View.read_writes_cons_unit_of_not_mem v' f (inbNine mm 7 (by omega)) (Cy ε mm L) (withX ε mm L) (ix3 mm r q) rfl
      (1 : Fin 3) (by show r.val < 7 ∨ 7 + 9 ≤ r.val; omega)).trans ?_
    exact read_withX ε v' f mm L r q

/-- After all four heads: each head's rows as that head left them, over what the stores `L0` before the first left. -/
theorem read_scr4 (L0 : List (SPiece Ideal)) (mm : Fin 4) (r : Fin 144) (q : Fin 1024) :
    rd v' f (scr4 ε L0) (ix3 mm r q) = newScr ε (rd v' f L0) mm r q := by
  fin_cases mm
  · refine (read_after_other ε v' f 3 0 (by decide) _ r q).trans ?_
    refine (read_after_other ε v' f 2 0 (by decide) _ r q).trans ?_
    refine (read_after_other ε v' f 1 0 (by decide) _ r q).trans ?_
    exact read_after_same ε v' f 0 L0 r q
  · refine (read_after_other ε v' f 3 1 (by decide) _ r q).trans ?_
    refine (read_after_other ε v' f 2 1 (by decide) _ r q).trans ?_
    refine (read_after_same ε v' f 1 _ r q).trans ?_
    exact newScr_congr ε _ _ 1 r q fun r' => read_after_other ε v' f 0 1 (by decide) L0 r' q
  · refine (read_after_other ε v' f 3 2 (by decide) _ r q).trans ?_
    refine (read_after_same ε v' f 2 _ r q).trans ?_
    exact newScr_congr ε _ _ 2 r q fun r' =>
      (read_after_other ε v' f 1 2 (by decide) _ r' q).trans (read_after_other ε v' f 0 2 (by decide) L0 r' q)
  · refine (read_after_same ε v' f 3 _ r q).trans ?_
    exact newScr_congr ε _ _ 3 r q fun r' =>
      (read_after_other ε v' f 2 3 (by decide) _ r' q).trans
        ((read_after_other ε v' f 1 3 (by decide) _ r' q).trans (read_after_other ε v' f 0 3 (by decide) L0 r' q))

end Scratch2

/-! ## The taps and the output tile of one head -/

section Outs
variable (f : ε.arg11.view.ty.Contents (Elt Ideal))

/-- The stores made before head `k`: the heads before it, over `L0`. -/
abbrev scrK (k : Fin 4) (L0 : List (SPiece Ideal)) : List (SPiece Ideal) :=
  match k with
  | 0 => L0
  | 1 => scr1 ε L0
  | 2 => scr2 ε L0
  | 3 => scr3 ε L0

/-- The heads before `mm` leave head `mm`'s rows as `L0` left them. -/
theorem rd_scrK (L0 : List (SPiece Ideal)) (mm : Fin 4) (r : Fin 144) (q : Fin 1024) :
    rd ε.arg11.view f (scrK ε mm L0) (ix3 mm r q) = rd ε.arg11.view f L0 (ix3 mm r q) := by
  fin_cases mm
  · rfl
  · exact read_after_other ε ε.arg11.view f 0 1 (by decide) L0 r q
  · exact (read_after_other ε ε.arg11.view f 1 2 (by decide) _ r q).trans (read_after_other ε ε.arg11.view f 0 2 (by decide) L0 r q)
  · exact (read_after_other ε ε.arg11.view f 2 3 (by decide) _ r q).trans
      ((read_after_other ε ε.arg11.view f 1 3 (by decide) _ r q).trans (read_after_other ε ε.arg11.view f 0 3 (by decide) L0 r q))

/-- A tap is 128 of head `mm`'s rows after its tile's store, from row `o`. -/
theorem tap_apply (mm : Fin 4) (o : ℕ) (ho : o ≤ 16) (L : List (SPiece Ideal)) (p : Fin 128) (q : Fin 1024) :
    (tap ε f mm o ho L (ix3 0 p q) : EReal) = tapVal ε (rd ε.arg11.view f L) mm (o + p.val) q := by
  have hlt : o + p.val < 144 := by have := p.isLt; omega
  have hidx : (Rect.unit (s := S4x144x1024) ![mm.val, o, 0] S1x128x1024.size (inbTile mm o ho)).idx (ix3 0 p q)
      = ix3 mm ⟨o + p.val, hlt⟩ q := by
    funext a
    match a with
    | ⟨0, _⟩ => exact Fin.ext (by show mm.val + 1 * 0 = mm.val; omega)
    | ⟨1, _⟩ => exact Fin.ext (by show o + 1 * p.val = o + p.val; omega)
    | ⟨2, _⟩ => exact Fin.ext (by show 0 + 1 * q.val = q.val; omega)
  show ε.arg11.view.read (Elt Ideal) (ε.arg11.view.writes (Elt Ideal) f (withX ε mm L))
    ((Rect.unit (s := S4x144x1024) ![mm.val, o, 0] S1x128x1024.size (inbTile mm o ho)).idx (ix3 0 p q)) = _
  rw [hidx]
  exact read_withX ε ε.arg11.view f mm L ⟨o + p.val, hlt⟩ q

/-- From row 16 on a tap reads the tile just stored, whatever lay below. -/
theorem tapVal_top (g g' : S4x144x1024.Idx → EReal) (mm : Fin 4) (n : ℕ) (q : Fin 1024) (h : 16 ≤ n) :
    tapVal ε g mm n q = tapVal ε g' mm n q := by
  unfold tapVal
  rw [if_pos h, if_pos h]

/-- Head `mm`'s output tile, entry by entry. -/
theorem Out_apply (mm : Fin 4) (L : List (SPiece Ideal)) (p : Fin 128) (q : Fin 1024) :
    (Out ε f mm L (ix4 0 p 0 q) : EReal)
      = Cert.Spec.rowOut
          (Cert.Spec.conv4 (ε.x7 (ix3 mm 0 q)) (tapVal ε (rd ε.arg11.view f L) mm (7 + p.val) q)
            (ε.x7 (ix3 mm 1 q)) (tapVal ε (rd ε.arg11.view f L) mm (10 + p.val) q)
            (ε.x7 (ix3 mm 2 q)) (tapVal ε (rd ε.arg11.view f L) mm (13 + p.val) q)
            (ε.x7 (ix3 mm 3 q)) (tapVal ε (rd ε.arg11.view f L) mm (16 + p.val) q))
          (GT ε mm p q) (ε.x1 (ix4 0 p mm q)) := by
  refine (outV_apply _ _ _ _ _ _ _ _ _ _ _ _ _ _ p q).trans ?_
  rw [kRow_eq, vRow_eq, tap_apply, tap_apply, tap_apply, tap_apply,
    tapVal_top ε (rd ε.arg11.view ε.arg11.view.junk L) (rd ε.arg11.view f L) mm (16 + p.val) q (by omega)]
  simp only [ldHid_apply, ldNk_apply, ldNh_apply, ldCw_apply]
  rfl

end Outs

/-! ## The runs, entry by entry -/

/-- Entry `(p, mm, q)` of the output block: SiLU of the four taps' sum, plus the gated value, plus the residual;
    the taps read head `mm`'s rows `7 + p`, `10 + p`, `13 + p`, `16 + p` after its tile's store over `g`. -/
def outVal (g : S4x144x1024.Idx → EReal) (mm : Fin 4) (p : Fin 128) (q : Fin 1024) : EReal :=
  Cert.Spec.rowOut
    (Cert.Spec.conv4 (ε.x7 (ix3 mm 0 q)) (tapVal ε g mm (7 + p.val) q)
      (ε.x7 (ix3 mm 1 q)) (tapVal ε g mm (10 + p.val) q)
      (ε.x7 (ix3 mm 2 q)) (tapVal ε g mm (13 + p.val) q)
      (ε.x7 (ix3 mm 3 q)) (tapVal ε g mm (16 + p.val) q))
    (GT ε mm p q) (ε.x1 (ix4 0 p mm q))

theorem outVal_congr (g g' : S4x144x1024.Idx → EReal) (mm : Fin 4) (p : Fin 128) (q : Fin 1024)
    (h : ∀ r : Fin 144, g (ix3 mm r q) = g' (ix3 mm r q)) : outVal ε g mm p q = outVal ε g' mm p q := by
  unfold outVal
  rw [tapVal_congr ε g g' mm _ q h, tapVal_congr ε g g' mm _ q h, tapVal_congr ε g g' mm _ q h,
    tapVal_congr ε g g' mm _ q h]

section Final
variable (vo : View sig .tc .vmem S1x128x4x1024 .f32) (fo : vo.ty.Contents (Elt Ideal))

/-- Another head's output tile leaves head `mm`'s entries alone. -/
theorem out_skip (k mm : Fin 4) (hk : mm.val ≠ k.val) (w : (RO k).shape.Idx → EReal)
    (L : List (View.Piece (Elt Ideal) S1x128x4x1024 .f32)) (p : Fin 128) (q : Fin 1024) :
    vo.read (Elt Ideal) (vo.writes (Elt Ideal) fo (⟨RO k, w⟩ :: L)) (ix4 0 p mm q)
      = vo.read (Elt Ideal) (vo.writes (Elt Ideal) fo L) (ix4 0 p mm q) :=
  View.read_writes_cons_unit_of_not_mem vo fo (inbHid k) w L (ix4 0 p mm q) rfl (2 : Fin 4)
    (by show mm.val < k.val ∨ k.val + 1 ≤ mm.val; omega)

/-- Head `mm`'s output tile, stored last, is what its entries read. -/
theorem out_hit (mm : Fin 4) (w : (RO mm).shape.Idx → EReal)
    (L : List (View.Piece (Elt Ideal) S1x128x4x1024 .f32)) (p : Fin 128) (q : Fin 1024) :
    vo.read (Elt Ideal) (vo.writes (Elt Ideal) fo (⟨RO mm, w⟩ :: L)) (ix4 0 p mm q) = w (ix4 0 p 0 q) :=
  View.read_writes_cons_unit_of_mem vo fo (inbHid mm) w L (ix4 0 p mm q) (ix4 0 p 0 q) rfl (fun a => match a with
    | ⟨0, _⟩ => by show (0 : ℕ) = 0 + 0; omega
    | ⟨1, _⟩ => by show p.val = 0 + p.val; omega
    | ⟨2, _⟩ => by show mm.val = mm.val + 0; omega
    | ⟨3, _⟩ => by show q.val = 0 + q.val; omega)

/-- The output block after the four heads' stores. -/
theorem outs_read (f : ε.arg11.view.ty.Contents (Elt Ideal)) (L0 : List (SPiece Ideal)) (mm : Fin 4) (p : Fin 128) (q : Fin 1024) :
    vo.read (Elt Ideal) (vo.writes (Elt Ideal) fo (outs ε f L0)) (ix4 0 p mm q)
      = outVal ε (rd ε.arg11.view f L0) mm p q := by
  have key : ∀ mm' : Fin 4, (Out ε f mm' (scrK ε mm' L0) (ix4 0 p 0 q) : EReal) = outVal ε (rd ε.arg11.view f L0) mm' p q := fun mm' =>
    (Out_apply ε f mm' _ p q).trans (outVal_congr ε _ _ mm' p q fun r => rd_scrK ε f L0 mm' r q)
  fin_cases mm
  · refine (out_skip vo fo 3 0 (by decide) _ _ p q).trans ?_
    refine (out_skip vo fo 2 0 (by decide) _ _ p q).trans ?_
    refine (out_skip vo fo 1 0 (by decide) _ _ p q).trans ?_
    exact (out_hit vo fo 0 _ _ p q).trans (key 0)
  · refine (out_skip vo fo 3 1 (by decide) _ _ p q).trans ?_
    refine (out_skip vo fo 2 1 (by decide) _ _ p q).trans ?_
    exact (out_hit vo fo 1 _ _ p q).trans (key 1)
  · refine (out_skip vo fo 3 2 (by decide) _ _ p q).trans ?_
    exact (out_hit vo fo 2 _ _ p q).trans (key 2)
  · exact (out_hit vo fo 3 _ _ p q).trans (key 3)

end Final

/-- Before the first head of a later point the scratch holds what the point before left. -/
theorem rd_nil (xs0 : Vec Ideal S4x144x1024 .f32) (y : S4x144x1024.Idx) :
    rd ε.arg11.view (ε.harg11.unread xs0) [] y = xs0 y :=
  congrFun (ε.harg11.read_unread xs0) y

/-- Before the first head of a batch's first point the scratch holds zeros. -/
theorem rd_zero (v' : View sig .tc .vmem S4x144x1024 .f32) (f : v'.ty.Contents (Elt Ideal)) (y : S4x144x1024.Idx) :
    rd v' f [zeroPiece] y = 0 := by
  refine (View.read_writes_cons_unit_of_mem v' f inb_S4x144x1024_S4x144x1024_0_0_0 _ [] y y rfl (fun a => match a with
    | ⟨0, _⟩ => by show (y ⟨0, _⟩).val = 0 + (y ⟨0, _⟩).val; omega
    | ⟨1, _⟩ => by show (y ⟨1, _⟩).val = 0 + (y ⟨1, _⟩).val; omega
    | ⟨2, _⟩ => by show (y ⟨2, _⟩).val = 0 + (y ⟨2, _⟩).val; omega)).trans ?_
  unfold k0_pay3
  rw [shapeCast_self]
  exact Ideal.ofBits_zero_f32

/-- A later point of a batch: the output block from what the point before left in the scratch. -/
theorem outB_apply (c : Dev nD) (i : grid0.Coords) (hc0 : ¬cond0_0 i) (xs0 : Vec Ideal S4x144x1024 .f32)
    (mm : Fin 4) (p : Fin 128) (q : Fin 1024) :
    (out0_B_8 c i ε.arg2 ε.harg2 ε.arg3 ε.harg3 ε.arg4 ε.harg4 ε.arg5 ε.harg5 ε.arg6 ε.harg6 ε.arg7 ε.harg7 ε.arg8 ε.harg8 ε.arg9 ε.harg9 ε.arg10 ε.harg10 ε.arg11 ε.harg11 hc0 ε.x0 ε.x1 ε.x2 ε.x3 ε.x4 ε.x5 ε.x6 ε.x7 xs0 (ix4 0 p mm q) : EReal) = outVal ε xs0 mm p q := by
  unfold out0_B_8
  rw [runB_out]
  exact (outs_read ε VO0_8 VO0_8.junk _ [] mm p q).trans (outVal_congr ε _ _ mm p q fun r => rd_nil ε xs0 _)

/-- … and the scratch it leaves. -/
theorem scrB_apply (c : Dev nD) (i : grid0.Coords) (hc0 : ¬cond0_0 i) (xs0 : Vec Ideal S4x144x1024 .f32)
    (mm : Fin 4) (r : Fin 144) (q : Fin 1024) :
    (sout0_B_0 c i ε.arg2 ε.harg2 ε.arg3 ε.harg3 ε.arg4 ε.harg4 ε.arg5 ε.harg5 ε.arg6 ε.harg6 ε.arg7 ε.harg7 ε.arg8 ε.harg8 ε.arg9 ε.harg9 ε.arg10 ε.harg10 ε.arg11 ε.harg11 hc0 ε.x0 ε.x1 ε.x2 ε.x3 ε.x4 ε.x5 ε.x6 ε.x7 xs0 (ix3 mm r q) : EReal) = newScr ε xs0 mm r q := by
  unfold sout0_B_0
  rw [runB_scr]
  exact (read_scr4 ε ε.arg11.view (ε.harg11.unread xs0) [] mm r q).trans (newScr_congr ε _ _ mm r q fun r' => rd_nil ε xs0 _)

/-- A batch's first point: the output block, the scratch read as zeros. -/
theorem outA_apply (c : Dev nD) (i : grid0.Coords) (hc0 : cond0_0 i) (mm : Fin 4) (p : Fin 128) (q : Fin 1024) :
    (out0_A_8 c i ε.arg2 ε.harg2 ε.arg3 ε.harg3 ε.arg4 ε.harg4 ε.arg5 ε.harg5 ε.arg6 ε.harg6 ε.arg7 ε.harg7 ε.arg8 ε.harg8 ε.arg9 ε.harg9 ε.arg10 ε.harg10 ε.arg11 ε.harg11 hc0 ε.x0 ε.x1 ε.x2 ε.x3 ε.x4 ε.x5 ε.x6 ε.x7 (ix4 0 p mm q) : EReal) = outVal ε (fun _ => 0) mm p q := by
  unfold out0_A_8
  rw [runA_out]
  exact (outs_read ε VO0_8 VO0_8.junk _ [zeroPiece] mm p q).trans (outVal_congr ε _ _ mm p q fun r => rd_zero _ _ _)

/-- … and the scratch it leaves. -/
theorem scrA_apply (c : Dev nD) (i : grid0.Coords) (hc0 : cond0_0 i) (mm : Fin 4) (r : Fin 144) (q : Fin 1024) :
    (sout0_A_0 c i ε.arg2 ε.harg2 ε.arg3 ε.harg3 ε.arg4 ε.harg4 ε.arg5 ε.harg5 ε.arg6 ε.harg6 ε.arg7 ε.harg7 ε.arg8 ε.harg8 ε.arg9 ε.harg9 ε.arg10 ε.harg10 ε.arg11 ε.harg11 hc0 ε.x0 ε.x1 ε.x2 ε.x3 ε.x4 ε.x5 ε.x6 ε.x7 (ix3 mm r q) : EReal) = newScr ε (fun _ => 0) mm r q := by
  unfold sout0_A_0
  rw [runA_scr]
  exact (read_scr4 ε VS0_0 VS0_0.junk [zeroPiece] mm r q).trans (newScr_congr ε _ _ mm r q fun r' => rd_zero _ _ _)

end Cert.KernelIdeal.BlockSem

end
-- ==== Proof.Arrays.lean ====
/-
  The arrays the region finds and the blocks its windows cut from them, entry by entry: the embedding rows,
  the hidden states, and the weights as the host lines before the call re-lay them (the transposes).
-/
import proofs.«400853_j56710748176506_3_alg».proof.Proof.Gen.KernelIdeal.Frame
import proofs.«400853_j56710748176506_3_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- The batch a grid point works on. -/
def bOf (t : Fin cfg0.N) : Fin 4 := ⟨t.val / 16, by have := t.isLt; have h : cfg0.N = 64 := N_0; omega⟩
/-- Row `p` of grid point `t`'s sequence tile, as a row of the sequence. -/
def rowOf (t : Fin cfg0.N) (p : Fin 128) : Fin 2048 := ⟨128 * (t.val % 16) + p.val, by have := p.isLt; omega⟩

/-- The argument arrays, at their literal types. -/
abbrev aHid : S4x2048x4x1024.Idx → EReal := m ((c : Thread nD τ).loc main_arg1)
abbrev aWv : S1024x512.Idx → EReal := m ((c : Thread nD τ).loc main_arg4)
abbrev aWk : S4x1024x512.Idx → EReal := m ((c : Thread nD τ).loc main_arg5)
abbrev aNh : S4x1024.Idx → EReal := m ((c : Thread nD τ).loc main_arg6)
abbrev aNk : S4x1024.Idx → EReal := m ((c : Thread nD τ).loc main_arg7)
abbrev aSc : S4x1024.Idx → EReal := m ((c : Thread nD τ).loc main_arg8)
abbrev aCw : S4x1024x4.Idx → EReal := m ((c : Thread nD τ).loc main_arg9)
/-- The embedding rows the host lines before the call compute (the gather, reshaped; its conversion to bf16 is the
    identity on the extended reals). -/
abbrev aEmb : S4x2048x512.Idx → EReal := V m c main_v11

/-- The blocks of grid point `t`, at their literal types. -/
abbrev bEmb (t : Fin cfg0.N) : Vec Ideal S1x128x512 .bf16 := iblk m c 0 t
abbrev bHid (t : Fin cfg0.N) : Vec Ideal S1x128x4x1024 .f32 := iblk m c 1 t
abbrev bWv (t : Fin cfg0.N) : Vec Ideal S512x1024 .bf16 := iblk m c 2 t
abbrev bWk (t : Fin cfg0.N) : Vec Ideal S4x512x1024 .bf16 := iblk m c 3 t
abbrev bNh (t : Fin cfg0.N) : Vec Ideal S4x1024 .f32 := iblk m c 4 t
abbrev bNk (t : Fin cfg0.N) : Vec Ideal S4x1024 .f32 := iblk m c 5 t
abbrev bSc (t : Fin cfg0.N) : Vec Ideal S4x1024 .f32 := iblk m c 6 t
abbrev bCw (t : Fin cfg0.N) : Vec Ideal S4x4x1024 .f32 := iblk m c 7 t

/-! ## The index maps over the grid, and the arrays the host lines write -/

/-- The index maps of the three tiled windows (embedding rows, hidden states, output), decided once over the grid:
    block `(t / 16, t % 16)` on the batch and sequence axes, block 0 on the others. -/
private theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 4) = t.val / 16 ∧ win0_1.index t (1 : Fin 4) = t.val % 16 ∧ win0_1.index t (2 : Fin 4) = 0
      ∧ win0_1.index t (3 : Fin 4) = 0
    ∧ win0_8.index t (0 : Fin 4) = t.val / 16 ∧ win0_8.index t (1 : Fin 4) = t.val % 16 ∧ win0_8.index t (2 : Fin 4) = 0
      ∧ win0_8.index t (3 : Fin 4) = 0 :=
  (by decide +kernel : ∀ t : Fin grid0.N, _)

/-- The six windows that take their whole array sit at block 0 on every axis, at every point. -/
private theorem idx_whole : ∀ t : Fin cfg0.N,
    win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = 0 ∧ win0_7.index t (1 : Fin 3) = 0 ∧ win0_7.index t (2 : Fin 3) = 0 :=
  (by decide +kernel : ∀ t : Fin grid0.N, _)

/-- The value weights as the region finds them: transposed, then converted. -/
private theorem v13_eq : @Eq (S512x1024.Idx → EReal) (V m c main_v13)
    (truncf (F := Ideal) .bf16 (transpose S512x1024 [1, 0] (aWv m c) transposes_S1024x512_S512x1024_1_0) bitsLt_bf16_f32) := by
  dsimp only [Gen.V, Gen.hostOps0]
  after_results

/-- The key weights as the region finds them: last two axes transposed, then converted. -/
private theorem v15_eq : @Eq (S4x512x1024.Idx → EReal) (V m c main_v15)
    (truncf (F := Ideal) .bf16 (transpose S4x512x1024 [0, 2, 1] (aWk m c) transposes_S4x1024x512_S4x512x1024_0_2_1) bitsLt_bf16_f32) := by
  dsimp only [Gen.V, Gen.hostOps0]
  after_results

/-- The convolution weights as the region finds them: last two axes transposed. -/
private theorem v16_eq : @Eq (S4x4x1024.Idx → EReal) (V m c main_v16)
    (transpose S4x4x1024 [0, 2, 1] (aCw m c) transposes_S4x1024x4_S4x4x1024_0_2_1) := by
  dsimp only [Gen.V, Gen.hostOps0]
  after_results

/-! ## The blocks, entry by entry -/

theorem bEmb_apply (t : Fin cfg0.N) (p : Fin 128) (e : Fin 512) :
    (bEmb m c t (ix3 0 p e) : EReal) = aEmb m c (ix3 (bOf t) (rowOf t p) e) := by
  obtain ⟨e0, e1, e2, -⟩ := idx_facts t
  show V m c main_v11 (((cfg0.win 0).blk t).view.emb (ix3 0 p e)) = V m c main_v11 (ix3 (bOf t) (rowOf t p) e)
  refine congrArg _ (funext fun a => Fin.ext ?_)
  match a with
  | ⟨0, _⟩ => show win0_0.index t (0 : Fin 3) * 1 + 1 * 0 = t.val / 16; omega
  | ⟨1, _⟩ => show win0_0.index t (1 : Fin 3) * 128 + 1 * p.val = 128 * (t.val % 16) + p.val; omega
  | ⟨2, _⟩ => show win0_0.index t (2 : Fin 3) * 512 + 1 * e.val = e.val; omega

theorem bHid_apply (t : Fin cfg0.N) (p : Fin 128) (mm : Fin 4) (h : Fin 1024) :
    (bHid m c t (ix4 0 p mm h) : EReal) = aHid m c (ix4 (bOf t) (rowOf t p) mm h) := by
  obtain ⟨-, -, -, e0, e1, e2, e3, -⟩ := idx_facts t
  show V m c main_arg1 (((cfg0.win 1).blk t).view.emb (ix4 0 p mm h)) = m ((c : Thread nD τ).loc main_arg1) (ix4 (bOf t) (rowOf t p) mm h)
  rw [V_main_arg1]
  refine congrArg _ (funext fun a => Fin.ext ?_)
  match a with
  | ⟨0, _⟩ => show win0_1.index t (0 : Fin 4) * 1 + 1 * 0 = t.val / 16; omega
  | ⟨1, _⟩ => show win0_1.index t (1 : Fin 4) * 128 + 1 * p.val = 128 * (t.val % 16) + p.val; omega
  | ⟨2, _⟩ => show win0_1.index t (2 : Fin 4) * 4 + 1 * mm.val = mm.val; omega
  | ⟨3, _⟩ => show win0_1.index t (3 : Fin 4) * 1024 + 1 * h.val = h.val; omega

/-- The value weights reach the kernel transposed. -/
theorem bWv_apply (t : Fin cfg0.N) (e : Fin 512) (h : Fin 1024) :
    (bWv m c t (ix2 e h) : EReal) = aWv m c (ix2 h e) := by
  obtain ⟨e0, e1, -⟩ := idx_whole t
  have hemb : ((cfg0.win 2).blk t).view.emb (ix2 e h) = (ix2 e h : S512x1024.Idx) := by
    refine funext fun a => Fin.ext ?_
    match a with
    | ⟨0, _⟩ => show win0_2.index t (0 : Fin 2) * 512 + 1 * e.val = e.val; omega
    | ⟨1, _⟩ => show win0_2.index t (1 : Fin 2) * 1024 + 1 * h.val = h.val; omega
  show V m c main_v13 (((cfg0.win 2).blk t).view.emb (ix2 e h)) = m ((c : Thread nD τ).loc main_arg4) (ix2 h e)
  rw [hemb, v13_eq]
  refine (truncf_apply (ψ := .bf16) (transpose S512x1024 [1, 0] (aWv m c) transposes_S1024x512_S512x1024_1_0) bitsLt_bf16_f32 (ix2 e h)).trans ?_
  refine transpose_apply [1, 0] (aWv m c) transposes_S1024x512_S512x1024_1_0 (ix2 e h) (ix2 h e) ?_
  intro b
  match b with
  | ⟨0, _⟩ => rfl
  | ⟨1, _⟩ => rfl

/-- The key weights reach the kernel with their last two axes transposed. -/
theorem bWk_apply (t : Fin cfg0.N) (mm : Fin 4) (e : Fin 512) (h : Fin 1024) :
    (bWk m c t (ix3 mm e h) : EReal) = aWk m c (ix3 mm h e) := by
  obtain ⟨-, -, e0, e1, e2, -⟩ := idx_whole t
  have hemb : ((cfg0.win 3).blk t).view.emb (ix3 mm e h) = (ix3 mm e h : S4x512x1024.Idx) := by
    refine funext fun a => Fin.ext ?_
    match a with
    | ⟨0, _⟩ => show win0_3.index t (0 : Fin 3) * 4 + 1 * mm.val = mm.val; omega
    | ⟨1, _⟩ => show win0_3.index t (1 : Fin 3) * 512 + 1 * e.val = e.val; omega
    | ⟨2, _⟩ => show win0_3.index t (2 : Fin 3) * 1024 + 1 * h.val = h.val; omega
  show V m c main_v15 (((cfg0.win 3).blk t).view.emb (ix3 mm e h)) = m ((c : Thread nD τ).loc main_arg5) (ix3 mm h e)
  rw [hemb, v15_eq]
  refine (truncf_apply (ψ := .bf16) (transpose S4x512x1024 [0, 2, 1] (aWk m c) transposes_S4x1024x512_S4x512x1024_0_2_1) bitsLt_bf16_f32 (ix3 mm e h)).trans ?_
  refine transpose_apply [0, 2, 1] (aWk m c) transposes_S4x1024x512_S4x512x1024_0_2_1 (ix3 mm e h) (ix3 mm h e) ?_
  intro b
  match b with
  | ⟨0, _⟩ => rfl
  | ⟨1, _⟩ => rfl
  | ⟨2, _⟩ => rfl

theorem bNh_apply (t : Fin cfg0.N) (mm : Fin 4) (h : Fin 1024) : (bNh m c t (ix2 mm h) : EReal) = aNh m c (ix2 mm h) := by
  obtain ⟨-, -, -, -, -, e0, e1, -⟩ := idx_whole t
  show V m c main_arg6 (((cfg0.win 4).blk t).view.emb (ix2 mm h)) = m ((c : Thread nD τ).loc main_arg6) (ix2 mm h)
  rw [V_main_arg6]
  refine congrArg _ (funext fun a => Fin.ext ?_)
  match a with
  | ⟨0, _⟩ => show win0_4.index t (0 : Fin 2) * 4 + 1 * mm.val = mm.val; omega
  | ⟨1, _⟩ => show win0_4.index t (1 : Fin 2) * 1024 + 1 * h.val = h.val; omega

theorem bNk_apply (t : Fin cfg0.N) (mm : Fin 4) (h : Fin 1024) : (bNk m c t (ix2 mm h) : EReal) = aNk m c (ix2 mm h) := by
  obtain ⟨-, -, -, -, -, -, -, e0, e1, -⟩ := idx_whole t
  show V m c main_arg7 (((cfg0.win 5).blk t).view.emb (ix2 mm h)) = m ((c : Thread nD τ).loc main_arg7) (ix2 mm h)
  rw [V_main_arg7]
  refine congrArg _ (funext fun a => Fin.ext ?_)
  match a with
  | ⟨0, _⟩ => show win0_5.index t (0 : Fin 2) * 4 + 1 * mm.val = mm.val; omega
  | ⟨1, _⟩ => show win0_5.index t (1 : Fin 2) * 1024 + 1 * h.val = h.val; omega

theorem bSc_apply (t : Fin cfg0.N) (mm : Fin 4) (h : Fin 1024) : (bSc m c t (ix2 mm h) : EReal) = aSc m c (ix2 mm h) := by
  obtain ⟨-, -, -, -, -, -, -, -, -, e0, e1, -⟩ := idx_whole t
  show V m c main_arg8 (((cfg0.win 6).blk t).view.emb (ix2 mm h)) = m ((c : Thread nD τ).loc main_arg8) (ix2 mm h)
  rw [V_main_arg8]
  refine congrArg _ (funext fun a => Fin.ext ?_)
  match a with
  | ⟨0, _⟩ => show win0_6.index t (0 : Fin 2) * 4 + 1 * mm.val = mm.val; omega
  | ⟨1, _⟩ => show win0_6.index t (1 : Fin 2) * 1024 + 1 * h.val = h.val; omega

/-- The convolution weights reach the kernel with their last two axes transposed. -/
theorem bCw_apply (t : Fin cfg0.N) (mm : Fin 4) (j : Fin 4) (h : Fin 1024) :
    (bCw m c t (ix3 mm j h) : EReal) = aCw m c (ix3 mm h j) := by
  obtain ⟨-, -, -, -, -, -, -, -, -, -, -, e0, e1, e2⟩ := idx_whole t
  have hemb : ((cfg0.win 7).blk t).view.emb (ix3 mm j h) = (ix3 mm j h : S4x4x1024.Idx) := by
    refine funext fun a => Fin.ext ?_
    match a with
    | ⟨0, _⟩ => show win0_7.index t (0 : Fin 3) * 4 + 1 * mm.val = mm.val; omega
    | ⟨1, _⟩ => show win0_7.index t (1 : Fin 3) * 4 + 1 * j.val = j.val; omega
    | ⟨2, _⟩ => show win0_7.index t (2 : Fin 3) * 1024 + 1 * h.val = h.val; omega
  show V m c main_v16 (((cfg0.win 7).blk t).view.emb (ix3 mm j h)) = m ((c : Thread nD τ).loc main_arg9) (ix3 mm h j)
  rw [hemb, v16_eq]
  refine transpose_apply [0, 2, 1] (aCw m c) transposes_S4x1024x4_S4x4x1024_0_2_1 (ix3 mm j h) (ix3 mm h j) ?_
  intro b
  match b with
  | ⟨0, _⟩ => rfl
  | ⟨1, _⟩ => rfl
  | ⟨2, _⟩ => rfl

/-- The kernel's embedding rows are the reference's: the same host lines in both programs. -/
theorem aEmb_eq :
    aEmb m c = Cert.ReferenceIdeal.Read.val_main_v10 (F := Ideal) (m ((c : Thread nD τ).loc main_arg0))
      (m ((c : Thread nD τ).loc main_arg2)) (m ((c : Thread nD τ).loc main_arg3)) := by
  show @Eq (S4x2048x512.Idx → EReal) (V m c main_v11) _
  dsimp only [Gen.V, Gen.hostOps0]
  after_results_simp
  unfold Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_c Cert.ReferenceIdeal.Read.val_main_c_0
  rfl

/-- The index of entry `(0, p, mm, h)` of grid point `t`'s output block in the result array. -/
theorem out_blk_emb (t : Fin cfg0.N) (p : Fin 128) (mm : Fin 4) (h : Fin 1024) :
    ((cfg0.win 8).blk t).view.emb (ix4 0 p mm h) = (ix4 (bOf t) (rowOf t p) mm h : S4x2048x4x1024.Idx) := by
  obtain ⟨-, -, -, -, -, -, -, e0, e1, e2, e3⟩ := idx_facts t
  refine funext fun a => Fin.ext ?_
  match a with
  | ⟨0, _⟩ => show win0_8.index t (0 : Fin 4) * 1 + 1 * 0 = t.val / 16; omega
  | ⟨1, _⟩ => show win0_8.index t (1 : Fin 4) * 128 + 1 * p.val = 128 * (t.val % 16) + p.val; omega
  | ⟨2, _⟩ => show win0_8.index t (2 : Fin 4) * 4 + 1 * mm.val = mm.val; omega
  | ⟨3, _⟩ => show win0_8.index t (3 : Fin 4) * 1024 + 1 * h.val = h.val; omega

end Cert.KernelIdeal.Arrays

end
-- ==== Proof.KernelValue.lean ====
/-
  The kernel's result array is the specification's: point by point the output block is the specification's
  rows, the nine scratch rows a point leaves being the last nine rows of its own tile.
-/
import proofs.«400853_j56710748176506_3_alg».proof.Proof.Gen.KernelIdeal.Value
import proofs.«400853_j56710748176506_3_alg».proof.Proof.BlockSem
import proofs.«400853_j56710748176506_3_alg».proof.Proof.Arrays

set_option maxRecDepth 16384

noncomputable section

namespace Cert.KernelIdeal.KernelValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Pieces Cert.KernelIdeal.BlockSem Cert.KernelIdeal.Arrays
open Idealize.ShloMosaic.ValueIdx
open scoped BigOperators

variable (m : (ℓ : Loc nD τ sig) → Buf (Elt Ideal) ℓ) (ρ : Dev nD → PrngReg) (c : Dev nD)

/-- What the body is handed at grid point `t`: the staging memrefs and the input blocks. -/
def envAt (t : Fin cfg0.N) : Env Ideal where
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  arg8 := ms0_6 t
  harg8 := hs0_6 t
  arg9 := ms0_7 t
  harg9 := hs0_7 t
  arg10 := ms0_8 t
  harg10 := hs0_8 t
  arg11 := scM0_0
  harg11 := Memref.isWhole_whole _
  x0 := iblk m c 0 t
  x1 := iblk m c 1 t
  x2 := iblk m c 2 t
  x3 := iblk m c 3 t
  x4 := iblk m c 4 t
  x5 := iblk m c 5 t
  x6 := iblk m c 6 t
  x7 := iblk m c 7 t

/-- The scratch after grid point `t`. -/
abbrev scrAt (t : Fin cfg0.N) : Vec Ideal S4x144x1024 .f32 := (outsAt0 m c t.val t.isLt).2
/-- The output block after grid point `t`. -/
abbrev outAt (t : Fin cfg0.N) : Vec Ideal S1x128x4x1024 .f32 := (outsAt0 m c t.val t.isLt).1

/-- The point before `t` (itself at the run's first point, where it is not used). -/
def predPt (t : Fin cfg0.N) : Fin cfg0.N := ⟨t.val - 1, Nat.lt_of_le_of_lt (Nat.sub_le _ _) t.isLt⟩

/-- What a point finds in the scratch: zeros at a batch's first point (it stores them itself), else what the point
    before left. -/
def prevAt (t : Fin cfg0.N) : S4x144x1024.Idx → EReal :=
  if t.val % 16 = 0 then fun _ => 0 else scrAt m c (predPt t)

theorem scrAt_apply (t : Fin cfg0.N) (mm : Fin 4) (r : Fin 144) (q : Fin 1024) :
    (scrAt m c t (ix3 mm r q) : EReal) = newScr (envAt m c t) (prevAt m c t) mm r q := by
  unfold prevAt
  by_cases h0 : t.val % 16 = 0
  · rw [if_pos h0]
    have key := scrA_apply (envAt m c t) c (grid0.coords t) ((hcond0_0 t).mpr h0) mm r q
    dsimp only [envAt] at key
    show ((outsAt0 m c t.val t.isLt).2 (ix3 mm r q) : EReal) = _
    rw [outsAt0_A m c t h0]
    dsimp only
    exact key
  · rw [if_neg h0]
    have key := scrB_apply (envAt m c t) c (grid0.coords t) (fun h => h0 ((hcond0_0 t).mp h)) (scrAt m c (predPt t)) mm r q
    dsimp only [envAt] at key
    show ((outsAt0 m c t.val t.isLt).2 (ix3 mm r q) : EReal) = _
    rw [outsAt0_B m c t h0]
    dsimp only
    exact key

theorem outAt_apply (t : Fin cfg0.N) (mm : Fin 4) (p : Fin 128) (q : Fin 1024) :
    (outAt m c t (ix4 0 p mm q) : EReal) = outVal (envAt m c t) (prevAt m c t) mm p q := by
  unfold prevAt
  by_cases h0 : t.val % 16 = 0
  · rw [if_pos h0]
    have key := outA_apply (envAt m c t) c (grid0.coords t) ((hcond0_0 t).mpr h0) mm p q
    dsimp only [envAt] at key
    show ((outsAt0 m c t.val t.isLt).1 (ix4 0 p mm q) : EReal) = _
    rw [outsAt0_A m c t h0]
    dsimp only
    exact key
  · rw [if_neg h0]
    have key := outB_apply (envAt m c t) c (grid0.coords t) (fun h => h0 ((hcond0_0 t).mp h)) (scrAt m c (predPt t)) mm p q
    dsimp only [envAt] at key
    show ((outsAt0 m c t.val t.isLt).1 (ix4 0 p mm q) : EReal) = _
    rw [outsAt0_B m c t h0]
    dsimp only
    exact key

/-! ## The blocks' rows are the arrays' rows -/

/-- The specification's normalised gated value over the arrays as the kernel's program finds them. -/
abbrev xnA (b : Fin 4) (tt : Fin 2048) (mm : Fin 4) (q : Fin 1024) : EReal :=
  Cert.Spec.xn (aEmb m c) (aHid m c) (aWv m c) (aWk m c) (aNh m c) (aNk m c) (aSc m c) b tt mm q

theorem kx_env (t : Fin cfg0.N) (mm : Fin 4) (p : Fin 128) :
    kx (envAt m c t) mm p = Cert.Spec.keys (aEmb m c) (aWk m c) (bOf t) (rowOf t p) mm := by
  funext h
  unfold kx Cert.Spec.keys
  exact Finset.sum_congr rfl fun e _ => by
    rw [show ((envAt m c t).x0 (ix3 0 p e) : EReal) = aEmb m c (ix3 (bOf t) (rowOf t p) e) from bEmb_apply m c t p e,
      show ((envAt m c t).x3 (ix3 mm e h) : EReal) = aWk m c (ix3 mm h e) from bWk_apply m c t mm e h]

theorem vx_env (t : Fin cfg0.N) (p : Fin 128) :
    vx (envAt m c t) p = Cert.Spec.value (aEmb m c) (aWv m c) (bOf t) (rowOf t p) := by
  funext h
  unfold vx Cert.Spec.value
  exact Finset.sum_congr rfl fun e _ => by
    rw [show ((envAt m c t).x0 (ix3 0 p e) : EReal) = aEmb m c (ix3 (bOf t) (rowOf t p) e) from bEmb_apply m c t p e,
      show ((envAt m c t).x2 (ix2 e h) : EReal) = aWv m c (ix2 h e) from bWv_apply m c t e h]

theorem hid_env (t : Fin cfg0.N) (mm : Fin 4) (p : Fin 128) :
    (fun h => ((envAt m c t).x1 (ix4 0 p mm h) : EReal)) = fun h' => aHid m c (ix4 (bOf t) (rowOf t p) mm h') :=
  funext fun h => bHid_apply m c t p mm h
theorem nk_env (t : Fin cfg0.N) (mm : Fin 4) :
    (fun h => ((envAt m c t).x5 (ix2 mm h) : EReal)) = fun h' => aNk m c (ix2 mm h') :=
  funext fun h => bNk_apply m c t mm h
theorem nh_env (t : Fin cfg0.N) (mm : Fin 4) :
    (fun h => ((envAt m c t).x4 (ix2 mm h) : EReal)) = fun h' => aNh m c (ix2 mm h') :=
  funext fun h => bNh_apply m c t mm h
theorem sc_env (t : Fin cfg0.N) (mm : Fin 4) :
    (fun h => ((envAt m c t).x6 (ix2 mm h) : EReal)) = fun h' => aSc m c (ix2 mm h') :=
  funext fun h => bSc_apply m c t mm h

theorem XN_env (t : Fin cfg0.N) (mm : Fin 4) (p : Fin 128) (q : Fin 1024) :
    XN (envAt m c t) mm p q = xnA m c (bOf t) (rowOf t p) mm q := by
  unfold XN
  rw [kx_env, vx_env, hid_env, nk_env, nh_env, sc_env]
  rfl

theorem GT_env (t : Fin cfg0.N) (mm : Fin 4) (p : Fin 128) (q : Fin 1024) :
    GT (envAt m c t) mm p q
      = Cert.Spec.gated (aEmb m c) (aHid m c) (aWv m c) (aWk m c) (aNh m c) (aNk m c) (bOf t) (rowOf t p) mm q := by
  unfold GT
  rw [kx_env, vx_env, hid_env, nk_env, nh_env]
  rfl

/-! ## The carried rows and the taps -/

/-- Rows 7 … 15 of the scratch after point `t` are the last nine rows of that point's own tile. -/
theorem scr_carry (t : Fin cfg0.N) (mm : Fin 4) (r : Fin 144) (q : Fin 1024) (h7 : 7 ≤ r.val) (h16 : r.val < 16) :
    (scrAt m c t (ix3 mm r q) : EReal)
      = xnA m c (bOf t) ⟨128 * (t.val % 16) + (r.val + 112), by omega⟩ mm q := by
  rw [scrAt_apply]
  unfold newScr XNn
  rw [if_pos ⟨h7, h16⟩, dif_pos (by omega : r.val + 112 < 128)]
  exact XN_env m c t mm _ q

/-- Row `n = 7 + d + p` of head `mm` after its tile's store is row `p + d` of the padded sequence: inside the tile
    from the tile, below it from the point before (zeros at a batch's first point). -/
theorem tap_spec (t : Fin cfg0.N) (mm : Fin 4) (p : Fin 128) (q : Fin 1024) (n d : ℕ) (hn : n = 7 + d + p.val) (hd : d ≤ 9) :
    tapVal (envAt m c t) (prevAt m c t) mm n q
      = Cert.Spec.xp (aEmb m c) (aHid m c) (aWv m c) (aWk m c) (aNh m c) (aNk m c) (aSc m c) (bOf t) ((rowOf t p).val + d) mm q := by
  have hp := p.isLt
  have hrow : (rowOf t p).val = 128 * (t.val % 16) + p.val := rfl
  have hs : t.val % 16 < 16 := Nat.mod_lt _ (by decide)
  unfold tapVal Cert.Spec.xp
  by_cases h16 : 16 ≤ n
  · have hlt : n - 16 < 128 := by omega
    rw [if_pos h16, dif_pos (by omega : 9 ≤ (rowOf t p).val + d ∧ (rowOf t p).val + d < 2057)]
    unfold XNn
    rw [dif_pos hlt]
    refine (XN_env m c t mm ⟨n - 16, hlt⟩ q).trans ?_
    exact congrArg (fun tt => xnA m c (bOf t) tt mm q) (Fin.ext (by
      show 128 * (t.val % 16) + (n - 16) = (rowOf t p).val + d - 9; omega))
  · have hn144 : n < 144 := by omega
    rw [if_neg h16, dif_pos hn144]
    unfold prevAt
    by_cases h0 : t.val % 16 = 0
    · rw [if_pos h0, dif_neg (by omega)]
    · rw [if_neg h0, scr_carry m c (predPt t) mm ⟨n, hn144⟩ q (by show 7 ≤ n; omega) (by show n < 16; omega),
        dif_pos (by omega : 9 ≤ (rowOf t p).val + d ∧ (rowOf t p).val + d < 2057)]
      have hb : bOf (predPt t) = bOf t := Fin.ext (by show (t.val - 1) / 16 = t.val / 16; omega)
      rw [hb]
      exact congrArg (fun tt => xnA m c (bOf t) tt mm q) (Fin.ext (by
        show 128 * ((t.val - 1) % 16) + (n + 112) = (rowOf t p).val + d - 9; omega))

/-! ## The output block, the cover, the array -/

/-- The specification's result over the arrays as the kernel's program finds them. -/
abbrev GA : S4x2048x4x1024.Idx → EReal :=
  Cert.Spec.G (aEmb m c) (aHid m c) (aWv m c) (aWk m c) (aNh m c) (aNk m c) (aSc m c) (aCw m c)

theorem outAt_spec (t : Fin cfg0.N) (mm : Fin 4) (p : Fin 128) (q : Fin 1024) :
    (outAt m c t (ix4 0 p mm q) : EReal) = GA m c (ix4 (bOf t) (rowOf t p) mm q) := by
  rw [outAt_apply]
  unfold outVal
  rw [tap_spec m c t mm p q (7 + p.val) 0 (by omega) (by omega), tap_spec m c t mm p q (10 + p.val) 3 (by omega) (by omega),
    tap_spec m c t mm p q (13 + p.val) 6 (by omega) (by omega), tap_spec m c t mm p q (16 + p.val) 9 (by omega) (by omega),
    GT_env,
    show ((envAt m c t).x7 (ix3 mm 0 q) : EReal) = aCw m c (ix3 mm q 0) from bCw_apply m c t mm 0 q,
    show ((envAt m c t).x7 (ix3 mm 1 q) : EReal) = aCw m c (ix3 mm q 1) from bCw_apply m c t mm 1 q,
    show ((envAt m c t).x7 (ix3 mm 2 q) : EReal) = aCw m c (ix3 mm q 2) from bCw_apply m c t mm 2 q,
    show ((envAt m c t).x7 (ix3 mm 3 q) : EReal) = aCw m c (ix3 mm q 3) from bCw_apply m c t mm 3 q,
    show ((envAt m c t).x1 (ix4 0 p mm q) : EReal) = aHid m c (ix4 (bOf t) (rowOf t p) mm q) from bHid_apply m c t p mm q]
  rfl

/-- An entry of the output block after point `t` is the specification's at the entry's place in the array. -/
theorem flushed_pt (t : Fin cfg0.N) (j : S1x128x4x1024.Idx) :
    (outAt m c t j : EReal) = GA m c (((cfg0.win 8).blk t).view.emb j) := by
  obtain ⟨p, mm, q, rfl⟩ : ∃ (p : Fin 128) (mm : Fin 4) (q : Fin 1024), j = ix4 0 p mm q := ⟨j 1, j 2, j 3, by
    have h := eq_ix4 j
    have h0 : (j 0).val < 1 := (j 0).isLt
    rw [show j 0 = (0 : Fin 1) from Fin.ext (by show (j 0).val = 0; omega)] at h
    exact h⟩
  rw [out_blk_emb t]
  exact outAt_spec m c t mm p q

/-- What point `t` writes back is block `t` of the specification's array. -/
theorem flushed_eq (t : Fin cfg0.N) :
    (dats m 0 c).flushed 8 t = ((cfg0.win 8).blk t).view.read (Elt Ideal) (GA m c) := by
  rw [Cert.KernelIdeal.Value.flushed8]
  funext j
  exact flushed_pt m c t j

/-- The output window's index map: the batch, the tile, and the head and column axes whole. -/
theorem idx8 : ∀ t : Fin cfg0.N, win0_8.index t (0 : Fin 4) = t.val / 16 ∧ win0_8.index t (1 : Fin 4) = t.val % 16
    ∧ win0_8.index t (2 : Fin 4) = 0 ∧ win0_8.index t (3 : Fin 4) = 0 :=
  (by decide +kernel : ∀ t : Fin grid0.N, _)

/-- Every entry of the result array lies in the block of the point of its batch and sequence tile. -/
theorem cover8 (i : S4x2048x4x1024.Idx) :
    ∃ t : Fin cfg0.N, (cfg0.win 8).flush t = true ∧ i ∈ ((cfg0.win 8).blk t).view.set := by
  have h0 : (i 0).val < 4 := (i 0).isLt
  have h1 : (i 1).val < 2048 := (i 1).isLt
  have h2 : (i 2).val < 4 := (i 2).isLt
  have h3 : (i 3).val < 1024 := (i 3).isLt
  have hN : cfg0.N = 64 := N_0
  let t : Fin cfg0.N := ⟨16 * (i 0).val + (i 1).val / 128, by omega⟩
  have ht : t.val = 16 * (i 0).val + (i 1).val / 128 := rfl
  obtain ⟨e0, e1, e2, e3⟩ := idx8 t
  refine ⟨t, flush0_8 t, ?_⟩
  show i ∈ ((View.whole main_v17).slice (win0_8.rect t)).set
  rw [View.set_slice_whole, Rect.mem_set_unit]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 128 ≤ (i 1).val ∧ (i 1).val < win0_8.index t (1 : Fin 4) * 128 + 128; omega
  | ⟨2, _⟩ => show win0_8.index t (2 : Fin 4) * 4 ≤ (i 2).val ∧ (i 2).val < win0_8.index t (2 : Fin 4) * 4 + 4; omega
  | ⟨3, _⟩ => show win0_8.index t (3 : Fin 4) * 1024 ≤ (i 3).val ∧ (i 3).val < win0_8.index t (3 : Fin 4) * 1024 + 1024; omega

/-- After the run the result array is the specification's. -/
theorem final8 : (dats m 0 c).arrAt 8 cfg0.N = GA m c :=
  (dats m 0 c).arrAt_eq_of_cover 8 (GA m c) (fun t _ => flushed_eq m c t) (cover8)

/-- The kernel's run: it terminates with the result array at the specification's function of the argument arrays, the
    arguments unchanged. -/
theorem run : θ_run defs (onTc (τ := τ) (main (F := Ideal))) ⟨m, fun _ => 0, ρ⟩ fun r => ∀ c : Dev nD,
      r.2.mem ((c : Thread nD τ).loc main_v17) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final8 m c), (h c).2⟩)
    (Cert.KernelIdeal.Value.run_blocks m ρ)

end Cert.KernelIdeal.KernelValue

end
-- ==== Proof.RefStages.lean ====
/-
  The reference's stages up to the gated value and its normalisation, read at an index: the specification's rows.
-/
import proofs.«400853_j56710748176506_3_alg».proof.Proof.Gen.ReferenceIdeal.Read
import proofs.«400853_j56710748176506_3_alg».proof.Proof.Spec
import Idealize.ShloMosaic.Lib.ValueIdx
import Idealize.ShloMosaic.Lib.Pipeline.Value
import Idealize.ShloMosaic.PureOps.Ideal.Laws

noncomputable section

namespace Cert.ReferenceIdeal.RefStages

open Cert.ReferenceIdeal Cert.ReferenceIdeal.Read Idealize.ShloMosaic Idealize.ShloMosaic.ValueIdx
open scoped BigOperators

section
variable (x0 : (⟨S4x2048x8, .i32⟩ : BufTy).Contents (Elt Ideal)) (x1 : (⟨S4x2048x4x1024, .f32⟩ : BufTy).Contents (Elt Ideal))
  (x2 : (⟨S4000506x64, .f32⟩ : BufTy).Contents (Elt Ideal)) (x3 : (⟨S8, .i32⟩ : BufTy).Contents (Elt Ideal))
  (x4 : (⟨S1024x512, .f32⟩ : BufTy).Contents (Elt Ideal)) (x5 : (⟨S4x1024x512, .f32⟩ : BufTy).Contents (Elt Ideal))
  (x6 x7 x8 : (⟨S4x1024, .f32⟩ : BufTy).Contents (Elt Ideal))

/-- The float word 0x3F800000 is one. -/
private theorem one_word : Ideal.ofBits .f32 0x3F800000#32 = (1 : EReal) := by
  simp [Ideal.ofBits, Ideal.ieee, -EReal.coe_mul]; norm_num

/-- The value projection (stage 11) at an index is the specification's value row. -/
private theorem value_at (b : Fin 4) (t : Fin 2048) (h : Fin 1024) :
    (val_main_v11 (F := Ideal) x0 x2 x3 x4 (ix3 b t h) : EReal)
      = Cert.Spec.value (val_main_v10 (F := Ideal) x0 x2 x3) x4 b t h := by
  rw [val_main_v11_apply]
  unfold Cert.Spec.value
  refine Finset.sum_congr rfl fun k _ => ?_
  have e1 : lidx_main_v11 (ix3 b t h) k = ix3 b t k :=
    funext fun a => Fin.ext (by match a with | ⟨0, _⟩ => rfl | ⟨1, _⟩ => rfl | ⟨2, _⟩ => rfl)
  have e2 : ridx_main_v11 (ix3 b t h) k = ix2 h k :=
    funext fun a => Fin.ext (by match a with | ⟨0, _⟩ => rfl | ⟨1, _⟩ => rfl)
  rw [e1, e2]

/-- The key projection (stage 12) at an index is the specification's key row. -/
private theorem keys_at (b : Fin 4) (t : Fin 2048) (m : Fin 4) (h : Fin 1024) :
    (val_main_v12 (F := Ideal) x0 x2 x3 x5 (ix4 b t m h) : EReal)
      = Cert.Spec.keys (val_main_v10 (F := Ideal) x0 x2 x3) x5 b t m h := by
  rw [val_main_v12_apply]
  unfold Cert.Spec.keys
  refine Finset.sum_congr rfl fun k _ => ?_
  have e1 : lidx_main_v12 (ix4 b t m h) k = ix3 b t k :=
    funext fun a => Fin.ext (by match a with | ⟨0, _⟩ => rfl | ⟨1, _⟩ => rfl | ⟨2, _⟩ => rfl)
  have e2 : ridx_main_v12 (ix4 b t m h) k = ix3 m h k :=
    funext fun a => Fin.ext (by match a with | ⟨0, _⟩ => rfl | ⟨1, _⟩ => rfl | ⟨2, _⟩ => rfl)
  rw [e1, e2]

/-- The keys' reciprocal root mean square (stage 20). -/
private theorem rrk_at (b : Fin 4) (t : Fin 2048) (m : Fin 4) (z : Fin 1) :
    (val_main_v20 (F := Ideal) x0 x2 x3 x5 (ix4 b t m z) : EReal)
      = Cert.Spec.rr Cert.Spec.epsG (Cert.Spec.keys (val_main_v10 (F := Ideal) x0 x2 x3) x5 b t m) := by
  rw [val_main_v20_apply, val_main_v19_apply, val_main_v17_apply, val_main_v18_apply, val_main_cst_2_apply,
    val_main_v15_apply, val_main_v16_apply, val_main_cst_1_apply, val_main_v14_apply, val_main_cst_apply]
  simp only [Ideal.ofBits_def, Ideal.ofBits_zero_f32, zero_add, Ideal.hostUnary_rsqrt_def, Ideal.addf_def, Ideal.hostDivf_def]
  unfold Cert.Spec.rr Cert.Spec.c1024 Cert.Spec.epsG
  refine congrArg (fun s => Ideal.rsqrt (Ideal.div s _ + _)) (Finset.sum_congr rfl fun k _ => ?_)
  have e : idx_main_v14 (idx_main_v15 (ix4 b t m z)) k = ix4 b t m k :=
    funext fun a => Fin.ext (by match a with | ⟨0, _⟩ => rfl | ⟨1, _⟩ => rfl | ⟨2, _⟩ => rfl | ⟨3, _⟩ => rfl)
  rw [e, val_main_v13_apply, keys_at]
  rfl

/-- The normalised keys (stage 25). -/
private theorem nk_at (b : Fin 4) (t : Fin 2048) (m : Fin 4) (h : Fin 1024) :
    (val_main_v25 (F := Ideal) x0 x2 x3 x5 x7 (ix4 b t m h) : EReal)
      = Cert.Spec.rowNorm Cert.Spec.epsG (Cert.Spec.keys (val_main_v10 (F := Ideal) x0 x2 x3) x5 b t m)
          (fun h' => x7 (ix2 m h')) h := by
  have e21 : idx_main_v21 (ix4 b t m h) = ix4 b t m (⟨0, Nat.one_pos⟩ : Fin 1) :=
    funext fun a => Fin.ext (by match a with | ⟨0, _⟩ => rfl | ⟨1, _⟩ => rfl | ⟨2, _⟩ => rfl | ⟨3, _⟩ => rfl)
  have e23 : idx_main_v23 (idx_main_v24 (ix4 b t m h)) = ix2 m h :=
    funext fun a => Fin.ext (by match a with | ⟨0, _⟩ => rfl | ⟨1, _⟩ => rfl)
  rw [val_main_v25_apply, val_main_v22_apply, val_main_v24_apply, val_main_v23_apply, val_main_v21_apply,
    e21, e23, rrk_at, keys_at]
  rfl

/-- The hidden row's reciprocal root mean square (stage 33). -/
private theorem rrq_at (b : Fin 4) (t : Fin 2048) (m : Fin 4) (z : Fin 1) :
    (val_main_v33 (F := Ideal) x1 (ix4 b t m z) : EReal)
      = Cert.Spec.rr Cert.Spec.epsG (fun h' => x1 (ix4 b t m h')) := by
  rw [val_main_v33_apply, val_main_v32_apply, val_main_v30_apply, val_main_v31_apply, val_main_cst_5_apply,
    val_main_v28_apply, val_main_v29_apply, val_main_cst_4_apply, val_main_v27_apply, val_main_cst_3_apply]
  simp only [Ideal.ofBits_def, Ideal.ofBits_zero_f32, zero_add, Ideal.hostUnary_rsqrt_def, Ideal.addf_def, Ideal.hostDivf_def]
  unfold Cert.Spec.rr Cert.Spec.c1024 Cert.Spec.epsG
  refine congrArg (fun s => Ideal.rsqrt (Ideal.div s _ + _)) (Finset.sum_congr rfl fun k _ => ?_)
  have e : idx_main_v27 (idx_main_v28 (ix4 b t m z)) k = ix4 b t m k :=
    funext fun a => Fin.ext (by match a with | ⟨0, _⟩ => rfl | ⟨1, _⟩ => rfl | ⟨2, _⟩ => rfl | ⟨3, _⟩ => rfl)
  rw [e, val_main_v26_apply]
  rfl

/-- The normalised hidden row (stage 38). -/
private theorem nq_at (b : Fin 4) (t : Fin 2048) (m : Fin 4) (h : Fin 1024) :
    (val_main_v38 (F := Ideal) x1 x6 (ix4 b t m h) : EReal)
      = Cert.Spec.rowNorm Cert.Spec.epsG (fun h' => x1 (ix4 b t m h')) (fun h' => x6 (ix2 m h')) h := by
  have e34 : idx_main_v34 (ix4 b t m h) = ix4 b t m (⟨0, Nat.one_pos⟩ : Fin 1) :=
    funext fun a => Fin.ext (by match a with | ⟨0, _⟩ => rfl | ⟨1, _⟩ => rfl | ⟨2, _⟩ => rfl | ⟨3, _⟩ => rfl)
  have e36 : idx_main_v36 (idx_main_v37 (ix4 b t m h)) = ix2 m h :=
    funext fun a => Fin.ext (by match a with | ⟨0, _⟩ => rfl | ⟨1, _⟩ => rfl)
  rw [val_main_v38_apply, val_main_v35_apply, val_main_v37_apply, val_main_v36_apply, val_main_v34_apply,
    e34, e36, rrq_at]
  rfl

/-- The scaled inner product of the two normalised rows (stage 43). -/
private theorem g0_at (b : Fin 4) (t : Fin 2048) (m : Fin 4) (z : Fin 1) :
    (val_main_v43 (F := Ideal) x0 x1 x2 x3 x5 x6 x7 (ix4 b t m z) : EReal)
      = Cert.Spec.rowG0 (Cert.Spec.keys (val_main_v10 (F := Ideal) x0 x2 x3) x5 b t m) (fun h' => x1 (ix4 b t m h'))
          (fun h' => x7 (ix2 m h')) (fun h' => x6 (ix2 m h')) := by
  rw [val_main_v43_apply, val_main_v41_apply, val_main_v42_apply, val_main_cst_7_apply, val_main_v40_apply,
    val_main_cst_6_apply]
  simp only [Ideal.ofBits_def, Ideal.ofBits_zero_f32, zero_add, Ideal.hostDivf_def]
  unfold Cert.Spec.rowG0 Cert.Spec.c32
  refine congrArg (fun s => Ideal.div s _) (Finset.sum_congr rfl fun k _ => ?_)
  have e : idx_main_v40 (idx_main_v41 (ix4 b t m z)) k = ix4 b t m k :=
    funext fun a => Fin.ext (by match a with | ⟨0, _⟩ => rfl | ⟨1, _⟩ => rfl | ⟨2, _⟩ => rfl | ⟨3, _⟩ => rfl)
  rw [e, val_main_v39_apply, nk_at, nq_at]
  rfl

/-- The gate (stage 55). -/
private theorem gate_at (b : Fin 4) (t : Fin 2048) (m : Fin 4) (z : Fin 1) :
    (val_main_v55 (F := Ideal) x0 x1 x2 x3 x5 x6 x7 (ix4 b t m z) : EReal)
      = Cert.Spec.gateOf (Cert.Spec.rowG0 (Cert.Spec.keys (val_main_v10 (F := Ideal) x0 x2 x3) x5 b t m)
          (fun h' => x1 (ix4 b t m h')) (fun h' => x7 (ix2 m h')) (fun h' => x6 (ix2 m h'))) := by
  rw [val_main_v55_apply, val_main_v54_apply, val_main_cst_10_apply, val_main_v53_apply, val_main_v52_apply,
    val_main_cst_9_apply, val_main_v51_apply, val_main_v50_apply, val_main_v49_apply, val_main_v47_apply,
    val_main_v48_apply, val_main_v46_apply, val_main_v44_apply, val_main_v45_apply, val_main_cst_8_apply, g0_at]
  simp only [Ideal.ofBits_def, one_word, Ideal.hostDivf_def, Ideal.addf_def, Ideal.hostUnary_exp_def, Ideal.hostNegf_def,
    Ideal.negf_def, Ideal.mulf_def, Ideal.hostUnary_sqrt_def, Ideal.hostUnary_sign_def, Ideal.maximumf_def, Ideal.hostAbsf_def]
  rfl

end

/-- The reference's gated value (its stage 59) is the specification's, over the embedding rows its own gather produces. -/
theorem ref_gated (x0 : (⟨S4x2048x8, .i32⟩ : BufTy).Contents (Elt Ideal)) (x1 : (⟨S4x2048x4x1024, .f32⟩ : BufTy).Contents (Elt Ideal))
    (x2 : (⟨S4000506x64, .f32⟩ : BufTy).Contents (Elt Ideal)) (x3 : (⟨S8, .i32⟩ : BufTy).Contents (Elt Ideal))
    (x4 : (⟨S1024x512, .f32⟩ : BufTy).Contents (Elt Ideal)) (x5 : (⟨S4x1024x512, .f32⟩ : BufTy).Contents (Elt Ideal))
    (x6 x7 : (⟨S4x1024, .f32⟩ : BufTy).Contents (Elt Ideal)) (b : Fin 4) (t : Fin 2048) (m : Fin 4) (h : Fin 1024) :
    (val_main_v59 (F := Ideal) x0 x1 x2 x3 x4 x5 x6 x7 (ix4 b t m h) : EReal)
      = Cert.Spec.gated (val_main_v10 (F := Ideal) x0 x2 x3) x1 x4 x5 x6 x7 b t m h := by
  have e57 : idx_main_v57 (ix4 b t m h) = ix4 b t m (⟨0, Nat.one_pos⟩ : Fin 1) :=
    funext fun a => Fin.ext (by match a with | ⟨0, _⟩ => rfl | ⟨1, _⟩ => rfl | ⟨2, _⟩ => rfl | ⟨3, _⟩ => rfl)
  have e56 : idx_main_v56 (idx_main_v58 (ix4 b t m h)) = ix3 b t h :=
    funext fun a => Fin.ext (by match a with | ⟨0, _⟩ => rfl | ⟨1, _⟩ => rfl | ⟨2, _⟩ => rfl)
  rw [val_main_v59_apply, val_main_v57_apply, val_main_v58_apply, val_main_v56_apply, e57, e56, gate_at, value_at]
  rfl

section
variable (x0 : (⟨S4x2048x8, .i32⟩ : BufTy).Contents (Elt Ideal)) (x1 : (⟨S4x2048x4x1024, .f32⟩ : BufTy).Contents (Elt Ideal))
  (x2 : (⟨S4000506x64, .f32⟩ : BufTy).Contents (Elt Ideal)) (x3 : (⟨S8, .i32⟩ : BufTy).Contents (Elt Ideal))
  (x4 : (⟨S1024x512, .f32⟩ : BufTy).Contents (Elt Ideal)) (x5 : (⟨S4x1024x512, .f32⟩ : BufTy).Contents (Elt Ideal))
  (x6 x7 x8 : (⟨S4x1024, .f32⟩ : BufTy).Contents (Elt Ideal))

/-- The gated row's reciprocal root mean square (stage 67). -/
private theorem rrg_at (b : Fin 4) (t : Fin 2048) (m : Fin 4) (z : Fin 1) :
    (val_main_v67 (F := Ideal) x0 x1 x2 x3 x4 x5 x6 x7 (ix4 b t m z) : EReal)
      = Cert.Spec.rr Cert.Spec.epsS (Cert.Spec.gated (val_main_v10 (F := Ideal) x0 x2 x3) x1 x4 x5 x6 x7 b t m) := by
  rw [val_main_v67_apply, val_main_v66_apply, val_main_v64_apply, val_main_v65_apply, val_main_cst_13_apply,
    val_main_v62_apply, val_main_v63_apply, val_main_cst_12_apply, val_main_v61_apply, val_main_cst_11_apply]
  simp only [Ideal.ofBits_def, Ideal.ofBits_zero_f32, zero_add, Ideal.hostUnary_rsqrt_def, Ideal.addf_def, Ideal.hostDivf_def]
  unfold Cert.Spec.rr Cert.Spec.c1024 Cert.Spec.epsS
  refine congrArg (fun s => Ideal.rsqrt (Ideal.div s _ + _)) (Finset.sum_congr rfl fun k _ => ?_)
  have e : idx_main_v61 (idx_main_v62 (ix4 b t m z)) k = ix4 b t m k :=
    funext fun a => Fin.ext (by match a with | ⟨0, _⟩ => rfl | ⟨1, _⟩ => rfl | ⟨2, _⟩ => rfl | ⟨3, _⟩ => rfl)
  rw [e, val_main_v60_apply, ref_gated]
  rfl

end

/-- The reference's normalised gated value (its stage 72) is the specification's `xn`. -/
theorem ref_xn (x0 : (⟨S4x2048x8, .i32⟩ : BufTy).Contents (Elt Ideal)) (x1 : (⟨S4x2048x4x1024, .f32⟩ : BufTy).Contents (Elt Ideal))
    (x2 : (⟨S4000506x64, .f32⟩ : BufTy).Contents (Elt Ideal)) (x3 : (⟨S8, .i32⟩ : BufTy).Contents (Elt Ideal))
    (x4 : (⟨S1024x512, .f32⟩ : BufTy).Contents (Elt Ideal)) (x5 : (⟨S4x1024x512, .f32⟩ : BufTy).Contents (Elt Ideal))
    (x6 x7 x8 : (⟨S4x1024, .f32⟩ : BufTy).Contents (Elt Ideal)) (b : Fin 4) (t : Fin 2048) (m : Fin 4) (h : Fin 1024) :
    (val_main_v72 (F := Ideal) x0 x1 x2 x3 x4 x5 x6 x7 x8 (ix4 b t m h) : EReal)
      = Cert.Spec.xn (val_main_v10 (F := Ideal) x0 x2 x3) x1 x4 x5 x6 x7 x8 b t m h := by
  have e68 : idx_main_v68 (ix4 b t m h) = ix4 b t m (⟨0, Nat.one_pos⟩ : Fin 1) :=
    funext fun a => Fin.ext (by match a with | ⟨0, _⟩ => rfl | ⟨1, _⟩ => rfl | ⟨2, _⟩ => rfl | ⟨3, _⟩ => rfl)
  have e70 : idx_main_v70 (idx_main_v71 (ix4 b t m h)) = ix2 m h :=
    funext fun a => Fin.ext (by match a with | ⟨0, _⟩ => rfl | ⟨1, _⟩ => rfl)
  rw [val_main_v72_apply, val_main_v69_apply, val_main_v71_apply, val_main_v70_apply, val_main_v68_apply,
    e68, e70, rrg_at, ref_gated]
  rfl

end Cert.ReferenceIdeal.RefStages

end
-- ==== Proof.RefSpec.lean ====
/-
  The reference's result is the specification's array: each stage of its program read at an index.
-/
import proofs.«400853_j56710748176506_3_alg».proof.Proof.Gen.ReferenceIdeal.Read
import proofs.«400853_j56710748176506_3_alg».proof.Proof.Spec
import proofs.«400853_j56710748176506_3_alg».proof.Proof.RefStages
import Idealize.ShloMosaic.Lib.ValueIdx
import Idealize.ShloMosaic.Lib.Pipeline.Value
import Idealize.ShloMosaic.Lib.KernelVsHost
import Idealize.ShloMosaic.PureOps.Ideal.Laws

noncomputable section

namespace Cert.ReferenceIdeal.RefSpec

open Cert.ReferenceIdeal Cert.ReferenceIdeal.Read Idealize.ShloMosaic Idealize.ShloMosaic.ValueIdx
open scoped BigOperators

/-- The float word of one denotes the real one. -/
private theorem ofBits_one : Ideal.ofBits .f32 0x3F800000#32 = 1 := by
  simp [Ideal.ofBits, Ideal.ieee, -EReal.coe_mul]; norm_num

/-- The padded sequence read at an index: nine rows of zeros, then the normalised gated value. -/
private theorem pad_read (x0 : (⟨S4x2048x8, .i32⟩ : BufTy).Contents (Elt Ideal)) (x1 : (⟨S4x2048x4x1024, .f32⟩ : BufTy).Contents (Elt Ideal))
    (x2 : (⟨S4000506x64, .f32⟩ : BufTy).Contents (Elt Ideal)) (x3 : (⟨S8, .i32⟩ : BufTy).Contents (Elt Ideal))
    (x4 : (⟨S1024x512, .f32⟩ : BufTy).Contents (Elt Ideal)) (x5 : (⟨S4x1024x512, .f32⟩ : BufTy).Contents (Elt Ideal))
    (x6 x7 x8 : (⟨S4x1024, .f32⟩ : BufTy).Contents (Elt Ideal)) (b : Fin 4) (u : Fin 2057) (m : Fin 4) (h : Fin 1024) :
    (val_main_v73 (F := Ideal) x0 x1 x2 x3 x4 x5 x6 x7 x8 (ix4 b u m h) : EReal) = Cert.Spec.xp (val_main_v10 (F := Ideal) x0 x2 x3) x1 x4 x5 x6 x7 x8 b u.val m h := by
  unfold val_main_v73
  have hlt : u.val < 2057 := u.isLt
  by_cases h9 : 9 ≤ u.val
  · refine (pad_apply_of_inside ![0, 9, 0, 0] ![0, 0, 0, 0] ![0, 0, 0, 0] _ _ Gen.pads_S4x2048x4x1024_S4x2057x4x1024_000_900_000_000 Gen.h_S_ (ix4 b u m h)
      (ix4 b (⟨u.val - 9, by omega⟩ : Fin 2048) m h) (fun a => match a with
      | ⟨0, _⟩ => by show b.val = 0 + b.val * (0 + 1); omega
      | ⟨1, _⟩ => by show u.val = 9 + (u.val - 9) * (0 + 1); omega
      | ⟨2, _⟩ => by show m.val = 0 + m.val * (0 + 1); omega
      | ⟨3, _⟩ => by show h.val = 0 + h.val * (0 + 1); omega)).trans ?_
    rw [RefStages.ref_xn]
    unfold Cert.Spec.xp
    rw [dif_pos ⟨h9, hlt⟩]
  · refine (pad_apply_of_not_inside (s := S4x2048x4x1024) ![0, 9, 0, 0] ![0, 0, 0, 0] ![0, 0, 0, 0] _ _
      Gen.pads_S4x2048x4x1024_S4x2057x4x1024_000_900_000_000 Gen.h_S_ (ix4 b u m h) (1 : Fin 4) ?_).trans ?_
    · intro hin
      have e : 9 ≤ u.val := hin.1
      exact h9 e
    · unfold Cert.Spec.xp
      rw [dif_neg (fun hh => h9 hh.1)]
      exact sitofp_zero (φ := .f32)

/-- Tap 0's coefficient, broadcast over batch and time, read at an index. -/
private theorem coef0 (x9 : (⟨S4x1024x4, .f32⟩ : BufTy).Contents (Elt Ideal)) (b : Fin 4) (t : Fin 2048) (m : Fin 4) (h : Fin 1024) :
    (val_main_v79 (F := Ideal) x9 (ix4 b t m h) : EReal) = x9 (ix3 m h 0) := by
  rw [val_main_v79_apply, val_main_v78_apply, val_main_v76_apply, val_main_v75_apply]
  refine congrArg x9 (funext fun a => Fin.ext ?_)
  match a with
  | ⟨0, _⟩ => show (m.val * 1024 + h.val) / 1024 = m.val; omega
  | ⟨1, _⟩ => show (m.val * 1024 + h.val) / 1 % 1024 = h.val; omega
  | ⟨2, _⟩ => rfl

/-- Tap 0: its coefficient times the padded sequence 0 rows on. -/
private theorem tap0 (x0 : (⟨S4x2048x8, .i32⟩ : BufTy).Contents (Elt Ideal)) (x1 : (⟨S4x2048x4x1024, .f32⟩ : BufTy).Contents (Elt Ideal))
    (x2 : (⟨S4000506x64, .f32⟩ : BufTy).Contents (Elt Ideal)) (x3 : (⟨S8, .i32⟩ : BufTy).Contents (Elt Ideal))
    (x4 : (⟨S1024x512, .f32⟩ : BufTy).Contents (Elt Ideal)) (x5 : (⟨S4x1024x512, .f32⟩ : BufTy).Contents (Elt Ideal))
    (x6 x7 x8 : (⟨S4x1024, .f32⟩ : BufTy).Contents (Elt Ideal)) (x9 : (⟨S4x1024x4, .f32⟩ : BufTy).Contents (Elt Ideal)) (b : Fin 4) (t : Fin 2048) (m : Fin 4) (h : Fin 1024) :
    (val_main_v80 (F := Ideal) x0 x1 x2 x3 x4 x5 x6 x7 x8 x9 (ix4 b t m h) : EReal)
      = x9 (ix3 m h 0) * Cert.Spec.xp (val_main_v10 (F := Ideal) x0 x2 x3) x1 x4 x5 x6 x7 x8 b (t.val + 0) m h := by
  have e : idx_main_v77 (ix4 b t m h) = ix4 b (⟨t.val + 0, by omega⟩ : Fin 2057) m h :=
    funext fun a => Fin.ext (by
      match a with
      | ⟨0, _⟩ => rfl
      | ⟨1, _⟩ => show t.val = t.val + 0; omega
      | ⟨2, _⟩ => rfl
      | ⟨3, _⟩ => rfl)
  rw [val_main_v80_apply, coef0, val_main_v77_apply, e, pad_read]
  rfl

/-- Tap 1's coefficient, broadcast over batch and time, read at an index. -/
private theorem coef1 (x9 : (⟨S4x1024x4, .f32⟩ : BufTy).Contents (Elt Ideal)) (b : Fin 4) (t : Fin 2048) (m : Fin 4) (h : Fin 1024) :
    (val_main_v86 (F := Ideal) x9 (ix4 b t m h) : EReal) = x9 (ix3 m h 1) := by
  rw [val_main_v86_apply, val_main_v85_apply, val_main_v83_apply, val_main_v82_apply]
  refine congrArg x9 (funext fun a => Fin.ext ?_)
  match a with
  | ⟨0, _⟩ => show (m.val * 1024 + h.val) / 1024 = m.val; omega
  | ⟨1, _⟩ => show (m.val * 1024 + h.val) / 1 % 1024 = h.val; omega
  | ⟨2, _⟩ => rfl

/-- Tap 1: its coefficient times the padded sequence 3 rows on. -/
private theorem tap1 (x0 : (⟨S4x2048x8, .i32⟩ : BufTy).Contents (Elt Ideal)) (x1 : (⟨S4x2048x4x1024, .f32⟩ : BufTy).Contents (Elt Ideal))
    (x2 : (⟨S4000506x64, .f32⟩ : BufTy).Contents (Elt Ideal)) (x3 : (⟨S8, .i32⟩ : BufTy).Contents (Elt Ideal))
    (x4 : (⟨S1024x512, .f32⟩ : BufTy).Contents (Elt Ideal)) (x5 : (⟨S4x1024x512, .f32⟩ : BufTy).Contents (Elt Ideal))
    (x6 x7 x8 : (⟨S4x1024, .f32⟩ : BufTy).Contents (Elt Ideal)) (x9 : (⟨S4x1024x4, .f32⟩ : BufTy).Contents (Elt Ideal)) (b : Fin 4) (t : Fin 2048) (m : Fin 4) (h : Fin 1024) :
    (val_main_v87 (F := Ideal) x0 x1 x2 x3 x4 x5 x6 x7 x8 x9 (ix4 b t m h) : EReal)
      = x9 (ix3 m h 1) * Cert.Spec.xp (val_main_v10 (F := Ideal) x0 x2 x3) x1 x4 x5 x6 x7 x8 b (t.val + 3) m h := by
  have e : idx_main_v84 (ix4 b t m h) = ix4 b (⟨t.val + 3, by omega⟩ : Fin 2057) m h :=
    funext fun a => Fin.ext (by
      match a with
      | ⟨0, _⟩ => rfl
      | ⟨1, _⟩ => show 3 + t.val = t.val + 3; omega
      | ⟨2, _⟩ => rfl
      | ⟨3, _⟩ => rfl)
  rw [val_main_v87_apply, coef1, val_main_v84_apply, e, pad_read]
  rfl

/-- Tap 2's coefficient, broadcast over batch and time, read at an index. -/
private theorem coef2 (x9 : (⟨S4x1024x4, .f32⟩ : BufTy).Contents (Elt Ideal)) (b : Fin 4) (t : Fin 2048) (m : Fin 4) (h : Fin 1024) :
    (val_main_v93 (F := Ideal) x9 (ix4 b t m h) : EReal) = x9 (ix3 m h 2) := by
  rw [val_main_v93_apply, val_main_v92_apply, val_main_v90_apply, val_main_v89_apply]
  refine congrArg x9 (funext fun a => Fin.ext ?_)
  match a with
  | ⟨0, _⟩ => show (m.val * 1024 + h.val) / 1024 = m.val; omega
  | ⟨1, _⟩ => show (m.val * 1024 + h.val) / 1 % 1024 = h.val; omega
  | ⟨2, _⟩ => rfl

/-- Tap 2: its coefficient times the padded sequence 6 rows on. -/
private theorem tap2 (x0 : (⟨S4x2048x8, .i32⟩ : BufTy).Contents (Elt Ideal)) (x1 : (⟨S4x2048x4x1024, .f32⟩ : BufTy).Contents (Elt Ideal))
    (x2 : (⟨S4000506x64, .f32⟩ : BufTy).Contents (Elt Ideal)) (x3 : (⟨S8, .i32⟩ : BufTy).Contents (Elt Ideal))
    (x4 : (⟨S1024x512, .f32⟩ : BufTy).Contents (Elt Ideal)) (x5 : (⟨S4x1024x512, .f32⟩ : BufTy).Contents (Elt Ideal))
    (x6 x7 x8 : (⟨S4x1024, .f32⟩ : BufTy).Contents (Elt Ideal)) (x9 : (⟨S4x1024x4, .f32⟩ : BufTy).Contents (Elt Ideal)) (b : Fin 4) (t : Fin 2048) (m : Fin 4) (h : Fin 1024) :
    (val_main_v94 (F := Ideal) x0 x1 x2 x3 x4 x5 x6 x7 x8 x9 (ix4 b t m h) : EReal)
      = x9 (ix3 m h 2) * Cert.Spec.xp (val_main_v10 (F := Ideal) x0 x2 x3) x1 x4 x5 x6 x7 x8 b (t.val + 6) m h := by
  have e : idx_main_v91 (ix4 b t m h) = ix4 b (⟨t.val + 6, by omega⟩ : Fin 2057) m h :=
    funext fun a => Fin.ext (by
      match a with
      | ⟨0, _⟩ => rfl
      | ⟨1, _⟩ => show 6 + t.val = t.val + 6; omega
      | ⟨2, _⟩ => rfl
      | ⟨3, _⟩ => rfl)
  rw [val_main_v94_apply, coef2, val_main_v91_apply, e, pad_read]
  rfl

/-- Tap 3's coefficient, broadcast over batch and time, read at an index. -/
private theorem coef3 (x9 : (⟨S4x1024x4, .f32⟩ : BufTy).Contents (Elt Ideal)) (b : Fin 4) (t : Fin 2048) (m : Fin 4) (h : Fin 1024) :
    (val_main_v100 (F := Ideal) x9 (ix4 b t m h) : EReal) = x9 (ix3 m h 3) := by
  rw [val_main_v100_apply, val_main_v99_apply, val_main_v97_apply, val_main_v96_apply]
  refine congrArg x9 (funext fun a => Fin.ext ?_)
  match a with
  | ⟨0, _⟩ => show (m.val * 1024 + h.val) / 1024 = m.val; omega
  | ⟨1, _⟩ => show (m.val * 1024 + h.val) / 1 % 1024 = h.val; omega
  | ⟨2, _⟩ => rfl

/-- Tap 3: its coefficient times the padded sequence 9 rows on. -/
private theorem tap3 (x0 : (⟨S4x2048x8, .i32⟩ : BufTy).Contents (Elt Ideal)) (x1 : (⟨S4x2048x4x1024, .f32⟩ : BufTy).Contents (Elt Ideal))
    (x2 : (⟨S4000506x64, .f32⟩ : BufTy).Contents (Elt Ideal)) (x3 : (⟨S8, .i32⟩ : BufTy).Contents (Elt Ideal))
    (x4 : (⟨S1024x512, .f32⟩ : BufTy).Contents (Elt Ideal)) (x5 : (⟨S4x1024x512, .f32⟩ : BufTy).Contents (Elt Ideal))
    (x6 x7 x8 : (⟨S4x1024, .f32⟩ : BufTy).Contents (Elt Ideal)) (x9 : (⟨S4x1024x4, .f32⟩ : BufTy).Contents (Elt Ideal)) (b : Fin 4) (t : Fin 2048) (m : Fin 4) (h : Fin 1024) :
    (val_main_v101 (F := Ideal) x0 x1 x2 x3 x4 x5 x6 x7 x8 x9 (ix4 b t m h) : EReal)
      = x9 (ix3 m h 3) * Cert.Spec.xp (val_main_v10 (F := Ideal) x0 x2 x3) x1 x4 x5 x6 x7 x8 b (t.val + 9) m h := by
  have e : idx_main_v98 (ix4 b t m h) = ix4 b (⟨t.val + 9, by omega⟩ : Fin 2057) m h :=
    funext fun a => Fin.ext (by
      match a with
      | ⟨0, _⟩ => rfl
      | ⟨1, _⟩ => show 9 + t.val = t.val + 9; omega
      | ⟨2, _⟩ => rfl
      | ⟨3, _⟩ => rfl)
  rw [val_main_v101_apply, coef3, val_main_v98_apply, e, pad_read]
  rfl

/-- The four taps summed are the specification's convolution. -/
private theorem conv_read (x0 : (⟨S4x2048x8, .i32⟩ : BufTy).Contents (Elt Ideal)) (x1 : (⟨S4x2048x4x1024, .f32⟩ : BufTy).Contents (Elt Ideal))
    (x2 : (⟨S4000506x64, .f32⟩ : BufTy).Contents (Elt Ideal)) (x3 : (⟨S8, .i32⟩ : BufTy).Contents (Elt Ideal))
    (x4 : (⟨S1024x512, .f32⟩ : BufTy).Contents (Elt Ideal)) (x5 : (⟨S4x1024x512, .f32⟩ : BufTy).Contents (Elt Ideal))
    (x6 x7 x8 : (⟨S4x1024, .f32⟩ : BufTy).Contents (Elt Ideal)) (x9 : (⟨S4x1024x4, .f32⟩ : BufTy).Contents (Elt Ideal)) (b : Fin 4) (t : Fin 2048) (m : Fin 4) (h : Fin 1024) :
    (val_main_v102 (F := Ideal) x0 x1 x2 x3 x4 x5 x6 x7 x8 x9 (ix4 b t m h) : EReal)
      = Cert.Spec.conv (val_main_v10 (F := Ideal) x0 x2 x3) x1 x4 x5 x6 x7 x8 x9 b t m h := by
  rw [val_main_v102_apply, val_main_v95_apply, val_main_v88_apply, val_main_v81_apply, val_main_v74_apply,
    val_main_cst_15_apply, tap0, tap1, tap2, tap3]
  show (((Ideal.ofBits .f32 0x00000000#32 + _) + _) + _) + _ = _
  rw [Ideal.ofBits_zero_f32, zero_add]
  rfl

/-- The SiLU call on a value `c`: `c` times its logistic. -/
private theorem silu_read (x0 : (⟨S4x2048x8, .i32⟩ : BufTy).Contents (Elt Ideal)) (x1 : (⟨S4x2048x4x1024, .f32⟩ : BufTy).Contents (Elt Ideal))
    (x2 : (⟨S4000506x64, .f32⟩ : BufTy).Contents (Elt Ideal)) (x3 : (⟨S8, .i32⟩ : BufTy).Contents (Elt Ideal))
    (x4 : (⟨S1024x512, .f32⟩ : BufTy).Contents (Elt Ideal)) (x5 : (⟨S4x1024x512, .f32⟩ : BufTy).Contents (Elt Ideal))
    (x6 x7 x8 : (⟨S4x1024, .f32⟩ : BufTy).Contents (Elt Ideal)) (x9 : (⟨S4x1024x4, .f32⟩ : BufTy).Contents (Elt Ideal)) (i : S4x2048x4x1024.Idx) :
    (val_main_v103 (F := Ideal) x0 x1 x2 x3 x4 x5 x6 x7 x8 x9 i : EReal)
      = val_main_v102 (F := Ideal) x0 x1 x2 x3 x4 x5 x6 x7 x8 x9 i * Ideal.logistic (val_main_v102 (F := Ideal) x0 x1 x2 x3 x4 x5 x6 x7 x8 x9 i) := by
  rw [val_main_v103_apply, val_main_call1_v5_apply, val_main_call1_v4_apply, val_main_call1_cst_0_apply,
    val_main_call1_v3_apply, val_main_call1_v2_apply, val_main_call1_cst_apply, val_main_call1_v1_apply,
    val_main_call1_v0_apply]
  show _ * Ideal.div (Ideal.ofBits .f32 0x3F800000#32) (Ideal.ofBits .f32 0x3F800000#32 + Ideal.exp (-_)) = _
  rw [ofBits_one]
  rfl

/-- The reference's result array is the specification's, over the embedding rows its own gather produces. -/
theorem ref_eq (x0 : (⟨S4x2048x8, .i32⟩ : BufTy).Contents (Elt Ideal)) (x1 : (⟨S4x2048x4x1024, .f32⟩ : BufTy).Contents (Elt Ideal))
    (x2 : (⟨S4000506x64, .f32⟩ : BufTy).Contents (Elt Ideal)) (x3 : (⟨S8, .i32⟩ : BufTy).Contents (Elt Ideal))
    (x4 : (⟨S1024x512, .f32⟩ : BufTy).Contents (Elt Ideal)) (x5 : (⟨S4x1024x512, .f32⟩ : BufTy).Contents (Elt Ideal))
    (x6 x7 x8 : (⟨S4x1024, .f32⟩ : BufTy).Contents (Elt Ideal)) (x9 : (⟨S4x1024x4, .f32⟩ : BufTy).Contents (Elt Ideal)) :
    val_main_v105 (F := Ideal) x0 x1 x2 x3 x4 x5 x6 x7 x8 x9
      = Cert.Spec.G (val_main_v10 (F := Ideal) x0 x2 x3) x1 x4 x5 x6 x7 x8 x9 := by
  funext i
  obtain ⟨b, t, m, h, rfl⟩ : ∃ b t m h, i = ix4 b t m h := ⟨i 0, i 1, i 2, i 3, eq_ix4 i⟩
  rw [Cert.Spec.G_ix4, val_main_v105_apply, val_main_v104_apply, silu_read, conv_read, RefStages.ref_gated]
  rfl

end Cert.ReferenceIdeal.RefSpec

end
-- ==== Proof.lean ====
/-
  The certificate of the hashed-embedding gating layer with a causal dilated convolution.

  Both programs compute, for every batch b, position t, head m and column h,
    out = silu(conv) + gated + hidden,   conv = ∑_{j<4} conv_w[m,h,j] · xn[b, t + 3j − 9, m, h],
  where gated = gate · value, gate = logistic(√(max(|g|, 1e-6)) · sign g), g the inner product of the RMS-normalised
  key and hidden rows over 32, and xn the RMS-normalised gated value (Proof/Spec.lean). The reference computes it with
  whole-array operations (Proof/RefStages.lean, Proof/RefSpec.lean). The kernel walks each batch's sequence in tiles of
  128 rows and keeps, per head, the last nine rows of a tile's xn in a scratch for the next tile's first taps; a
  batch's first tile finds zeros there, which are the rows before the sequence's start. One head as vector functions
  is Proof/HeadVec.lean, the stores of a run of the body Proof/Pieces.lean, a run read entry by entry
  Proof/BlockSem.lean, the blocks as entries of the argument arrays Proof/Arrays.lean, and the result array
  Proof/KernelValue.lean. The two differ only where the extended reals do not see it: the order of the sums, the
  weights transposed before the call, the product with 1/32 for the quotient by 32, and the sign taken by comparisons.
-/
import proofs.«400853_j56710748176506_3_alg».proof.Defs
import proofs.«400853_j56710748176506_3_alg».proof.Proof.Gen.Kernel
import proofs.«400853_j56710748176506_3_alg».proof.Proof.Gen.Kernel.Skeleton
import proofs.«400853_j56710748176506_3_alg».proof.Proof.Gen.Kernel.Launch
import proofs.«400853_j56710748176506_3_alg».proof.Proof.Gen.Kernel.Points
import proofs.«400853_j56710748176506_3_alg».proof.Proof.Gen.Kernel.Frame
import proofs.«400853_j56710748176506_3_alg».proof.Proof.Gen.KernelIdeal
import proofs.«400853_j56710748176506_3_alg».proof.Proof.Gen.KernelIdeal.Skeleton
import proofs.«400853_j56710748176506_3_alg».proof.Proof.Gen.KernelIdeal.Launch
import proofs.«400853_j56710748176506_3_alg».proof.Proof.Gen.KernelIdeal.Points
import proofs.«400853_j56710748176506_3_alg».proof.Proof.Gen.KernelIdeal.Frame
import proofs.«400853_j56710748176506_3_alg».proof.Proof.Gen.ReferenceIdeal
import proofs.«400853_j56710748176506_3_alg».proof.Proof.Gen.Pre_finite_inputs
import proofs.«400853_j56710748176506_3_alg».proof.Proof.Gen.KernelIdeal.Value
import proofs.«400853_j56710748176506_3_alg».proof.Proof.Gen.ReferenceIdeal.Run
import proofs.«400853_j56710748176506_3_alg».proof.Proof.Gen.ReferenceIdeal.Read
import proofs.«400853_j56710748176506_3_alg».proof.Proof.KernelValue
import proofs.«400853_j56710748176506_3_alg».proof.Proof.RefSpec
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Each head's sign: one with the operand's sign bit is, on the extended reals, −1 below zero and 1 otherwise. -/
theorem preserves : Cert.preserves_Kernel_KernelIdeal :=
  ⟨IdealRules.sign_bit.statement Cert.KernelIdeal.S128x1 .f32, IdealRules.sign_bit.statement Cert.KernelIdeal.S128x1 .f32,
    IdealRules.sign_bit.statement Cert.KernelIdeal.S128x1 .f32, IdealRules.sign_bit.statement Cert.KernelIdeal.S128x1 .f32⟩

/-- Both runs end at the specification's array over the same embedding rows: the kernel's by its tiles
    (`KernelValue.run`), the reference's stage by stage (`RefSpec.ref_eq`); the arguments agree. -/
theorem algebraic : Cert.algebraic_KernelIdeal_ReferenceIdeal := by
  intro m ρ m' ρ' _ hagree
  refine ⟨fun c => Cert.KernelIdeal.KernelValue.GA m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v105_eq, Cert.ReferenceIdeal.RefSpec.ref_eq, a0, a1, a2, a3, a4, a5, a6, a7, a8, a9,
    ← Cert.KernelIdeal.Arrays.aEmb_eq m c]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
